-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v275)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v275) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S8x128x128 : Shape := ⟨3, ![8, 128, 128]⟩
abbrev S8x128 : Shape := ⟨2, ![8, 128]⟩
abbrev S8x64000 : Shape := ⟨2, ![8, 64000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S50000x128 .f32) (main_arg1 : FVec F S8x128x128 .f32) (main_arg2 : FVec F S8x128 .f32) (main_arg3 : IVec S8x64000 32) (main_arg4 : IVec S8x64000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  main_v13
-- ==== Kernel.lean ====
abbrev S50000x128 : Shape := ⟨2, ![50000, 128]⟩
abbrev S8x128x128 : Shape := ⟨3, ![8, 128, 128]⟩
abbrev S8x128 : Shape := ⟨2, ![8, 128]⟩
abbrev S8x64000 : Shape := ⟨2, ![8, 64000]⟩
abbrev S1x64000 : Shape := ⟨2, ![1, 64000]⟩
abbrev S64000 : Shape := ⟨1, ![64000]⟩
abbrev S_ : Shape := ⟨0, ![]⟩
abbrev S50000 : Shape := ⟨1, ![50000]⟩
abbrev S64000x1 : Shape := ⟨2, ![64000, 1]⟩
abbrev S50000x1 : Shape := ⟨2, ![50000, 1]⟩
abbrev S64000x128 : Shape := ⟨2, ![64000, 128]⟩
abbrev S1x50000x128 : Shape := ⟨3, ![1, 50000, 128]⟩
abbrev S8x50000x128 : Shape := ⟨3, ![8, 50000, 128]⟩
abbrev S8x5000x128 : Shape := ⟨3, ![8, 5000, 128]⟩
abbrev S5000x128 : Shape := ⟨2, ![5000, 128]⟩
abbrev S1x5000x128 : Shape := ⟨3, ![1, 5000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 393
  | .vmem => 6
  | .smem => 0
  | _ => 0

abbrev hbmTy0_0 (i : Nat) : BufTy := match i % 128 with
  | 0 => ⟨S50000x128, .f32⟩
  | 1 => ⟨S8x128x128, .f32⟩
  | 2 => ⟨S8x128, .f32⟩
  | 3 => ⟨S8x64000, .i32⟩
  | 4 => ⟨S8x64000, .i32⟩
  | 5 => ⟨S1x64000, .i32⟩
  | 6 => ⟨S64000, .i32⟩
  | 7 => ⟨S1x64000, .i32⟩
  | 8 => ⟨S64000, .i32⟩
  | 9 => ⟨S_, .f32⟩
  | 10 => ⟨S64000, .f32⟩
  | 11 => ⟨S_, .f32⟩
  | 12 => ⟨S50000, .f32⟩
  | 13 => ⟨S64000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S64000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S_, .i32⟩
  | 34 => ⟨S64000, .i32⟩
  | 35 => ⟨S64000, .i1⟩
  | 36 => ⟨S_, .i32⟩
  | 37 => ⟨S64000, .i32⟩
  | 38 => ⟨S64000, .i32⟩
  | 39 => ⟨S64000, .i32⟩
  | 40 => ⟨S64000x1, .i32⟩
  | 41 => ⟨S64000x128, .f32⟩
  | 42 => ⟨S_, .f32⟩
  | 43 => ⟨S50000x128, .f32⟩
  | 44 => ⟨S64000x1, .i32⟩
  | 45 => ⟨S50000x128, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S1x64000, .i32⟩
  | 53 => ⟨S64000, .i32⟩
  | 54 => ⟨S1x64000, .i32⟩
  | 55 => ⟨S64000, .i32⟩
  | 56 => ⟨S_, .f32⟩
  | 57 => ⟨S64000, .f32⟩
  | 58 => ⟨S_, .f32⟩
  | 59 => ⟨S50000, .f32⟩
  | 60 => ⟨S64000x1, .i32⟩
  | 61 => ⟨S50000, .f32⟩
  | 62 => ⟨S_, .f32⟩
  | 63 => ⟨S_, .f32⟩
  | 64 => ⟨S50000, .f32⟩
  | 65 => ⟨S50000, .f32⟩
  | 66 => ⟨S_, .f32⟩
  | 67 => ⟨S50000, .f32⟩
  | 68 => ⟨S64000x1, .i32⟩
  | 69 => ⟨S50000, .f32⟩
  | 70 => ⟨S_, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S_, .i32⟩
  | 81 => ⟨S64000, .i32⟩
  | 82 => ⟨S64000, .i1⟩
  | 83 => ⟨S_, .i32⟩
  | 84 => ⟨S64000, .i32⟩
  | 85 => ⟨S64000, .i32⟩
  | 86 => ⟨S64000, .i32⟩
  | 87 => ⟨S64000x1, .i32⟩
  | 88 => ⟨S64000x128, .f32⟩
  | 89 => ⟨S_, .f32⟩
  | 90 => ⟨S50000x128, .f32⟩
  | 91 => ⟨S64000x1, .i32⟩
  | 92 => ⟨S50000x128, .f32⟩
  | 93 => ⟨S_, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S1x64000, .i32⟩
  | 100 => ⟨S64000, .i32⟩
  | 101 => ⟨S1x64000, .i32⟩
  | 102 => ⟨S64000, .i32⟩
  | 103 => ⟨S_, .f32⟩
  | 104 => ⟨S64000, .f32⟩
  | 105 => ⟨S_, .f32⟩
  | 106 => ⟨S50000, .f32⟩
  | 107 => ⟨S64000x1, .i32⟩
  | 108 => ⟨S50000, .f32⟩
  | 109 => ⟨S_, .f32⟩
  | 110 => ⟨S_, .f32⟩
  | 111 => ⟨S50000, .f32⟩
  | 112 => ⟨S50000, .f32⟩
  | 113 => ⟨S_, .f32⟩
  | 114 => ⟨S50000, .f32⟩
  | 115 => ⟨S64000x1, .i32⟩
  | 116 => ⟨S50000, .f32⟩
  | 117 => ⟨S_, .f32⟩
  | 118 => ⟨S_, .f32⟩
  | 119 => ⟨S50000, .f32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S64000, .i32⟩
  | 1 => ⟨S64000, .i1⟩
  | 2 => ⟨S_, .i32⟩
  | 3 => ⟨S64000, .i32⟩
  | 4 => ⟨S64000, .i32⟩
  | 5 => ⟨S64000, .i32⟩
  | 6 => ⟨S64000x1, .i32⟩
  | 7 => ⟨S64000x128, .f32⟩
  | 8 => ⟨S_, .f32⟩
  | 9 => ⟨S50000x128, .f32⟩
  | 10 => ⟨S64000x1, .i32⟩
  | 11 => ⟨S50000x128, .f32⟩
  | 12 => ⟨S_, .f32⟩
  | 13 => ⟨S50000, .f32⟩
  | 14 => ⟨S50000, .f32⟩
  | 15 => ⟨S50000x1, .f32⟩
  | 16 => ⟨S50000x128, .f32⟩
  | 17 => ⟨S50000x128, .f32⟩
  | 18 => ⟨S1x64000, .i32⟩
  | 19 => ⟨S64000, .i32⟩
  | 20 => ⟨S1x64000, .i32⟩
  | 21 => ⟨S64000, .i32⟩
  | 22 => ⟨S_, .f32⟩
  | 23 => ⟨S64000, .f32⟩
  | 24 => ⟨S_, .f32⟩
  | 25 => ⟨S50000, .f32⟩
  | 26 => ⟨S64000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S64000x1, .i32⟩
  | 35 => ⟨S50000, .f32⟩
  | 36 => ⟨S_, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S_, .i32⟩
  | 47 => ⟨S64000, .i32⟩
  | 48 => ⟨S64000, .i1⟩
  | 49 => ⟨S_, .i32⟩
  | 50 => ⟨S64000, .i32⟩
  | 51 => ⟨S64000, .i32⟩
  | 52 => ⟨S64000, .i32⟩
  | 53 => ⟨S64000x1, .i32⟩
  | 54 => ⟨S64000x128, .f32⟩
  | 55 => ⟨S_, .f32⟩
  | 56 => ⟨S50000x128, .f32⟩
  | 57 => ⟨S64000x1, .i32⟩
  | 58 => ⟨S50000x128, .f32⟩
  | 59 => ⟨S_, .f32⟩
  | 60 => ⟨S50000, .f32⟩
  | 61 => ⟨S50000, .f32⟩
  | 62 => ⟨S50000x1, .f32⟩
  | 63 => ⟨S50000x128, .f32⟩
  | 64 => ⟨S50000x128, .f32⟩
  | 65 => ⟨S1x64000, .i32⟩
  | 66 => ⟨S64000, .i32⟩
  | 67 => ⟨S1x64000, .i32⟩
  | 68 => ⟨S64000, .i32⟩
  | 69 => ⟨S_, .f32⟩
  | 70 => ⟨S64000, .f32⟩
  | 71 => ⟨S_, .f32⟩
  | 72 => ⟨S50000, .f32⟩
  | 73 => ⟨S64000x1, .i32⟩
  | 74 => ⟨S50000, .f32⟩
  | 75 => ⟨S_, .f32⟩
  | 76 => ⟨S_, .f32⟩
  | 77 => ⟨S50000, .f32⟩
  | 78 => ⟨S50000, .f32⟩
  | 79 => ⟨S_, .f32⟩
  | 80 => ⟨S50000, .f32⟩
  | 81 => ⟨S64000x1, .i32⟩
  | 82 => ⟨S50000, .f32⟩
  | 83 => ⟨S_, .f32⟩
  | 84 => ⟨S_, .f32⟩
  | 85 => ⟨S50000, .f32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x128, .f32⟩
  | 92 => ⟨S50000x128, .f32⟩
  | 93 => ⟨S_, .i32⟩
  | 94 => ⟨S64000, .i32⟩
  | 95 => ⟨S64000, .i1⟩
  | 96 => ⟨S_, .i32⟩
  | 97 => ⟨S64000, .i32⟩
  | 98 => ⟨S64000, .i32⟩
  | 99 => ⟨S64000, .i32⟩
  | 100 => ⟨S64000x1, .i32⟩
  | 101 => ⟨S64000x128, .f32⟩
  | 102 => ⟨S_, .f32⟩
  | 103 => ⟨S50000x128, .f32⟩
  | 104 => ⟨S64000x1, .i32⟩
  | 105 => ⟨S50000x128, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S1x64000, .i32⟩
  | 113 => ⟨S64000, .i32⟩
  | 114 => ⟨S1x64000, .i32⟩
  | 115 => ⟨S64000, .i32⟩
  | 116 => ⟨S_, .f32⟩
  | 117 => ⟨S64000, .f32⟩
  | 118 => ⟨S_, .f32⟩
  | 119 => ⟨S50000, .f32⟩
  | 120 => ⟨S64000x1, .i32⟩
  | 121 => ⟨S50000, .f32⟩
  | 122 => ⟨S_, .f32⟩
  | 123 => ⟨S_, .f32⟩
  | 124 => ⟨S50000, .f32⟩
  | 125 => ⟨S50000, .f32⟩
  | 126 => ⟨S_, .f32⟩
  | 127 => ⟨S50000, .f32⟩
  | _ => ⟨S50000x128, .f32⟩

abbrev hbmTy0_2 (i : Nat) : BufTy := match i % 128 with
  | 0 => ⟨S64000x1, .i32⟩
  | 1 => ⟨S50000, .f32⟩
  | 2 => ⟨S_, .f32⟩
  | 3 => ⟨S_, .f32⟩
  | 4 => ⟨S50000, .f32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x128, .f32⟩
  | 11 => ⟨S50000x128, .f32⟩
  | 12 => ⟨S_, .i32⟩
  | 13 => ⟨S64000, .i32⟩
  | 14 => ⟨S64000, .i1⟩
  | 15 => ⟨S_, .i32⟩
  | 16 => ⟨S64000, .i32⟩
  | 17 => ⟨S64000, .i32⟩
  | 18 => ⟨S64000, .i32⟩
  | 19 => ⟨S64000x1, .i32⟩
  | 20 => ⟨S64000x128, .f32⟩
  | 21 => ⟨S_, .f32⟩
  | 22 => ⟨S50000x128, .f32⟩
  | 23 => ⟨S64000x1, .i32⟩
  | 24 => ⟨S50000x128, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S1x64000, .i32⟩
  | 32 => ⟨S64000, .i32⟩
  | 33 => ⟨S1x64000, .i32⟩
  | 34 => ⟨S64000, .i32⟩
  | 35 => ⟨S_, .f32⟩
  | 36 => ⟨S64000, .f32⟩
  | 37 => ⟨S_, .f32⟩
  | 38 => ⟨S50000, .f32⟩
  | 39 => ⟨S64000x1, .i32⟩
  | 40 => ⟨S50000, .f32⟩
  | 41 => ⟨S_, .f32⟩
  | 42 => ⟨S_, .f32⟩
  | 43 => ⟨S50000, .f32⟩
  | 44 => ⟨S50000, .f32⟩
  | 45 => ⟨S_, .f32⟩
  | 46 => ⟨S50000, .f32⟩
  | 47 => ⟨S64000x1, .i32⟩
  | 48 => ⟨S50000, .f32⟩
  | 49 => ⟨S_, .f32⟩
  | 50 => ⟨S_, .f32⟩
  | 51 => ⟨S50000, .f32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S_, .i32⟩
  | 60 => ⟨S64000, .i32⟩
  | 61 => ⟨S64000, .i1⟩
  | 62 => ⟨S_, .i32⟩
  | 63 => ⟨S64000, .i32⟩
  | 64 => ⟨S64000, .i32⟩
  | 65 => ⟨S64000, .i32⟩
  | 66 => ⟨S64000x1, .i32⟩
  | 67 => ⟨S64000x128, .f32⟩
  | 68 => ⟨S_, .f32⟩
  | 69 => ⟨S50000x128, .f32⟩
  | 70 => ⟨S64000x1, .i32⟩
  | 71 => ⟨S50000x128, .f32⟩
  | 72 => ⟨S_, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S1x64000, .i32⟩
  | 79 => ⟨S64000, .i32⟩
  | 80 => ⟨S1x64000, .i32⟩
  | 81 => ⟨S64000, .i32⟩
  | 82 => ⟨S_, .f32⟩
  | 83 => ⟨S64000, .f32⟩
  | 84 => ⟨S_, .f32⟩
  | 85 => ⟨S50000, .f32⟩
  | 86 => ⟨S64000x1, .i32⟩
  | 87 => ⟨S50000, .f32⟩
  | 88 => ⟨S_, .f32⟩
  | 89 => ⟨S_, .f32⟩
  | 90 => ⟨S50000, .f32⟩
  | 91 => ⟨S50000, .f32⟩
  | 92 => ⟨S_, .f32⟩
  | 93 => ⟨S50000, .f32⟩
  | 94 => ⟨S64000x1, .i32⟩
  | 95 => ⟨S50000, .f32⟩
  | 96 => ⟨S_, .f32⟩
  | 97 => ⟨S_, .f32⟩
  | 98 => ⟨S50000, .f32⟩
  | 99 => ⟨S50000, .f32⟩
  | 100 => ⟨S_, .f32⟩
  | 101 => ⟨S50000, .f32⟩
  | 102 => ⟨S50000, .f32⟩
  | 103 => ⟨S50000x1, .f32⟩
  | 104 => ⟨S50000x128, .f32⟩
  | 105 => ⟨S50000x128, .f32⟩
  | 106 => ⟨S_, .i32⟩
  | 107 => ⟨S64000, .i32⟩
  | 108 => ⟨S64000, .i1⟩
  | 109 => ⟨S_, .i32⟩
  | 110 => ⟨S64000, .i32⟩
  | 111 => ⟨S64000, .i32⟩
  | 112 => ⟨S64000, .i32⟩
  | 113 => ⟨S64000x1, .i32⟩
  | 114 => ⟨S64000x128, .f32⟩
  | 115 => ⟨S_, .f32⟩
  | 116 => ⟨S50000x128, .f32⟩
  | 117 => ⟨S64000x1, .i32⟩
  | 118 => ⟨S50000x128, .f32⟩
  | 119 => ⟨S_, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S1x50000x128, .f32⟩
  | 126 => ⟨S1x50000x128, .f32⟩
  | 127 => ⟨S1x50000x128, .f32⟩
  | _ => ⟨S50000x128, .f32⟩

abbrev hbmTy0_3 (i : Nat) : BufTy := match i % 128 with
  | 0 => ⟨S1x50000x128, .f32⟩
  | 1 => ⟨S1x50000x128, .f32⟩
  | 2 => ⟨S1x50000x128, .f32⟩
  | 3 => ⟨S1x50000x128, .f32⟩
  | 4 => ⟨S1x50000x128, .f32⟩
  | 5 => ⟨S8x50000x128, .f32⟩
  | 6 => ⟨S8x50000x128, .bf16⟩
  | 7 => ⟨S8x128x128, .bf16⟩
  | 8 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S8x5000x128, .bf16⟩
  | .local _ .vmem, ⟨1, _⟩ => ⟨S8x5000x128, .bf16⟩
  | .local _ .vmem, ⟨2, _⟩ => ⟨S8x128x128, .bf16⟩
  | .local _ .vmem, ⟨3, _⟩ => ⟨S8x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_call2_v0 : Ref sig .tc := ⟨.hbm, 63, rfl⟩
abbrev main_call2_v1 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_call3_v0 : Ref sig .tc := ⟨.hbm, 71, rfl⟩
abbrev main_call3_v1 : Ref sig .tc := ⟨.hbm, 72, rfl⟩
abbrev main_v45 : Ref sig .tc := ⟨.hbm, 73, rfl⟩
abbrev main_cst_13 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_v51 : Ref sig .tc := ⟨.hbm, 81, rfl⟩
abbrev main_v52 : Ref sig .tc := ⟨.hbm, 82, rfl⟩
abbrev main_c_15 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_17 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_18 : Ref sig .tc := ⟨.hbm, 103, rfl⟩
abbrev main_v70 : Ref sig .tc := ⟨.hbm, 104, rfl⟩
abbrev main_cst_19 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_20 : Ref sig .tc := ⟨.hbm, 109, rfl⟩
abbrev main_call4_v0 : Ref sig .tc := ⟨.hbm, 110, rfl⟩
abbrev main_call4_v1 : Ref sig .tc := ⟨.hbm, 111, rfl⟩
abbrev main_v74 : Ref sig .tc := ⟨.hbm, 112, rfl⟩
abbrev main_cst_21 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_22 : Ref sig .tc := ⟨.hbm, 117, rfl⟩
abbrev main_call5_v0 : Ref sig .tc := ⟨.hbm, 118, rfl⟩
abbrev main_call5_v1 : Ref sig .tc := ⟨.hbm, 119, rfl⟩
abbrev main_v78 : Ref sig .tc := ⟨.hbm, 120, rfl⟩
abbrev main_cst_23 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_24 : Ref sig .tc := ⟨.hbm, 127, rfl⟩
abbrev main_v84 : Ref sig .tc := ⟨.hbm, 128, rfl⟩
abbrev main_v85 : Ref sig .tc := ⟨.hbm, 129, rfl⟩
abbrev main_c_25 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_26 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_27 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_28 : Ref sig .tc := ⟨.hbm, 150, rfl⟩
abbrev main_v103 : Ref sig .tc := ⟨.hbm, 151, rfl⟩
abbrev main_cst_29 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_30 : Ref sig .tc := ⟨.hbm, 156, rfl⟩
abbrev main_call6_v0 : Ref sig .tc := ⟨.hbm, 157, rfl⟩
abbrev main_call6_v1 : Ref sig .tc := ⟨.hbm, 158, rfl⟩
abbrev main_v107 : Ref sig .tc := ⟨.hbm, 159, rfl⟩
abbrev main_cst_31 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_32 : Ref sig .tc := ⟨.hbm, 164, rfl⟩
abbrev main_call7_v0 : Ref sig .tc := ⟨.hbm, 165, rfl⟩
abbrev main_call7_v1 : Ref sig .tc := ⟨.hbm, 166, rfl⟩
abbrev main_v111 : Ref sig .tc := ⟨.hbm, 167, rfl⟩
abbrev main_cst_33 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_c_34 : Ref sig .tc := ⟨.hbm, 174, rfl⟩
abbrev main_v117 : Ref sig .tc := ⟨.hbm, 175, rfl⟩
abbrev main_v118 : Ref sig .tc := ⟨.hbm, 176, rfl⟩
abbrev main_c_35 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_cst_36 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_37 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_cst_38 : Ref sig .tc := ⟨.hbm, 197, rfl⟩
abbrev main_v136 : Ref sig .tc := ⟨.hbm, 198, rfl⟩
abbrev main_cst_39 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_cst_40 : Ref sig .tc := ⟨.hbm, 203, rfl⟩
abbrev main_call8_v0 : Ref sig .tc := ⟨.hbm, 204, rfl⟩
abbrev main_call8_v1 : Ref sig .tc := ⟨.hbm, 205, rfl⟩
abbrev main_v140 : Ref sig .tc := ⟨.hbm, 206, rfl⟩
abbrev main_cst_41 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_42 : Ref sig .tc := ⟨.hbm, 211, rfl⟩
abbrev main_call9_v0 : Ref sig .tc := ⟨.hbm, 212, rfl⟩
abbrev main_call9_v1 : Ref sig .tc := ⟨.hbm, 213, rfl⟩
abbrev main_v144 : Ref sig .tc := ⟨.hbm, 214, rfl⟩
abbrev main_cst_43 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_c_44 : Ref sig .tc := ⟨.hbm, 221, rfl⟩
abbrev main_v150 : Ref sig .tc := ⟨.hbm, 222, rfl⟩
abbrev main_v151 : Ref sig .tc := ⟨.hbm, 223, rfl⟩
abbrev main_c_45 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_cst_46 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_cst_47 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_cst_48 : Ref sig .tc := ⟨.hbm, 244, rfl⟩
abbrev main_v169 : Ref sig .tc := ⟨.hbm, 245, rfl⟩
abbrev main_cst_49 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_cst_50 : Ref sig .tc := ⟨.hbm, 250, rfl⟩
abbrev main_call10_v0 : Ref sig .tc := ⟨.hbm, 251, rfl⟩
abbrev main_call10_v1 : Ref sig .tc := ⟨.hbm, 252, rfl⟩
abbrev main_v173 : Ref sig .tc := ⟨.hbm, 253, rfl⟩
abbrev main_cst_51 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_cst_52 : Ref sig .tc := ⟨.hbm, 258, rfl⟩
abbrev main_call11_v0 : Ref sig .tc := ⟨.hbm, 259, rfl⟩
abbrev main_call11_v1 : Ref sig .tc := ⟨.hbm, 260, rfl⟩
abbrev main_v177 : Ref sig .tc := ⟨.hbm, 261, rfl⟩
abbrev main_cst_53 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_c_54 : Ref sig .tc := ⟨.hbm, 268, rfl⟩
abbrev main_v183 : Ref sig .tc := ⟨.hbm, 269, rfl⟩
abbrev main_v184 : Ref sig .tc := ⟨.hbm, 270, rfl⟩
abbrev main_c_55 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_cst_56 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_cst_57 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_cst_58 : Ref sig .tc := ⟨.hbm, 291, rfl⟩
abbrev main_v202 : Ref sig .tc := ⟨.hbm, 292, rfl⟩
abbrev main_cst_59 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_cst_60 : Ref sig .tc := ⟨.hbm, 297, rfl⟩
abbrev main_call12_v0 : Ref sig .tc := ⟨.hbm, 298, rfl⟩
abbrev main_call12_v1 : Ref sig .tc := ⟨.hbm, 299, rfl⟩
abbrev main_v206 : Ref sig .tc := ⟨.hbm, 300, rfl⟩
abbrev main_cst_61 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_cst_62 : Ref sig .tc := ⟨.hbm, 305, rfl⟩
abbrev main_call13_v0 : Ref sig .tc := ⟨.hbm, 306, rfl⟩
abbrev main_call13_v1 : Ref sig .tc := ⟨.hbm, 307, rfl⟩
abbrev main_v210 : Ref sig .tc := ⟨.hbm, 308, rfl⟩
abbrev main_cst_63 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_c_64 : Ref sig .tc := ⟨.hbm, 315, rfl⟩
abbrev main_v216 : Ref sig .tc := ⟨.hbm, 316, rfl⟩
abbrev main_v217 : Ref sig .tc := ⟨.hbm, 317, rfl⟩
abbrev main_c_65 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_cst_66 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_cst_67 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_cst_68 : Ref sig .tc := ⟨.hbm, 338, rfl⟩
abbrev main_v235 : Ref sig .tc := ⟨.hbm, 339, rfl⟩
abbrev main_cst_69 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_cst_70 : Ref sig .tc := ⟨.hbm, 344, rfl⟩
abbrev main_call14_v0 : Ref sig .tc := ⟨.hbm, 345, rfl⟩
abbrev main_call14_v1 : Ref sig .tc := ⟨.hbm, 346, rfl⟩
abbrev main_v239 : Ref sig .tc := ⟨.hbm, 347, rfl⟩
abbrev main_cst_71 : Ref sig .tc := ⟨.hbm, 348, rfl⟩
abbrev main_v240 : Ref sig .tc := ⟨.hbm, 349, rfl⟩
abbrev main_v241 : Ref sig .tc := ⟨.hbm, 350, rfl⟩
abbrev main_v242 : Ref sig .tc := ⟨.hbm, 351, rfl⟩
abbrev main_cst_72 : Ref sig .tc := ⟨.hbm, 352, rfl⟩
abbrev main_call15_v0 : Ref sig .tc := ⟨.hbm, 353, rfl⟩
abbrev main_call15_v1 : Ref sig .tc := ⟨.hbm, 354, rfl⟩
abbrev main_v243 : Ref sig .tc := ⟨.hbm, 355, rfl⟩
abbrev main_cst_73 : Ref sig .tc := ⟨.hbm, 356, rfl⟩
abbrev main_v244 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_c_74 : Ref sig .tc := ⟨.hbm, 362, rfl⟩
abbrev main_v249 : Ref sig .tc := ⟨.hbm, 363, rfl⟩
abbrev main_v250 : Ref sig .tc := ⟨.hbm, 364, rfl⟩
abbrev main_c_75 : Ref sig .tc := ⟨.hbm, 365, rfl⟩
abbrev main_v251 : Ref sig .tc := ⟨.hbm, 366, rfl⟩
abbrev main_v252 : Ref sig .tc := ⟨.hbm, 367, rfl⟩
abbrev main_v253 : Ref sig .tc := ⟨.hbm, 368, rfl⟩
abbrev main_v254 : Ref sig .tc := ⟨.hbm, 369, rfl⟩
abbrev main_v255 : Ref sig .tc := ⟨.hbm, 370, rfl⟩
abbrev main_cst_76 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_cst_77 : Ref sig .tc := ⟨.hbm, 375, rfl⟩
abbrev main_v259 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_v263 : Ref sig .tc := ⟨.hbm, 380, rfl⟩
abbrev main_v264 : Ref sig .tc := ⟨.hbm, 381, rfl⟩
abbrev main_v265 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_v269 : Ref sig .tc := ⟨.hbm, 386, rfl⟩
abbrev main_v270 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_v274 : Ref sig .tc := ⟨.hbm, 391, rfl⟩
abbrev main_v275 : Ref sig .tc := ⟨.hbm, 392, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x64000_S1x64000_0_0 : S8x64000.Slices ![0, 0] S1x64000
  shapeCasts_S1x64000_S64000 : S1x64000.ShapeCasts S64000
  bcast_S_S64000 : S_.BroadcastsInDim S64000 (![] : Fin 0 → Fin S64000.rank)
  bcast_S_S50000 : S_.BroadcastsInDim S50000 (![] : Fin 0 → Fin S50000.rank)
  bcast_S64000_S64000x1_0 : S64000.BroadcastsInDim S64000x1 (![0] : Fin 1 → Fin S64000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S8x64000_S1x64000_1_0 : S8x64000.Slices ![1, 0] S1x64000
  slices_S8x64000_S1x64000_2_0 : S8x64000.Slices ![2, 0] S1x64000
  slices_S8x64000_S1x64000_3_0 : S8x64000.Slices ![3, 0] S1x64000
  slices_S8x64000_S1x64000_4_0 : S8x64000.Slices ![4, 0] S1x64000
  slices_S8x64000_S1x64000_5_0 : S8x64000.Slices ![5, 0] S1x64000
  slices_S8x64000_S1x64000_6_0 : S8x64000.Slices ![6, 0] S1x64000
  slices_S8x64000_S1x64000_7_0 : S8x64000.Slices ![7, 0] S1x64000
  bcast_S50000x128_S1x50000x128_1_2 : S50000x128.BroadcastsInDim S1x50000x128 (![1, 2] : Fin 2 → Fin S1x50000x128.rank)
  concatenates_S1x50000x128_S1x50000x128_S1x50000x128_S1x50000x128_S1x50000x128_S1x50000x128_S1x50000x128_S1x50000x128_S8x50000x128_d0 : Shape.Concatenates [S1x50000x128, S1x50000x128, S1x50000x128, S1x50000x128, S1x50000x128, S1x50000x128, S1x50000x128, S1x50000x128] S8x50000x128 0
  bitsLt_bf16_f32 : FTy.bits .bf16 < FTy.bits .f32
  inb_S8x5000x128_S1x5000x128_0_0_0 : ∀ a, (![0, 0, 0] : Fin 3 → Nat) a + S1x5000x128.size a ≤ S8x5000x128.size a
  h_S1x5000x128 : 0 < S1x5000x128.numel
  shapeCasts_S1x5000x128_S5000x128 : S1x5000x128.ShapeCasts S5000x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128 : S128.ShapeCasts S1x128
  broadcasts_S1x128_S5000x128 : S1x128.Broadcasts S5000x128
  inb_S8x5000x128_S1x5000x128_1_0_0 : ∀ a, (![1, 0, 0] : Fin 3 → Nat) a + S1x5000x128.size a ≤ S8x5000x128.size a
  inb_S8x128x128_S1x128x128_1_0_0 : ∀ a, (![1, 0, 0] : Fin 3 → Nat) a + S1x128x128.size a ≤ S8x128x128.size a
  inb_S8x128_S1x128_1_0 : ∀ a, (![1, 0] : Fin 2 → Nat) a + S1x128.size a ≤ S8x128.size a
  inb_S8x5000x128_S1x5000x128_2_0_0 : ∀ a, (![2, 0, 0] : Fin 3 → Nat) a + S1x5000x128.size a ≤ S8x5000x128.size a
  inb_S8x128x128_S1x128x128_2_0_0 : ∀ a, (![2, 0, 0] : Fin 3 → Nat) a + S1x128x128.size a ≤ S8x128x128.size a
  inb_S8x128_S1x128_2_0 : ∀ a, (![2, 0] : Fin 2 → Nat) a + S1x128.size a ≤ S8x128.size a
  inb_S8x5000x128_S1x5000x128_3_0_0 : ∀ a, (![3, 0, 0] : Fin 3 → Nat) a + S1x5000x128.size a ≤ S8x5000x128.size a
  inb_S8x128x128_S1x128x128_3_0_0 : ∀ a, (![3, 0, 0] : Fin 3 → Nat) a + S1x128x128.size a ≤ S8x128x128.size a
  inb_S8x128_S1x128_3_0 : ∀ a, (![3, 0] : Fin 2 → Nat) a + S1x128.size a ≤ S8x128.size a
  inb_S8x5000x128_S1x5000x128_4_0_0 : ∀ a, (![4, 0, 0] : Fin 3 → Nat) a + S1x5000x128.size a ≤ S8x5000x128.size a
  inb_S8x128x128_S1x128x128_4_0_0 : ∀ a, (![4, 0, 0] : Fin 3 → Nat) a + S1x128x128.size a ≤ S8x128x128.size a
  inb_S8x128_S1x128_4_0 : ∀ a, (![4, 0] : Fin 2 → Nat) a + S1x128.size a ≤ S8x128.size a
  inb_S8x5000x128_S1x5000x128_5_0_0 : ∀ a, (![5, 0, 0] : Fin 3 → Nat) a + S1x5000x128.size a ≤ S8x5000x128.size a
  inb_S8x128x128_S1x128x128_5_0_0 : ∀ a, (![5, 0, 0] : Fin 3 → Nat) a + S1x128x128.size a ≤ S8x128x128.size a
  inb_S8x128_S1x128_5_0 : ∀ a, (![5, 0] : Fin 2 → Nat) a + S1x128.size a ≤ S8x128.size a
  inb_S8x5000x128_S1x5000x128_6_0_0 : ∀ a, (![6, 0, 0] : Fin 3 → Nat) a + S1x5000x128.size a ≤ S8x5000x128.size a
  inb_S8x128x128_S1x128x128_6_0_0 : ∀ a, (![6, 0, 0] : Fin 3 → Nat) a + S1x128x128.size a ≤ S8x128x128.size a
  inb_S8x128_S1x128_6_0 : ∀ a, (![6, 0] : Fin 2 → Nat) a + S1x128.size a ≤ S8x128.size a
  inb_S8x5000x128_S1x5000x128_7_0_0 : ∀ a, (![7, 0, 0] : Fin 3 → Nat) a + S1x5000x128.size a ≤ S8x5000x128.size a
  inb_S8x128x128_S1x128x128_7_0_0 : ∀ a, (![7, 0, 0] : Fin 3 → Nat) a + S1x128x128.size a ≤ S8x128x128.size a
  inb_S8x128_S1x128_7_0 : ∀ a, (![7, 0] : Fin 2 → Nat) a + S1x128.size a ≤ S8x128.size a
  inb_S5000x128_S5000x128_0_0 : ∀ a, (![0, 0] : Fin 2 → Nat) a + S5000x128.size a ≤ S5000x128.size a
  h_S5000x128 : 0 < S5000x128.numel
  scatter_S50000_S64000x1_S64000_n_0_0_1_wf : ScatterDims.WF S50000 S64000x1 S64000 [] [0] [0] 1
  gather_S50000x128_S64000x1_S64000x128_1_0_n_n_0_1_1128_wf : GatherDims.WF S50000x128 S64000x1 S64000x128 [1] [0] [] [0] [] 1 ![1, 128]
  scatter_S50000x128_S64000x1_S64000x128_1_0_0_1_wf : ScatterDims.WF S50000x128 S64000x1 S64000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x5000x128.size a ≤ S8x50000x128.size a
  hwx0_0 : ∀ i : grid0.Coords, EltTy.bits .bf16 = 32 ∨ (Rect.block (s := S8x50000x128) S8x5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S8x128x128.size a
  hwx0_1 : ∀ i : grid0.Coords, EltTy.bits .bf16 = 32 ∨ (Rect.block (s := S8x128x128) S8x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S64000x1_S64000_n_0_0_1 : ScatterDims S50000 S64000x1 S64000 where
  updateWindowDims := []
  insertedWindowDims := [0]
  scatterDimsToOperandDims := [0]
  indexVectorDim := 1
  wf := scatter_S50000_S64000x1_S64000_n_0_0_1_wf
def gather_S50000x128_S64000x1_S64000x128_1_0_n_n_0_1_1128 : GatherDims S50000x128 S64000x1 S64000x128 where
  offsetDims := [1]
  collapsedSliceDims := [0]
  operandBatchingDims := []
  startIndicesBatchingDims := []
  startIndexMap := [0]
  indexVectorDim := 1
  sliceSizes := ![1, 128]
  wf := gather_S50000x128_S64000x1_S64000x128_1_0_n_n_0_1_1128_wf
def scatter_S50000x128_S64000x1_S64000x128_1_0_0_1 : ScatterDims S50000x128 S64000x1 S64000x128 where
  updateWindowDims := [1]
  insertedWindowDims := [0]
  scatterDimsToOperandDims := [0]
  indexVectorDim := 1
  wf := scatter_S50000x128_S64000x1_S64000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v273) S8x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v274) S8x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v275) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S8x128x128 : Shape := ⟨3, ![8, 128, 128]⟩
abbrev S8x128 : Shape := ⟨2, ![8, 128]⟩
abbrev S8x64000 : Shape := ⟨2, ![8, 64000]⟩
abbrev S_ : Shape := ⟨0, ![]⟩
abbrev S1x64000 : Shape := ⟨2, ![1, 64000]⟩
abbrev S64000 : Shape := ⟨1, ![64000]⟩
abbrev S50000 : Shape := ⟨1, ![50000]⟩
abbrev S64000x1 : Shape := ⟨2, ![64000, 1]⟩
abbrev S50000x1 : Shape := ⟨2, ![50000, 1]⟩
abbrev S64000x128 : Shape := ⟨2, ![64000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 455
  | .vmem => 0
  | .smem => 0
  | _ => 0

abbrev hbmTy0_0 (i : Nat) : BufTy := match i % 128 with
  | 0 => ⟨S50000x128, .f32⟩
  | 1 => ⟨S8x128x128, .f32⟩
  | 2 => ⟨S8x128, .f32⟩
  | 3 => ⟨S8x64000, .i32⟩
  | 4 => ⟨S8x64000, .i32⟩
  | 5 => ⟨S_, .f32⟩
  | 6 => ⟨S50000x128, .f32⟩
  | 7 => ⟨S1x64000, .i32⟩
  | 8 => ⟨S64000, .i32⟩
  | 9 => ⟨S1x64000, .i32⟩
  | 10 => ⟨S64000, .i32⟩
  | 11 => ⟨S_, .f32⟩
  | 12 => ⟨S64000, .f32⟩
  | 13 => ⟨S_, .f32⟩
  | 14 => ⟨S50000, .f32⟩
  | 15 => ⟨S64000x1, .i32⟩
  | 16 => ⟨S50000, .f32⟩
  | 17 => ⟨S_, .f32⟩
  | 18 => ⟨S_, .f32⟩
  | 19 => ⟨S50000, .f32⟩
  | 20 => ⟨S50000, .f32⟩
  | 21 => ⟨S_, .f32⟩
  | 22 => ⟨S50000, .f32⟩
  | 23 => ⟨S64000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S_, .i32⟩
  | 36 => ⟨S64000, .i32⟩
  | 37 => ⟨S64000, .i1⟩
  | 38 => ⟨S_, .i32⟩
  | 39 => ⟨S64000, .i32⟩
  | 40 => ⟨S64000, .i32⟩
  | 41 => ⟨S64000, .i32⟩
  | 42 => ⟨S64000x1, .i32⟩
  | 43 => ⟨S64000x128, .f32⟩
  | 44 => ⟨S_, .f32⟩
  | 45 => ⟨S50000x128, .f32⟩
  | 46 => ⟨S64000x1, .i32⟩
  | 47 => ⟨S50000x128, .f32⟩
  | 48 => ⟨S1x128x128, .f32⟩
  | 49 => ⟨S128x128, .f32⟩
  | 50 => ⟨S50000x128, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S50000x128, .f32⟩
  | 63 => ⟨S1x64000, .i32⟩
  | 64 => ⟨S64000, .i32⟩
  | 65 => ⟨S1x64000, .i32⟩
  | 66 => ⟨S64000, .i32⟩
  | 67 => ⟨S_, .f32⟩
  | 68 => ⟨S64000, .f32⟩
  | 69 => ⟨S_, .f32⟩
  | 70 => ⟨S50000, .f32⟩
  | 71 => ⟨S64000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S_, .f32⟩
  | 78 => ⟨S50000, .f32⟩
  | 79 => ⟨S64000x1, .i32⟩
  | 80 => ⟨S50000, .f32⟩
  | 81 => ⟨S_, .f32⟩
  | 82 => ⟨S_, .f32⟩
  | 83 => ⟨S50000, .f32⟩
  | 84 => ⟨S50000, .f32⟩
  | 85 => ⟨S_, .f32⟩
  | 86 => ⟨S50000, .f32⟩
  | 87 => ⟨S50000, .f32⟩
  | 88 => ⟨S50000x1, .f32⟩
  | 89 => ⟨S50000x128, .f32⟩
  | 90 => ⟨S50000x128, .f32⟩
  | 91 => ⟨S_, .i32⟩
  | 92 => ⟨S64000, .i32⟩
  | 93 => ⟨S64000, .i1⟩
  | 94 => ⟨S_, .i32⟩
  | 95 => ⟨S64000, .i32⟩
  | 96 => ⟨S64000, .i32⟩
  | 97 => ⟨S64000, .i32⟩
  | 98 => ⟨S64000x1, .i32⟩
  | 99 => ⟨S64000x128, .f32⟩
  | 100 => ⟨S_, .f32⟩
  | 101 => ⟨S50000x128, .f32⟩
  | 102 => ⟨S64000x1, .i32⟩
  | 103 => ⟨S50000x128, .f32⟩
  | 104 => ⟨S1x128x128, .f32⟩
  | 105 => ⟨S128x128, .f32⟩
  | 106 => ⟨S50000x128, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S50000x128, .f32⟩
  | 119 => ⟨S1x64000, .i32⟩
  | 120 => ⟨S64000, .i32⟩
  | 121 => ⟨S1x64000, .i32⟩
  | 122 => ⟨S64000, .i32⟩
  | 123 => ⟨S_, .f32⟩
  | 124 => ⟨S64000, .f32⟩
  | 125 => ⟨S_, .f32⟩
  | 126 => ⟨S50000, .f32⟩
  | 127 => ⟨S64000x1, .i32⟩
  | _ => ⟨S50000x128, .f32⟩

abbrev hbmTy0_1 (i : Nat) : BufTy := match i % 128 with
  | 0 => ⟨S50000, .f32⟩
  | 1 => ⟨S_, .f32⟩
  | 2 => ⟨S_, .f32⟩
  | 3 => ⟨S50000, .f32⟩
  | 4 => ⟨S50000, .f32⟩
  | 5 => ⟨S_, .f32⟩
  | 6 => ⟨S50000, .f32⟩
  | 7 => ⟨S64000x1, .i32⟩
  | 8 => ⟨S50000, .f32⟩
  | 9 => ⟨S_, .f32⟩
  | 10 => ⟨S_, .f32⟩
  | 11 => ⟨S50000, .f32⟩
  | 12 => ⟨S50000, .f32⟩
  | 13 => ⟨S_, .f32⟩
  | 14 => ⟨S50000, .f32⟩
  | 15 => ⟨S50000, .f32⟩
  | 16 => ⟨S50000x1, .f32⟩
  | 17 => ⟨S50000x128, .f32⟩
  | 18 => ⟨S50000x128, .f32⟩
  | 19 => ⟨S_, .i32⟩
  | 20 => ⟨S64000, .i32⟩
  | 21 => ⟨S64000, .i1⟩
  | 22 => ⟨S_, .i32⟩
  | 23 => ⟨S64000, .i32⟩
  | 24 => ⟨S64000, .i32⟩
  | 25 => ⟨S64000, .i32⟩
  | 26 => ⟨S64000x1, .i32⟩
  | 27 => ⟨S64000x128, .f32⟩
  | 28 => ⟨S_, .f32⟩
  | 29 => ⟨S50000x128, .f32⟩
  | 30 => ⟨S64000x1, .i32⟩
  | 31 => ⟨S50000x128, .f32⟩
  | 32 => ⟨S1x128x128, .f32⟩
  | 33 => ⟨S128x128, .f32⟩
  | 34 => ⟨S50000x128, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S50000x128, .f32⟩
  | 47 => ⟨S1x64000, .i32⟩
  | 48 => ⟨S64000, .i32⟩
  | 49 => ⟨S1x64000, .i32⟩
  | 50 => ⟨S64000, .i32⟩
  | 51 => ⟨S_, .f32⟩
  | 52 => ⟨S64000, .f32⟩
  | 53 => ⟨S_, .f32⟩
  | 54 => ⟨S50000, .f32⟩
  | 55 => ⟨S64000x1, .i32⟩
  | 56 => ⟨S50000, .f32⟩
  | 57 => ⟨S_, .f32⟩
  | 58 => ⟨S_, .f32⟩
  | 59 => ⟨S50000, .f32⟩
  | 60 => ⟨S50000, .f32⟩
  | 61 => ⟨S_, .f32⟩
  | 62 => ⟨S50000, .f32⟩
  | 63 => ⟨S64000x1, .i32⟩
  | 64 => ⟨S50000, .f32⟩
  | 65 => ⟨S_, .f32⟩
  | 66 => ⟨S_, .f32⟩
  | 67 => ⟨S50000, .f32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S_, .i32⟩
  | 76 => ⟨S64000, .i32⟩
  | 77 => ⟨S64000, .i1⟩
  | 78 => ⟨S_, .i32⟩
  | 79 => ⟨S64000, .i32⟩
  | 80 => ⟨S64000, .i32⟩
  | 81 => ⟨S64000, .i32⟩
  | 82 => ⟨S64000x1, .i32⟩
  | 83 => ⟨S64000x128, .f32⟩
  | 84 => ⟨S_, .f32⟩
  | 85 => ⟨S50000x128, .f32⟩
  | 86 => ⟨S64000x1, .i32⟩
  | 87 => ⟨S50000x128, .f32⟩
  | 88 => ⟨S1x128x128, .f32⟩
  | 89 => ⟨S128x128, .f32⟩
  | 90 => ⟨S50000x128, .f32⟩
  | 91 => ⟨S_, .f32⟩
  | 92 => ⟨S50000, .f32⟩
  | 93 => ⟨S50000, .f32⟩
  | 94 => ⟨S50000x1, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S50000x128, .f32⟩
  | 103 => ⟨S1x64000, .i32⟩
  | 104 => ⟨S64000, .i32⟩
  | 105 => ⟨S1x64000, .i32⟩
  | 106 => ⟨S64000, .i32⟩
  | 107 => ⟨S_, .f32⟩
  | 108 => ⟨S64000, .f32⟩
  | 109 => ⟨S_, .f32⟩
  | 110 => ⟨S50000, .f32⟩
  | 111 => ⟨S64000x1, .i32⟩
  | 112 => ⟨S50000, .f32⟩
  | 113 => ⟨S_, .f32⟩
  | 114 => ⟨S_, .f32⟩
  | 115 => ⟨S50000, .f32⟩
  | 116 => ⟨S50000, .f32⟩
  | 117 => ⟨S_, .f32⟩
  | 118 => ⟨S50000, .f32⟩
  | 119 => ⟨S64000x1, .i32⟩
  | 120 => ⟨S50000, .f32⟩
  | 121 => ⟨S_, .f32⟩
  | 122 => ⟨S_, .f32⟩
  | 123 => ⟨S50000, .f32⟩
  | 124 => ⟨S50000, .f32⟩
  | 125 => ⟨S_, .f32⟩
  | 126 => ⟨S50000, .f32⟩
  | 127 => ⟨S50000, .f32⟩
  | _ => ⟨S50000x128, .f32⟩

abbrev hbmTy0_2 (i : Nat) : BufTy := match i % 128 with
  | 0 => ⟨S50000x1, .f32⟩
  | 1 => ⟨S50000x128, .f32⟩
  | 2 => ⟨S50000x128, .f32⟩
  | 3 => ⟨S_, .i32⟩
  | 4 => ⟨S64000, .i32⟩
  | 5 => ⟨S64000, .i1⟩
  | 6 => ⟨S_, .i32⟩
  | 7 => ⟨S64000, .i32⟩
  | 8 => ⟨S64000, .i32⟩
  | 9 => ⟨S64000, .i32⟩
  | 10 => ⟨S64000x1, .i32⟩
  | 11 => ⟨S64000x128, .f32⟩
  | 12 => ⟨S_, .f32⟩
  | 13 => ⟨S50000x128, .f32⟩
  | 14 => ⟨S64000x1, .i32⟩
  | 15 => ⟨S50000x128, .f32⟩
  | 16 => ⟨S1x128x128, .f32⟩
  | 17 => ⟨S128x128, .f32⟩
  | 18 => ⟨S50000x128, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S50000x128, .f32⟩
  | 31 => ⟨S1x64000, .i32⟩
  | 32 => ⟨S64000, .i32⟩
  | 33 => ⟨S1x64000, .i32⟩
  | 34 => ⟨S64000, .i32⟩
  | 35 => ⟨S_, .f32⟩
  | 36 => ⟨S64000, .f32⟩
  | 37 => ⟨S_, .f32⟩
  | 38 => ⟨S50000, .f32⟩
  | 39 => ⟨S64000x1, .i32⟩
  | 40 => ⟨S50000, .f32⟩
  | 41 => ⟨S_, .f32⟩
  | 42 => ⟨S_, .f32⟩
  | 43 => ⟨S50000, .f32⟩
  | 44 => ⟨S50000, .f32⟩
  | 45 => ⟨S_, .f32⟩
  | 46 => ⟨S50000, .f32⟩
  | 47 => ⟨S64000x1, .i32⟩
  | 48 => ⟨S50000, .f32⟩
  | 49 => ⟨S_, .f32⟩
  | 50 => ⟨S_, .f32⟩
  | 51 => ⟨S50000, .f32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x128, .f32⟩
  | 58 => ⟨S50000x128, .f32⟩
  | 59 => ⟨S_, .i32⟩
  | 60 => ⟨S64000, .i32⟩
  | 61 => ⟨S64000, .i1⟩
  | 62 => ⟨S_, .i32⟩
  | 63 => ⟨S64000, .i32⟩
  | 64 => ⟨S64000, .i32⟩
  | 65 => ⟨S64000, .i32⟩
  | 66 => ⟨S64000x1, .i32⟩
  | 67 => ⟨S64000x128, .f32⟩
  | 68 => ⟨S_, .f32⟩
  | 69 => ⟨S50000x128, .f32⟩
  | 70 => ⟨S64000x1, .i32⟩
  | 71 => ⟨S50000x128, .f32⟩
  | 72 => ⟨S1x128x128, .f32⟩
  | 73 => ⟨S128x128, .f32⟩
  | 74 => ⟨S50000x128, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S50000x128, .f32⟩
  | 87 => ⟨S1x64000, .i32⟩
  | 88 => ⟨S64000, .i32⟩
  | 89 => ⟨S1x64000, .i32⟩
  | 90 => ⟨S64000, .i32⟩
  | 91 => ⟨S_, .f32⟩
  | 92 => ⟨S64000, .f32⟩
  | 93 => ⟨S_, .f32⟩
  | 94 => ⟨S50000, .f32⟩
  | 95 => ⟨S64000x1, .i32⟩
  | 96 => ⟨S50000, .f32⟩
  | 97 => ⟨S_, .f32⟩
  | 98 => ⟨S_, .f32⟩
  | 99 => ⟨S50000, .f32⟩
  | 100 => ⟨S50000, .f32⟩
  | 101 => ⟨S_, .f32⟩
  | 102 => ⟨S50000, .f32⟩
  | 103 => ⟨S64000x1, .i32⟩
  | 104 => ⟨S50000, .f32⟩
  | 105 => ⟨S_, .f32⟩
  | 106 => ⟨S_, .f32⟩
  | 107 => ⟨S50000, .f32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S_, .i32⟩
  | 116 => ⟨S64000, .i32⟩
  | 117 => ⟨S64000, .i1⟩
  | 118 => ⟨S_, .i32⟩
  | 119 => ⟨S64000, .i32⟩
  | 120 => ⟨S64000, .i32⟩
  | 121 => ⟨S64000, .i32⟩
  | 122 => ⟨S64000x1, .i32⟩
  | 123 => ⟨S64000x128, .f32⟩
  | 124 => ⟨S_, .f32⟩
  | 125 => ⟨S50000x128, .f32⟩
  | 126 => ⟨S64000x1, .i32⟩
  | 127 => ⟨S50000x128, .f32⟩
  | _ => ⟨S50000x128, .f32⟩

abbrev hbmTy0_3 (i : Nat) : BufTy := match i % 128 with
  | 0 => ⟨S1x128x128, .f32⟩
  | 1 => ⟨S128x128, .f32⟩
  | 2 => ⟨S50000x128, .f32⟩
  | 3 => ⟨S_, .f32⟩
  | 4 => ⟨S50000, .f32⟩
  | 5 => ⟨S50000, .f32⟩
  | 6 => ⟨S50000x1, .f32⟩
  | 7 => ⟨S50000x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S50000x128, .f32⟩
  | 15 => ⟨S1x64000, .i32⟩
  | 16 => ⟨S64000, .i32⟩
  | 17 => ⟨S1x64000, .i32⟩
  | 18 => ⟨S64000, .i32⟩
  | 19 => ⟨S_, .f32⟩
  | 20 => ⟨S64000, .f32⟩
  | 21 => ⟨S_, .f32⟩
  | 22 => ⟨S50000, .f32⟩
  | 23 => ⟨S64000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S64000x1, .i32⟩
  | 32 => ⟨S50000, .f32⟩
  | 33 => ⟨S_, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S_, .i32⟩
  | 44 => ⟨S64000, .i32⟩
  | 45 => ⟨S64000, .i1⟩
  | 46 => ⟨S_, .i32⟩
  | 47 => ⟨S64000, .i32⟩
  | 48 => ⟨S64000, .i32⟩
  | 49 => ⟨S64000, .i32⟩
  | 50 => ⟨S64000x1, .i32⟩
  | 51 => ⟨S64000x128, .f32⟩
  | 52 => ⟨S_, .f32⟩
  | 53 => ⟨S50000x128, .f32⟩
  | 54 => ⟨S64000x1, .i32⟩
  | 55 => ⟨S50000x128, .f32⟩
  | 56 => ⟨S1x128x128, .f32⟩
  | 57 => ⟨S128x128, .f32⟩
  | 58 => ⟨S50000x128, .f32⟩
  | 59 => ⟨S_, .f32⟩
  | 60 => ⟨S50000, .f32⟩
  | 61 => ⟨S50000, .f32⟩
  | 62 => ⟨S50000x1, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_call2_v0 : Ref sig .tc := ⟨.hbm, 74, rfl⟩
abbrev main_call2_v1 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_call3_v0 : Ref sig .tc := ⟨.hbm, 82, rfl⟩
abbrev main_call3_v1 : Ref sig .tc := ⟨.hbm, 83, rfl⟩
abbrev main_v55 : Ref sig .tc := ⟨.hbm, 84, rfl⟩
abbrev main_cst_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_c_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_cst_20 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_call4_v0 : Ref sig .tc := ⟨.hbm, 130, rfl⟩
abbrev main_call4_v1 : Ref sig .tc := ⟨.hbm, 131, rfl⟩
abbrev main_v93 : Ref sig .tc := ⟨.hbm, 132, rfl⟩
abbrev main_cst_22 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_23 : Ref sig .tc := ⟨.hbm, 137, rfl⟩
abbrev main_call5_v0 : Ref sig .tc := ⟨.hbm, 138, rfl⟩
abbrev main_call5_v1 : Ref sig .tc := ⟨.hbm, 139, rfl⟩
abbrev main_v97 : Ref sig .tc := ⟨.hbm, 140, rfl⟩
abbrev main_cst_24 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_25 : Ref sig .tc := ⟨.hbm, 147, rfl⟩
abbrev main_v103 : Ref sig .tc := ⟨.hbm, 148, rfl⟩
abbrev main_v104 : Ref sig .tc := ⟨.hbm, 149, rfl⟩
abbrev main_c_26 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_27 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_28 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_29 : Ref sig .tc := ⟨.hbm, 179, rfl⟩
abbrev main_v131 : Ref sig .tc := ⟨.hbm, 180, rfl⟩
abbrev main_cst_30 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_31 : Ref sig .tc := ⟨.hbm, 185, rfl⟩
abbrev main_call6_v0 : Ref sig .tc := ⟨.hbm, 186, rfl⟩
abbrev main_call6_v1 : Ref sig .tc := ⟨.hbm, 187, rfl⟩
abbrev main_v135 : Ref sig .tc := ⟨.hbm, 188, rfl⟩
abbrev main_cst_32 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_33 : Ref sig .tc := ⟨.hbm, 193, rfl⟩
abbrev main_call7_v0 : Ref sig .tc := ⟨.hbm, 194, rfl⟩
abbrev main_call7_v1 : Ref sig .tc := ⟨.hbm, 195, rfl⟩
abbrev main_v139 : Ref sig .tc := ⟨.hbm, 196, rfl⟩
abbrev main_cst_34 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_c_35 : Ref sig .tc := ⟨.hbm, 203, rfl⟩
abbrev main_v145 : Ref sig .tc := ⟨.hbm, 204, rfl⟩
abbrev main_v146 : Ref sig .tc := ⟨.hbm, 205, rfl⟩
abbrev main_c_36 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_37 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_38 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_cst_39 : Ref sig .tc := ⟨.hbm, 235, rfl⟩
abbrev main_v173 : Ref sig .tc := ⟨.hbm, 236, rfl⟩
abbrev main_cst_40 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_41 : Ref sig .tc := ⟨.hbm, 241, rfl⟩
abbrev main_call8_v0 : Ref sig .tc := ⟨.hbm, 242, rfl⟩
abbrev main_call8_v1 : Ref sig .tc := ⟨.hbm, 243, rfl⟩
abbrev main_v177 : Ref sig .tc := ⟨.hbm, 244, rfl⟩
abbrev main_cst_42 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_43 : Ref sig .tc := ⟨.hbm, 249, rfl⟩
abbrev main_call9_v0 : Ref sig .tc := ⟨.hbm, 250, rfl⟩
abbrev main_call9_v1 : Ref sig .tc := ⟨.hbm, 251, rfl⟩
abbrev main_v181 : Ref sig .tc := ⟨.hbm, 252, rfl⟩
abbrev main_cst_44 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_c_45 : Ref sig .tc := ⟨.hbm, 259, rfl⟩
abbrev main_v187 : Ref sig .tc := ⟨.hbm, 260, rfl⟩
abbrev main_v188 : Ref sig .tc := ⟨.hbm, 261, rfl⟩
abbrev main_c_46 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_cst_47 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_cst_48 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_cst_49 : Ref sig .tc := ⟨.hbm, 291, rfl⟩
abbrev main_v215 : Ref sig .tc := ⟨.hbm, 292, rfl⟩
abbrev main_cst_50 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_cst_51 : Ref sig .tc := ⟨.hbm, 297, rfl⟩
abbrev main_call10_v0 : Ref sig .tc := ⟨.hbm, 298, rfl⟩
abbrev main_call10_v1 : Ref sig .tc := ⟨.hbm, 299, rfl⟩
abbrev main_v219 : Ref sig .tc := ⟨.hbm, 300, rfl⟩
abbrev main_cst_52 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_cst_53 : Ref sig .tc := ⟨.hbm, 305, rfl⟩
abbrev main_call11_v0 : Ref sig .tc := ⟨.hbm, 306, rfl⟩
abbrev main_call11_v1 : Ref sig .tc := ⟨.hbm, 307, rfl⟩
abbrev main_v223 : Ref sig .tc := ⟨.hbm, 308, rfl⟩
abbrev main_cst_54 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_c_55 : Ref sig .tc := ⟨.hbm, 315, rfl⟩
abbrev main_v229 : Ref sig .tc := ⟨.hbm, 316, rfl⟩
abbrev main_v230 : Ref sig .tc := ⟨.hbm, 317, rfl⟩
abbrev main_c_56 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_cst_57 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_v241 : Ref sig .tc := ⟨.hbm, 330, rfl⟩
abbrev main_cst_58 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_cst_59 : Ref sig .tc := ⟨.hbm, 347, rfl⟩
abbrev main_v257 : Ref sig .tc := ⟨.hbm, 348, rfl⟩
abbrev main_cst_60 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_cst_61 : Ref sig .tc := ⟨.hbm, 353, rfl⟩
abbrev main_call12_v0 : Ref sig .tc := ⟨.hbm, 354, rfl⟩
abbrev main_call12_v1 : Ref sig .tc := ⟨.hbm, 355, rfl⟩
abbrev main_v261 : Ref sig .tc := ⟨.hbm, 356, rfl⟩
abbrev main_cst_62 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_cst_63 : Ref sig .tc := ⟨.hbm, 361, rfl⟩
abbrev main_call13_v0 : Ref sig .tc := ⟨.hbm, 362, rfl⟩
abbrev main_call13_v1 : Ref sig .tc := ⟨.hbm, 363, rfl⟩
abbrev main_v265 : Ref sig .tc := ⟨.hbm, 364, rfl⟩
abbrev main_cst_64 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_c_65 : Ref sig .tc := ⟨.hbm, 371, rfl⟩
abbrev main_v271 : Ref sig .tc := ⟨.hbm, 372, rfl⟩
abbrev main_v272 : Ref sig .tc := ⟨.hbm, 373, rfl⟩
abbrev main_c_66 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_cst_67 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_cst_68 : Ref sig .tc := ⟨.hbm, 387, rfl⟩
abbrev main_v284 : Ref sig .tc := ⟨.hbm, 388, rfl⟩
abbrev main_v285 : Ref sig .tc := ⟨.hbm, 389, rfl⟩
abbrev main_v286 : Ref sig .tc := ⟨.hbm, 390, rfl⟩
abbrev main_v287 : Ref sig .tc := ⟨.hbm, 391, rfl⟩
abbrev main_v288 : Ref sig .tc := ⟨.hbm, 392, rfl⟩
abbrev main_v289 : Ref sig .tc := ⟨.hbm, 393, rfl⟩
abbrev main_v290 : Ref sig .tc := ⟨.hbm, 394, rfl⟩
abbrev main_v291 : Ref sig .tc := ⟨.hbm, 395, rfl⟩
abbrev main_v292 : Ref sig .tc := ⟨.hbm, 396, rfl⟩
abbrev main_v293 : Ref sig .tc := ⟨.hbm, 397, rfl⟩
abbrev main_v294 : Ref sig .tc := ⟨.hbm, 398, rfl⟩
abbrev main_v295 : Ref sig .tc := ⟨.hbm, 399, rfl⟩
abbrev main_v296 : Ref sig .tc := ⟨.hbm, 400, rfl⟩
abbrev main_v297 : Ref sig .tc := ⟨.hbm, 401, rfl⟩
abbrev main_v298 : Ref sig .tc := ⟨.hbm, 402, rfl⟩
abbrev main_cst_69 : Ref sig .tc := ⟨.hbm, 403, rfl⟩
abbrev main_v299 : Ref sig .tc := ⟨.hbm, 404, rfl⟩
abbrev main_cst_70 : Ref sig .tc := ⟨.hbm, 405, rfl⟩
abbrev main_v300 : Ref sig .tc := ⟨.hbm, 406, rfl⟩
abbrev main_v301 : Ref sig .tc := ⟨.hbm, 407, rfl⟩
abbrev main_v302 : Ref sig .tc := ⟨.hbm, 408, rfl⟩
abbrev main_cst_71 : Ref sig .tc := ⟨.hbm, 409, rfl⟩
abbrev main_call14_v0 : Ref sig .tc := ⟨.hbm, 410, rfl⟩
abbrev main_call14_v1 : Ref sig .tc := ⟨.hbm, 411, rfl⟩
abbrev main_v303 : Ref sig .tc := ⟨.hbm, 412, rfl⟩
abbrev main_cst_72 : Ref sig .tc := ⟨.hbm, 413, rfl⟩
abbrev main_v304 : Ref sig .tc := ⟨.hbm, 414, rfl⟩
abbrev main_v305 : Ref sig .tc := ⟨.hbm, 415, rfl⟩
abbrev main_v306 : Ref sig .tc := ⟨.hbm, 416, rfl⟩
abbrev main_cst_73 : Ref sig .tc := ⟨.hbm, 417, rfl⟩
abbrev main_call15_v0 : Ref sig .tc := ⟨.hbm, 418, rfl⟩
abbrev main_call15_v1 : Ref sig .tc := ⟨.hbm, 419, rfl⟩
abbrev main_v307 : Ref sig .tc := ⟨.hbm, 420, rfl⟩
abbrev main_cst_74 : Ref sig .tc := ⟨.hbm, 421, rfl⟩
abbrev main_v308 : Ref sig .tc := ⟨.hbm, 422, rfl⟩
abbrev main_v309 : Ref sig .tc := ⟨.hbm, 423, rfl⟩
abbrev main_v310 : Ref sig .tc := ⟨.hbm, 424, rfl⟩
abbrev main_v311 : Ref sig .tc := ⟨.hbm, 425, rfl⟩
abbrev main_v312 : Ref sig .tc := ⟨.hbm, 426, rfl⟩
abbrev main_c_75 : Ref sig .tc := ⟨.hbm, 427, rfl⟩
abbrev main_v313 : Ref sig .tc := ⟨.hbm, 428, rfl⟩
abbrev main_v314 : Ref sig .tc := ⟨.hbm, 429, rfl⟩
abbrev main_c_76 : Ref sig .tc := ⟨.hbm, 430, rfl⟩
abbrev main_v315 : Ref sig .tc := ⟨.hbm, 431, rfl⟩
abbrev main_v316 : Ref sig .tc := ⟨.hbm, 432, rfl⟩
abbrev main_v317 : Ref sig .tc := ⟨.hbm, 433, rfl⟩
abbrev main_v318 : Ref sig .tc := ⟨.hbm, 434, rfl⟩
abbrev main_v319 : Ref sig .tc := ⟨.hbm, 435, rfl⟩
abbrev main_cst_77 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_v323 : Ref sig .tc := ⟨.hbm, 440, rfl⟩
abbrev main_v324 : Ref sig .tc := ⟨.hbm, 441, rfl⟩
abbrev main_v325 : Ref sig .tc := ⟨.hbm, 442, rfl⟩
abbrev main_cst_78 : Ref sig .tc := ⟨.hbm, 443, rfl⟩
abbrev main_v326 : Ref sig .tc := ⟨.hbm, 444, rfl⟩
abbrev main_v327 : Ref sig .tc := ⟨.hbm, 445, rfl⟩
abbrev main_v328 : Ref sig .tc := ⟨.hbm, 446, rfl⟩
abbrev main_v329 : Ref sig .tc := ⟨.hbm, 447, rfl⟩
abbrev main_v330 : Ref sig .tc := ⟨.hbm, 448, rfl⟩
abbrev main_v331 : Ref sig .tc := ⟨.hbm, 449, rfl⟩
abbrev main_v332 : Ref sig .tc := ⟨.hbm, 450, rfl⟩
abbrev main_v333 : Ref sig .tc := ⟨.hbm, 451, rfl⟩
abbrev main_v334 : Ref sig .tc := ⟨.hbm, 452, rfl⟩
abbrev main_v335 : Ref sig .tc := ⟨.hbm, 453, rfl⟩
abbrev main_v336 : Ref sig .tc := ⟨.hbm, 454, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S8x64000_S1x64000_0_0 : S8x64000.Slices ![0, 0] S1x64000
  shapeCasts_S1x64000_S64000 : S1x64000.ShapeCasts S64000
  bcast_S_S64000 : S_.BroadcastsInDim S64000 (![] : Fin 0 → Fin S64000.rank)
  bcast_S_S50000 : S_.BroadcastsInDim S50000 (![] : Fin 0 → Fin S50000.rank)
  bcast_S64000_S64000x1_0 : S64000.BroadcastsInDim S64000x1 (![0] : Fin 1 → Fin S64000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S8x64000_S1x64000_1_0 : S8x64000.Slices ![1, 0] S1x64000
  slices_S8x128x128_S1x128x128_1_0_0 : S8x128x128.Slices ![1, 0, 0] S1x128x128
  slices_S8x128_S1x128_1_0 : S8x128.Slices ![1, 0] S1x128
  slices_S8x64000_S1x64000_2_0 : S8x64000.Slices ![2, 0] S1x64000
  slices_S8x128x128_S1x128x128_2_0_0 : S8x128x128.Slices ![2, 0, 0] S1x128x128
  slices_S8x128_S1x128_2_0 : S8x128.Slices ![2, 0] S1x128
  slices_S8x64000_S1x64000_3_0 : S8x64000.Slices ![3, 0] S1x64000
  slices_S8x128x128_S1x128x128_3_0_0 : S8x128x128.Slices ![3, 0, 0] S1x128x128
  slices_S8x128_S1x128_3_0 : S8x128.Slices ![3, 0] S1x128
  slices_S8x64000_S1x64000_4_0 : S8x64000.Slices ![4, 0] S1x64000
  slices_S8x128x128_S1x128x128_4_0_0 : S8x128x128.Slices ![4, 0, 0] S1x128x128
  slices_S8x128_S1x128_4_0 : S8x128.Slices ![4, 0] S1x128
  slices_S8x64000_S1x64000_5_0 : S8x64000.Slices ![5, 0] S1x64000
  slices_S8x128x128_S1x128x128_5_0_0 : S8x128x128.Slices ![5, 0, 0] S1x128x128
  slices_S8x128_S1x128_5_0 : S8x128.Slices ![5, 0] S1x128
  slices_S8x64000_S1x64000_6_0 : S8x64000.Slices ![6, 0] S1x64000
  slices_S8x128x128_S1x128x128_6_0_0 : S8x128x128.Slices ![6, 0, 0] S1x128x128
  slices_S8x128_S1x128_6_0 : S8x128.Slices ![6, 0] S1x128
  slices_S8x64000_S1x64000_7_0 : S8x64000.Slices ![7, 0] S1x64000
  slices_S8x128x128_S1x128x128_7_0_0 : S8x128x128.Slices ![7, 0, 0] S1x128x128
  slices_S8x128_S1x128_7_0 : S8x128.Slices ![7, 0] S1x128
  scatter_S50000_S64000x1_S64000_n_0_0_1_wf : ScatterDims.WF S50000 S64000x1 S64000 [] [0] [0] 1
  gather_S50000x128_S64000x1_S64000x128_1_0_n_n_0_1_1128_wf : GatherDims.WF S50000x128 S64000x1 S64000x128 [1] [0] [] [0] [] 1 ![1, 128]
  scatter_S50000x128_S64000x1_S64000x128_1_0_0_1_wf : ScatterDims.WF S50000x128 S64000x1 S64000x128 [1] [0] [0] 1
  dot_S50000x128_S128x128_S50000x128_1_0_0_1_n_n_wf : DotDims.WF S50000x128 S128x128 S50000x128 [1] [0] [0] [1] [] []

variable [Facts₀]

def scatter_S50000_S64000x1_S64000_n_0_0_1 : ScatterDims S50000 S64000x1 S64000 where
  updateWindowDims := []
  insertedWindowDims := [0]
  scatterDimsToOperandDims := [0]
  indexVectorDim := 1
  wf := scatter_S50000_S64000x1_S64000_n_0_0_1_wf
def gather_S50000x128_S64000x1_S64000x128_1_0_n_n_0_1_1128 : GatherDims S50000x128 S64000x1 S64000x128 where
  offsetDims := [1]
  collapsedSliceDims := [0]
  operandBatchingDims := []
  startIndicesBatchingDims := []
  startIndexMap := [0]
  indexVectorDim := 1
  sliceSizes := ![1, 128]
  wf := gather_S50000x128_S64000x1_S64000x128_1_0_n_n_0_1_1128_wf
def scatter_S50000x128_S64000x1_S64000x128_1_0_0_1 : ScatterDims S50000x128 S64000x1 S64000x128 where
  updateWindowDims := [1]
  insertedWindowDims := [0]
  scatterDimsToOperandDims := [0]
  indexVectorDim := 1
  wf := scatter_S50000x128_S64000x1_S64000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KIPrefix.lean ====
import proofs.«129587_j88029649699360_1_alg».proof.Proof.Gen.KernelIdeal.Launch
import Idealize.ShloMosaic.Lib.Pipeline.FrameBody
import Idealize.ShloMosaic.Lib.StableHlo.Run

/-!
@main up to its one region. Before the region @main runs 33 stretches of host operations (plain operations
alternating with the inlined bodies of the sixteen clamps of a degree at one); `V` is what each buffer of core `c`
holds when the region is entered, the fold of all of them over the launch memory. Every operation writes only
its own result buffer, so the five argument arrays are there as launched.
-/

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Cert.KernelIdeal Cert.KernelIdeal.Gen

variable {F : FTy → Type} [FloatOps F]

variable (m : (ℓ : Loc nD τ sig) → Buf (Elt F) ℓ)

/-- Core `c`'s TensorCore buffers when the region is entered: after every stretch of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor

/-- @main is the 33 stretches, then the region: the region is entered holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Fr

end
-- ==== Proof.KIFrame.lean ====
import proofs.«129587_j88029649699360_1_alg».proof.Proof.KIPrefix
import proofs.«129587_j88029649699360_1_alg».proof.Proof.Gen.KernelIdeal.Skeleton
import proofs.«129587_j88029649699360_1_alg».proof.Proof.Gen.KernelIdeal.Points
import Idealize.ShloMosaic.Lib.Pipeline.FrameBody
import Idealize.ShloMosaic.Lib.Ring
import Idealize.ShloMosaic.Lib.Tactic

/-!
The program's one region and its run. The grid has ten points; at point `t` the body is handed rows
5000·t … 5000·t + 4999 of all eight relations' scaled aggregates (window 0), the eight weights (window 1) and the
eight biases (window 2), and stores one 5000 × 128 block of the result (window 3): from zero, relation by relation,
the aggregate times the weight, then the bias. It keeps nothing between points and names nothing of its own, so
the proof data are: each input's buffer at its block, the output's at the canon of the one store over the input
blocks, and the region invariant the scoped rest.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether the point fetches it or not, for any
    proof data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with the pipeline's arrays at
    what the data say and every other unscoped buffer as the region found it ends with the five argument arrays as
    launched: the biases are window 2's array, an input; the other four no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: relation r's aggregate rows, weight and bias, and the output block -/

abbrev rA0 : Rect S8x5000x128 := Rect.unit (s := S8x5000x128) ![0, 0, 0] S1x5000x128.size inb_S8x5000x128_S1x5000x128_0_0_0
abbrev rA1 : Rect S8x5000x128 := Rect.unit (s := S8x5000x128) ![1, 0, 0] S1x5000x128.size inb_S8x5000x128_S1x5000x128_1_0_0
abbrev rA2 : Rect S8x5000x128 := Rect.unit (s := S8x5000x128) ![2, 0, 0] S1x5000x128.size inb_S8x5000x128_S1x5000x128_2_0_0
abbrev rA3 : Rect S8x5000x128 := Rect.unit (s := S8x5000x128) ![3, 0, 0] S1x5000x128.size inb_S8x5000x128_S1x5000x128_3_0_0
abbrev rA4 : Rect S8x5000x128 := Rect.unit (s := S8x5000x128) ![4, 0, 0] S1x5000x128.size inb_S8x5000x128_S1x5000x128_4_0_0
abbrev rA5 : Rect S8x5000x128 := Rect.unit (s := S8x5000x128) ![5, 0, 0] S1x5000x128.size inb_S8x5000x128_S1x5000x128_5_0_0
abbrev rA6 : Rect S8x5000x128 := Rect.unit (s := S8x5000x128) ![6, 0, 0] S1x5000x128.size inb_S8x5000x128_S1x5000x128_6_0_0
abbrev rA7 : Rect S8x5000x128 := Rect.unit (s := S8x5000x128) ![7, 0, 0] S1x5000x128.size inb_S8x5000x128_S1x5000x128_7_0_0
abbrev rW0 : Rect S8x128x128 := Rect.unit (s := S8x128x128) ![0, 0, 0] S1x128x128.size inb_S8x128x128_S1x128x128_0_0_0
abbrev rW1 : Rect S8x128x128 := Rect.unit (s := S8x128x128) ![1, 0, 0] S1x128x128.size inb_S8x128x128_S1x128x128_1_0_0
abbrev rW2 : Rect S8x128x128 := Rect.unit (s := S8x128x128) ![2, 0, 0] S1x128x128.size inb_S8x128x128_S1x128x128_2_0_0
abbrev rW3 : Rect S8x128x128 := Rect.unit (s := S8x128x128) ![3, 0, 0] S1x128x128.size inb_S8x128x128_S1x128x128_3_0_0
abbrev rW4 : Rect S8x128x128 := Rect.unit (s := S8x128x128) ![4, 0, 0] S1x128x128.size inb_S8x128x128_S1x128x128_4_0_0
abbrev rW5 : Rect S8x128x128 := Rect.unit (s := S8x128x128) ![5, 0, 0] S1x128x128.size inb_S8x128x128_S1x128x128_5_0_0
abbrev rW6 : Rect S8x128x128 := Rect.unit (s := S8x128x128) ![6, 0, 0] S1x128x128.size inb_S8x128x128_S1x128x128_6_0_0
abbrev rW7 : Rect S8x128x128 := Rect.unit (s := S8x128x128) ![7, 0, 0] S1x128x128.size inb_S8x128x128_S1x128x128_7_0_0
abbrev rB0 : Rect S8x128 := Rect.unit (s := S8x128) ![0, 0] S1x128.size inb_S8x128_S1x128_0_0
abbrev rB1 : Rect S8x128 := Rect.unit (s := S8x128) ![1, 0] S1x128.size inb_S8x128_S1x128_1_0
abbrev rB2 : Rect S8x128 := Rect.unit (s := S8x128) ![2, 0] S1x128.size inb_S8x128_S1x128_2_0
abbrev rB3 : Rect S8x128 := Rect.unit (s := S8x128) ![3, 0] S1x128.size inb_S8x128_S1x128_3_0
abbrev rB4 : Rect S8x128 := Rect.unit (s := S8x128) ![4, 0] S1x128.size inb_S8x128_S1x128_4_0
abbrev rB5 : Rect S8x128 := Rect.unit (s := S8x128) ![5, 0] S1x128.size inb_S8x128_S1x128_5_0
abbrev rB6 : Rect S8x128 := Rect.unit (s := S8x128) ![6, 0] S1x128.size inb_S8x128_S1x128_6_0
abbrev rB7 : Rect S8x128 := Rect.unit (s := S8x128) ![7, 0] S1x128.size inb_S8x128_S1x128_7_0
abbrev rO : Rect S5000x128 := Rect.unit (s := S5000x128) ![0, 0] S5000x128.size inb_S5000x128_S5000x128_0_0

/-! ## What the body leaves in the output window's buffer -/

/-- The output buffer after the body, from the three input blocks: its one store, of the sum over the eight
    relations computed from the 24 loaded pieces. -/
def out0_3 (x0 : Vec F S8x5000x128 .bf16) (x1 : Vec F S8x128x128 .bf16) (x2 : Vec F S8x128 .f32) : Vec F S5000x128 .f32 :=
  View.canon [⟨rO, k0_pay1 (k0_pay4 (View.ld x2 rB5)) (k0_pay5 (k0_pay2 (View.ld x2 rB2)) (k0_pay3 (View.ld x0 rA0) (View.ld x1 rW0) (View.ld x2 rB0) (View.ld x0 rA1) (View.ld x1 rW1) (View.ld x2 rB1) (View.ld x0 rA2) (View.ld x1 rW2)) (View.ld x0 rA3) (View.ld x1 rW3) (View.ld x2 rB3) (View.ld x0 rA4) (View.ld x1 rW4) (View.ld x2 rB4) (View.ld x0 rA5) (View.ld x1 rW5)) (View.ld x0 rA6) (View.ld x1 rW6) (View.ld x2 rB6) (View.ld x0 rA7) (View.ld x1 rW7) (View.ld x2 rB7)⟩]

/-- The one store is of the whole buffer, so it covers it. -/
theorem cover0_3 (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

/-! ## The body's triple -/

set_option maxHeartbeats 4000000 in
/-- The body on whole staging memrefs, the inputs' at contents `x0 x1 x2` and the output's at anything, runs to the
    continuation holding the inputs' as they were and the output's at `out0_3` of them. -/
theorem sound_kernel (c : Dev nD) (E : Set ℕ) (i : grid0.Coords) (arg1 : Memref sig .tc .vmem S8x5000x128 .bf16) (harg1 : arg1.IsWhole) (arg2 : Memref sig .tc .vmem S8x128x128 .bf16) (harg2 : arg2.IsWhole) (arg3 : Memref sig .tc .vmem S8x128 .f32) (harg3 : arg3.IsWhole) (arg4 : Memref sig .tc .vmem S5000x128 .f32) (harg4 : arg4.IsWhole)
    (x0 : Vec F S8x5000x128 .bf16) (x1 : Vec F S8x128x128 .bf16) (x2 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__rgcn_kernel i arg1 harg1 arg2 harg2 arg3 harg3 arg4 harg4) K := by
  simp only [cc0__rgcn_kernel_eq_skeleton]; unfold cc0__rgcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core `c`: the arrays as the region finds them; after the body at point `t` each input's buffer at its block
    and the output's at `out0_3` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (projected, never unfolded: `V` is a long fold). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run read at the result and at the arguments: the result array ends at what the proof data compute from the
    ten points' stores, the five argument arrays as launched. -/
theorem run_named : θ_run defs (onTc (τ := τ) (main (F := F))) ⟨m, fun _ => 0, ρ⟩ (fun r => ∀ c : Dev nD,
      r.2.mem ((c.tc : Thread nD τ).loc main_v275) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.KPrefix.lean ====
import proofs.«129587_j88029649699360_1_alg».proof.Proof.Gen.Kernel.Launch
import Idealize.ShloMosaic.Lib.Pipeline.FrameBody
import Idealize.ShloMosaic.Lib.StableHlo.Run

/-!
@main up to its one region. Before the region @main runs 33 stretches of host operations (plain operations
alternating with the inlined bodies of the sixteen clamps of a degree at one); `V` is what each buffer of core `c`
holds when the region is entered, the fold of all of them over the launch memory. Every operation writes only
its own result buffer, so the five argument arrays are there as launched.
-/

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Cert.Kernel Cert.Kernel.Gen

variable {F : FTy → Type} [FloatOps F]

variable (m : (ℓ : Loc nD τ sig) → Buf (Elt F) ℓ)

/-- Core `c`'s TensorCore buffers when the region is entered: after every stretch of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor

/-- @main is the 33 stretches, then the region: the region is entered holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Fr

end
-- ==== Proof.KFrame.lean ====
import proofs.«129587_j88029649699360_1_alg».proof.Proof.KPrefix
import proofs.«129587_j88029649699360_1_alg».proof.Proof.Gen.Kernel.Skeleton
import proofs.«129587_j88029649699360_1_alg».proof.Proof.Gen.Kernel.Points
import Idealize.ShloMosaic.Lib.Pipeline.FrameBody
import Idealize.ShloMosaic.Lib.Ring
import Idealize.ShloMosaic.Lib.Tactic

/-!
The program's one region and its run. The grid has ten points; at point `t` the body is handed rows
5000·t … 5000·t + 4999 of all eight relations' scaled aggregates (window 0), the eight weights (window 1) and the
eight biases (window 2), and stores one 5000 × 128 block of the result (window 3): from zero, relation by relation,
the aggregate times the weight, then the bias. It keeps nothing between points and names nothing of its own, so
the proof data are: each input's buffer at its block, the output's at the canon of the one store over the input
blocks, and the region invariant the scoped rest.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, whether the point fetches it or not, for any
    proof data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with the pipeline's arrays at
    what the data say and every other unscoped buffer as the region found it ends with the five argument arrays as
    launched: the biases are window 2's array, an input; the other four no window stages. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: relation r's aggregate rows, weight and bias, and the output block -/

abbrev rA0 : Rect S8x5000x128 := Rect.unit (s := S8x5000x128) ![0, 0, 0] S1x5000x128.size inb_S8x5000x128_S1x5000x128_0_0_0
abbrev rA1 : Rect S8x5000x128 := Rect.unit (s := S8x5000x128) ![1, 0, 0] S1x5000x128.size inb_S8x5000x128_S1x5000x128_1_0_0
abbrev rA2 : Rect S8x5000x128 := Rect.unit (s := S8x5000x128) ![2, 0, 0] S1x5000x128.size inb_S8x5000x128_S1x5000x128_2_0_0
abbrev rA3 : Rect S8x5000x128 := Rect.unit (s := S8x5000x128) ![3, 0, 0] S1x5000x128.size inb_S8x5000x128_S1x5000x128_3_0_0
abbrev rA4 : Rect S8x5000x128 := Rect.unit (s := S8x5000x128) ![4, 0, 0] S1x5000x128.size inb_S8x5000x128_S1x5000x128_4_0_0
abbrev rA5 : Rect S8x5000x128 := Rect.unit (s := S8x5000x128) ![5, 0, 0] S1x5000x128.size inb_S8x5000x128_S1x5000x128_5_0_0
abbrev rA6 : Rect S8x5000x128 := Rect.unit (s := S8x5000x128) ![6, 0, 0] S1x5000x128.size inb_S8x5000x128_S1x5000x128_6_0_0
abbrev rA7 : Rect S8x5000x128 := Rect.unit (s := S8x5000x128) ![7, 0, 0] S1x5000x128.size inb_S8x5000x128_S1x5000x128_7_0_0
abbrev rW0 : Rect S8x128x128 := Rect.unit (s := S8x128x128) ![0, 0, 0] S1x128x128.size inb_S8x128x128_S1x128x128_0_0_0
abbrev rW1 : Rect S8x128x128 := Rect.unit (s := S8x128x128) ![1, 0, 0] S1x128x128.size inb_S8x128x128_S1x128x128_1_0_0
abbrev rW2 : Rect S8x128x128 := Rect.unit (s := S8x128x128) ![2, 0, 0] S1x128x128.size inb_S8x128x128_S1x128x128_2_0_0
abbrev rW3 : Rect S8x128x128 := Rect.unit (s := S8x128x128) ![3, 0, 0] S1x128x128.size inb_S8x128x128_S1x128x128_3_0_0
abbrev rW4 : Rect S8x128x128 := Rect.unit (s := S8x128x128) ![4, 0, 0] S1x128x128.size inb_S8x128x128_S1x128x128_4_0_0
abbrev rW5 : Rect S8x128x128 := Rect.unit (s := S8x128x128) ![5, 0, 0] S1x128x128.size inb_S8x128x128_S1x128x128_5_0_0
abbrev rW6 : Rect S8x128x128 := Rect.unit (s := S8x128x128) ![6, 0, 0] S1x128x128.size inb_S8x128x128_S1x128x128_6_0_0
abbrev rW7 : Rect S8x128x128 := Rect.unit (s := S8x128x128) ![7, 0, 0] S1x128x128.size inb_S8x128x128_S1x128x128_7_0_0
abbrev rB0 : Rect S8x128 := Rect.unit (s := S8x128) ![0, 0] S1x128.size inb_S8x128_S1x128_0_0
abbrev rB1 : Rect S8x128 := Rect.unit (s := S8x128) ![1, 0] S1x128.size inb_S8x128_S1x128_1_0
abbrev rB2 : Rect S8x128 := Rect.unit (s := S8x128) ![2, 0] S1x128.size inb_S8x128_S1x128_2_0
abbrev rB3 : Rect S8x128 := Rect.unit (s := S8x128) ![3, 0] S1x128.size inb_S8x128_S1x128_3_0
abbrev rB4 : Rect S8x128 := Rect.unit (s := S8x128) ![4, 0] S1x128.size inb_S8x128_S1x128_4_0
abbrev rB5 : Rect S8x128 := Rect.unit (s := S8x128) ![5, 0] S1x128.size inb_S8x128_S1x128_5_0
abbrev rB6 : Rect S8x128 := Rect.unit (s := S8x128) ![6, 0] S1x128.size inb_S8x128_S1x128_6_0
abbrev rB7 : Rect S8x128 := Rect.unit (s := S8x128) ![7, 0] S1x128.size inb_S8x128_S1x128_7_0
abbrev rO : Rect S5000x128 := Rect.unit (s := S5000x128) ![0, 0] S5000x128.size inb_S5000x128_S5000x128_0_0

/-! ## What the body leaves in the output window's buffer -/

/-- The output buffer after the body, from the three input blocks: its one store, of the sum over the eight
    relations computed from the 24 loaded pieces. -/
def out0_3 (x0 : Vec F S8x5000x128 .bf16) (x1 : Vec F S8x128x128 .bf16) (x2 : Vec F S8x128 .f32) : Vec F S5000x128 .f32 :=
  View.canon [⟨rO, k0_pay1 (k0_pay4 (View.ld x2 rB5)) (k0_pay5 (k0_pay2 (View.ld x2 rB2)) (k0_pay3 (View.ld x0 rA0) (View.ld x1 rW0) (View.ld x2 rB0) (View.ld x0 rA1) (View.ld x1 rW1) (View.ld x2 rB1) (View.ld x0 rA2) (View.ld x1 rW2)) (View.ld x0 rA3) (View.ld x1 rW3) (View.ld x2 rB3) (View.ld x0 rA4) (View.ld x1 rW4) (View.ld x2 rB4) (View.ld x0 rA5) (View.ld x1 rW5)) (View.ld x0 rA6) (View.ld x1 rW6) (View.ld x2 rB6) (View.ld x0 rA7) (View.ld x1 rW7) (View.ld x2 rB7)⟩]

/-- The one store is of the whole buffer, so it covers it. -/
theorem cover0_3 (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

/-! ## The body's triple -/

set_option maxHeartbeats 4000000 in
/-- The body on whole staging memrefs, the inputs' at contents `x0 x1 x2` and the output's at anything, runs to the
    continuation holding the inputs' as they were and the output's at `out0_3` of them. -/
theorem sound_kernel (c : Dev nD) (E : Set ℕ) (i : grid0.Coords) (arg1 : Memref sig .tc .vmem S8x5000x128 .bf16) (harg1 : arg1.IsWhole) (arg2 : Memref sig .tc .vmem S8x128x128 .bf16) (harg2 : arg2.IsWhole) (arg3 : Memref sig .tc .vmem S8x128 .f32) (harg3 : arg3.IsWhole) (arg4 : Memref sig .tc .vmem S5000x128 .f32) (harg4 : arg4.IsWhole)
    (x0 : Vec F S8x5000x128 .bf16) (x1 : Vec F S8x128x128 .bf16) (x2 : Vec F S8x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__rgcn_kernel i arg1 harg1 arg2 harg2 arg3 harg3 arg4 harg4) K := by
  simp only [cc0__rgcn_kernel_eq_skeleton]; unfold cc0__rgcn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- On core `c`: the arrays as the region finds them; after the body at point `t` each input's buffer at its block
    and the output's at `out0_3` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents (projected, never unfolded: `V` is a long fold). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data say and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run read at the result and at the arguments: the result array ends at what the proof data compute from the
    ten points' stores, the five argument arrays as launched. -/
theorem run_named : θ_run defs (onTc (τ := τ) (main (F := F))) ⟨m, fun _ => 0, ρ⟩ (fun r => ∀ c : Dev nD,
      r.2.mem ((c.tc : Thread nD τ).loc main_v275) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.Spec.lean ====
import Idealize.ShloMosaic.PureOps.Ideal

/-!
The two programs' results at one entry, as extended reals, and the law that joins them.

For eight relations over 50000 nodes and 128 features: `dotAt X W n j` is entry (n, j) of the product of an
array of rows `X` with a 128 × 128 weight `W`. `kerAt` adds, from zero and relation by relation, the product
of the ALREADY SCALED rows and then the bias; `refAt` adds, from zero, each relation's product scaled
afterwards by the row's factor, plus the bias. They agree when every factor is a nonnegative finite number:
a factor moves across one product term by commutativity, and out of the sum over the 128 features because
multiplication by a nonnegative finite extended real distributes over sums of extended reals.
-/

noncomputable section

open scoped BigOperators

namespace Cert.Spec

/-- Entry (n, j) of the product of the rows `X` with the weight `W`. -/
def dotAt (X : Fin 50000 → Fin 128 → EReal) (W : Fin 128 → Fin 128 → EReal) (n : Fin 50000) (j : Fin 128) : EReal :=
  ∑ k : Fin 128, X n k * W k j

/-- The kernel's entry (n, j): from zero, per relation, add the product of the scaled rows, then the bias. -/
def kerAt (X : Fin 8 → Fin 50000 → Fin 128 → EReal) (W : Fin 8 → Fin 128 → Fin 128 → EReal) (b : Fin 8 → Fin 128 → EReal)
    (n : Fin 50000) (j : Fin 128) : EReal :=
  ((((((((((((((((0 + dotAt (X 0) (W 0) n j) + b 0 j) + dotAt (X 1) (W 1) n j) + b 1 j) + dotAt (X 2) (W 2) n j) + b 2 j) + dotAt (X 3) (W 3) n j) + b 3 j) + dotAt (X 4) (W 4) n j) + b 4 j) + dotAt (X 5) (W 5) n j) + b 5 j) + dotAt (X 6) (W 6) n j) + b 6 j) + dotAt (X 7) (W 7) n j) + b 7 j)

/-- The reference's entry (n, j): from zero, add per relation the product scaled by the row's factor, plus the bias. -/
def refAt (A : Fin 8 → Fin 50000 → Fin 128 → EReal) (C : Fin 8 → Fin 50000 → EReal) (W : Fin 8 → Fin 128 → Fin 128 → EReal)
    (b : Fin 8 → Fin 128 → EReal) (n : Fin 50000) (j : Fin 128) : EReal :=
  ((((((((0 + (dotAt (A 0) (W 0) n j * C 0 n + b 0 j)) + (dotAt (A 1) (W 1) n j * C 1 n + b 1 j)) + (dotAt (A 2) (W 2) n j * C 2 n + b 2 j)) + (dotAt (A 3) (W 3) n j * C 3 n + b 3 j)) + (dotAt (A 4) (W 4) n j * C 4 n + b 4 j)) + (dotAt (A 5) (W 5) n j * C 5 n + b 5 j)) + (dotAt (A 6) (W 6) n j * C 6 n + b 6 j)) + (dotAt (A 7) (W 7) n j * C 7 n + b 7 j))

/-- A nonnegative finite factor moves out of a finite sum of extended reals: by induction on the index set,
    the step being distributivity of such a factor over one addition. -/
theorem sum_mul_of_nonneg_of_ne_top {ι : Type} (s : Finset ι) (f : ι → EReal) (c : EReal)
    (h0 : 0 ≤ c) (ht : c ≠ ⊤) : (∑ k ∈ s, f k * c) = (∑ k ∈ s, f k) * c := by
  classical
  induction s using Finset.induction_on with
  | empty => simp
  | insert a s ha ih =>
    rw [Finset.sum_insert ha, Finset.sum_insert ha, ih, EReal.right_distrib_of_nonneg_of_ne_top h0 ht]

/-- One relation: the product of rows scaled by a nonnegative finite factor is the product scaled by it.
    Inside each term the factor moves past the weight by commutativity; then it leaves the sum. -/
theorem dotAt_scaled (X : Fin 50000 → Fin 128 → EReal) (c : Fin 50000 → EReal) (W : Fin 128 → Fin 128 → EReal)
    (h0 : ∀ n, 0 ≤ c n) (ht : ∀ n, c n ≠ ⊤) (n : Fin 50000) (j : Fin 128) :
    dotAt (fun n k => X n k * c n) W n j = dotAt X W n j * c n := by
  unfold dotAt
  rw [← sum_mul_of_nonneg_of_ne_top Finset.univ (fun k => X n k * W k j) (c n) (h0 n) (ht n)]
  exact Finset.sum_congr rfl (fun k _ => mul_right_comm _ _ _)

/-- Scaling the rows before the product is scaling the product, for nonnegative finite factors. -/
theorem kerAt_scaled (A : Fin 8 → Fin 50000 → Fin 128 → EReal) (C : Fin 8 → Fin 50000 → EReal)
    (W : Fin 8 → Fin 128 → Fin 128 → EReal) (b : Fin 8 → Fin 128 → EReal)
    (hC0 : ∀ r n, 0 ≤ C r n) (hCt : ∀ r n, C r n ≠ ⊤) (n : Fin 50000) (j : Fin 128) :
    kerAt (fun r n k => A r n k * C r n) W b n j = refAt A C W b n j := by
  have h : ∀ r : Fin 8, dotAt (fun n k => A r n k * C r n) (W r) n j = dotAt (A r) (W r) n j * C r n :=
    fun r => dotAt_scaled (A r) (C r) (W r) (hC0 r) (hCt r) n j
  -- after the eight products are rewritten the two sides differ only in how the seventeen summands are bracketed
  simp only [kerAt, refAt, h, add_assoc]

/-- One row's entry j in the kernel's order, the row given by its eight relations' 128 scaled features: from zero,
    per relation, add the row's product with the weight's column j, then the bias. -/
def kerRow (X : Fin 8 → Fin 128 → EReal) (W : Fin 8 → Fin 128 → Fin 128 → EReal) (b : Fin 8 → Fin 128 → EReal)
    (j : Fin 128) : EReal :=
  ((((((((((((((((0 + ∑ k : Fin 128, X 0 k * W 0 k j) + b 0 j) + ∑ k : Fin 128, X 1 k * W 1 k j) + b 1 j) + ∑ k : Fin 128, X 2 k * W 2 k j) + b 2 j) + ∑ k : Fin 128, X 3 k * W 3 k j) + b 3 j) + ∑ k : Fin 128, X 4 k * W 4 k j) + b 4 j) + ∑ k : Fin 128, X 5 k * W 5 k j) + b 5 j) + ∑ k : Fin 128, X 6 k * W 6 k j) + b 6 j) + ∑ k : Fin 128, X 7 k * W 7 k j) + b 7 j)

/-- The kernel's entry (n, j) is row n's entry j. -/
theorem kerAt_eq_kerRow (X : Fin 8 → Fin 50000 → Fin 128 → EReal) (W : Fin 8 → Fin 128 → Fin 128 → EReal)
    (b : Fin 8 → Fin 128 → EReal) (n : Fin 50000) (j : Fin 128) :
    kerAt X W b n j = kerRow (fun r k => X r n k) W b j := rfl

end Cert.Spec

end
-- ==== Proof.Chain.lean ====
import proofs.«129587_j88029649699360_1_alg».proof.Proof.Gen.ReferenceIdeal

/-!
The per-relation host chain both programs share, named once.

For one relation with source row `s` and destination row `d` (each 64000 node numbers):
`Nrm d` is the degree factor, entry `n` being `max(1, #{e | d e = n}) ^ (-1/2)`; `Agg x s d` is the
aggregate, row `n` being the sum over the edges `e` with `d e = n` of row `s e` of `x` scaled by `Nrm s`.
`term` is one relation's contribution `(Agg · W_r) * Nrm d + b_r` and `refTerm` the sum of the eight
contributions from zero, left to right. Nothing here is opened by the proofs that use it except `Nrm`'s
outermost power and maximum, for the sign and finiteness of the factor.
-/

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- The degree factor of a row `d` of node numbers: per node, the count of its occurrences, at least one, to the power -1/2. -/
def Nrm (d : (⟨S64000, .i32⟩ : BufTy).Contents (Elt F)) : (⟨S50000, .f32⟩ : BufTy).Contents (Elt F) :=
  Host.powf (maximumf (broadcastInDim S50000 ![] bcast_S_S50000 (id (constant S_ .f32 0x3F800000#32))) (Host.scatterAdd scatter_S50000_S64000x1_S64000_n_0_0_1 (broadcastInDim S50000 ![] bcast_S_S50000 (constant S_ .f32 0x00000000#32)) (broadcastInDim S64000x1 ![0] bcast_S64000_S64000x1_0 d) (broadcastInDim S64000 ![] bcast_S_S64000 (constant S_ .f32 0x3F800000#32)))) (broadcastInDim S50000 ![] bcast_S_S50000 (constant S_ .f32 0xBF000000#32))

/-- The degree factor as a column repeated along the 128 features. -/
def NrmB (d : (⟨S64000, .i32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 (Nrm d))

/-- The aggregate of one relation: the rows of `x`, scaled by the source rows' degree factor, gathered at the
    (normalised) source node of each edge and summed into the edge's destination node. -/
def Agg (x : (⟨S50000x128, .f32⟩ : BufTy).Contents (Elt F)) (s d : (⟨S64000, .i32⟩ : BufTy).Contents (Elt F)) : (⟨S50000x128, .f32⟩ : BufTy).Contents (Elt F) :=
  Host.scatterAdd scatter_S50000x128_S64000x1_S64000x128_1_0_0_1 (broadcastInDim S50000x128 ![] bcast_S_S50000x128 (constant S_ .f32 0x00000000#32)) (broadcastInDim S64000x1 ![0] bcast_S64000_S64000x1_0 d) (Host.gather gather_S50000x128_S64000x1_S64000x128_1_0_n_n_0_1_1128 (mulf x (NrmB s)) (broadcastInDim S64000x1 ![0] bcast_S64000_S64000x1_0 (select (cmpi .slt s (broadcastInDim S64000 ![] bcast_S_S64000 (constantI S_ 32 0#32))) (addi s (broadcastInDim S64000 ![] bcast_S_S64000 (constantI S_ 32 50000#32))) s)))

/-- Row `r` of an [8, 64000] array of node numbers. -/
def srow (a : (⟨S8x64000, .i32⟩ : BufTy).Contents (Elt F)) : Fin 8 → (⟨S64000, .i32⟩ : BufTy).Contents (Elt F)
  | 0 => shapeCast _ (extractStridedSlice S1x64000 ![0, 0] a slices_S8x64000_S1x64000_0_0) shapeCasts_S1x64000_S64000
  | 1 => shapeCast _ (extractStridedSlice S1x64000 ![1, 0] a slices_S8x64000_S1x64000_1_0) shapeCasts_S1x64000_S64000
  | 2 => shapeCast _ (extractStridedSlice S1x64000 ![2, 0] a slices_S8x64000_S1x64000_2_0) shapeCasts_S1x64000_S64000
  | 3 => shapeCast _ (extractStridedSlice S1x64000 ![3, 0] a slices_S8x64000_S1x64000_3_0) shapeCasts_S1x64000_S64000
  | 4 => shapeCast _ (extractStridedSlice S1x64000 ![4, 0] a slices_S8x64000_S1x64000_4_0) shapeCasts_S1x64000_S64000
  | 5 => shapeCast _ (extractStridedSlice S1x64000 ![5, 0] a slices_S8x64000_S1x64000_5_0) shapeCasts_S1x64000_S64000
  | 6 => shapeCast _ (extractStridedSlice S1x64000 ![6, 0] a slices_S8x64000_S1x64000_6_0) shapeCasts_S1x64000_S64000
  | 7 => shapeCast _ (extractStridedSlice S1x64000 ![7, 0] a slices_S8x64000_S1x64000_7_0) shapeCasts_S1x64000_S64000
  | ⟨_ + 8, h⟩ => absurd h (Nat.not_lt.2 (Nat.le_add_left _ _))

/-- Relation `r`'s 128 × 128 weight. -/
def wrow (a : (⟨S8x128x128, .f32⟩ : BufTy).Contents (Elt F)) : Fin 8 → (⟨S128x128, .f32⟩ : BufTy).Contents (Elt F)
  | 0 => shapeCast _ (extractStridedSlice S1x128x128 ![0, 0, 0] a slices_S8x128x128_S1x128x128_0_0_0) shapeCasts_S1x128x128_S128x128
  | 1 => shapeCast _ (extractStridedSlice S1x128x128 ![1, 0, 0] a slices_S8x128x128_S1x128x128_1_0_0) shapeCasts_S1x128x128_S128x128
  | 2 => shapeCast _ (extractStridedSlice S1x128x128 ![2, 0, 0] a slices_S8x128x128_S1x128x128_2_0_0) shapeCasts_S1x128x128_S128x128
  | 3 => shapeCast _ (extractStridedSlice S1x128x128 ![3, 0, 0] a slices_S8x128x128_S1x128x128_3_0_0) shapeCasts_S1x128x128_S128x128
  | 4 => shapeCast _ (extractStridedSlice S1x128x128 ![4, 0, 0] a slices_S8x128x128_S1x128x128_4_0_0) shapeCasts_S1x128x128_S128x128
  | 5 => shapeCast _ (extractStridedSlice S1x128x128 ![5, 0, 0] a slices_S8x128x128_S1x128x128_5_0_0) shapeCasts_S1x128x128_S128x128
  | 6 => shapeCast _ (extractStridedSlice S1x128x128 ![6, 0, 0] a slices_S8x128x128_S1x128x128_6_0_0) shapeCasts_S1x128x128_S128x128
  | 7 => shapeCast _ (extractStridedSlice S1x128x128 ![7, 0, 0] a slices_S8x128x128_S1x128x128_7_0_0) shapeCasts_S1x128x128_S128x128
  | ⟨_ + 8, h⟩ => absurd h (Nat.not_lt.2 (Nat.le_add_left _ _))

/-- Relation `r`'s bias vector. -/
def brow (a : (⟨S8x128, .f32⟩ : BufTy).Contents (Elt F)) : Fin 8 → (⟨S128, .f32⟩ : BufTy).Contents (Elt F)
  | 0 => shapeCast _ (extractStridedSlice S1x128 ![0, 0] a slices_S8x128_S1x128_0_0) shapeCasts_S1x128_S128
  | 1 => shapeCast _ (extractStridedSlice S1x128 ![1, 0] a slices_S8x128_S1x128_1_0) shapeCasts_S1x128_S128
  | 2 => shapeCast _ (extractStridedSlice S1x128 ![2, 0] a slices_S8x128_S1x128_2_0) shapeCasts_S1x128_S128
  | 3 => shapeCast _ (extractStridedSlice S1x128 ![3, 0] a slices_S8x128_S1x128_3_0) shapeCasts_S1x128_S128
  | 4 => shapeCast _ (extractStridedSlice S1x128 ![4, 0] a slices_S8x128_S1x128_4_0) shapeCasts_S1x128_S128
  | 5 => shapeCast _ (extractStridedSlice S1x128 ![5, 0] a slices_S8x128_S1x128_5_0) shapeCasts_S1x128_S128
  | 6 => shapeCast _ (extractStridedSlice S1x128 ![6, 0] a slices_S8x128_S1x128_6_0) shapeCasts_S1x128_S128
  | 7 => shapeCast _ (extractStridedSlice S1x128 ![7, 0] a slices_S8x128_S1x128_7_0) shapeCasts_S1x128_S128
  | ⟨_ + 8, h⟩ => absurd h (Nat.not_lt.2 (Nat.le_add_left _ _))

/-- A bias vector repeated down the 50000 rows. -/
def BiasB (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- Relation `r`'s contribution: the aggregate times the weight, each row scaled by the destination degree factor, plus the bias. -/
def term (x : (⟨S50000x128, .f32⟩ : BufTy).Contents (Elt F)) (w : (⟨S8x128x128, .f32⟩ : BufTy).Contents (Elt F)) (b : (⟨S8x128, .f32⟩ : BufTy).Contents (Elt F))
    (a3 a4 : (⟨S8x64000, .i32⟩ : BufTy).Contents (Elt F)) (r : Fin 8) : (⟨S50000x128, .f32⟩ : BufTy).Contents (Elt F) :=
  addf (mulf (Host.dotGeneral dot_S50000x128_S128x128_S50000x128_1_0_0_1_n_n none (Agg x (srow a3 r) (srow a4 r)) (wrow w r)) (NrmB (srow a4 r))) (BiasB (brow b r))

/-- The eight contributions added from zero, left to right. -/
def refTerm (x : (⟨S50000x128, .f32⟩ : BufTy).Contents (Elt F)) (w : (⟨S8x128x128, .f32⟩ : BufTy).Contents (Elt F)) (b : (⟨S8x128, .f32⟩ : BufTy).Contents (Elt F))
    (a3 a4 : (⟨S8x64000, .i32⟩ : BufTy).Contents (Elt F)) : (⟨S50000x128, .f32⟩ : BufTy).Contents (Elt F) :=
  (addf (addf (addf (addf (addf (addf (addf (addf (broadcastInDim S50000x128 ![] bcast_S_S50000x128 (constant S_ .f32 0x00000000#32)) (term x w b a3 a4 0)) (term x w b a3 a4 1)) (term x w b a3 a4 2)) (term x w b a3 a4 3)) (term x w b a3 a4 4)) (term x w b a3 a4 5)) (term x w b a3 a4 6)) (term x w b a3 a4 7))

end Cert.ReferenceIdeal.Chain

end
-- ==== Proof.NrmFacts.lean ====
import proofs.«129587_j88029649699360_1_alg».proof.Proof.Chain
import Idealize.ShloMosaic.Lib.ValueIdx
import Idealize.ShloMosaic.Lib.IdealHost

/-!
The degree factor is a nonnegative finite number at every node.

At a node `n` the factor `Nrm d` reads `(max 1 x) ^ (-1/2)`, where `x` is the node's count of occurrences in
`d` (whatever that sum is as an extended real: it is never opened). The base `max 1 x` is at least one, so it is
not the junk value `⊥`; if it is `⊤` the power at a negative exponent is `0`; if it is a real `r` the power is
the real `r ^ (-1/2)`, which is nonnegative because `r` is. In both cases the factor is a real that is not
negative.
-/

noncomputable section

namespace Cert.ReferenceIdeal.Chain

open Cert.ReferenceIdeal Cert.ReferenceIdeal.Gen Idealize.ShloMosaic Idealize.ShloMosaic.TcCoe Idealize.SL.Sem Idealize.ShloMosaic.StableHlo

/-- The pattern `0xBF000000` denotes the real `-1/2`: sign bit set, exponent field 126, fraction zero. -/
theorem ofBits_neg_half : Ideal.ofBits .f32 0xBF000000#32 = ((-(1 / 2 : ℝ) : ℝ) : EReal) := by
  simp [Ideal.ofBits, Ideal.ieee, -EReal.coe_mul, -EReal.coe_neg]; norm_num

/-- A base at least one raised to `-1/2` is a nonnegative finite number. -/
theorem pow_neg_half_of_one_le (b : EReal) (hb : 1 ≤ b) :
    0 ≤ Ideal.pow b ((-(1 / 2 : ℝ) : ℝ) : EReal) ∧ Ideal.pow b ((-(1 / 2 : ℝ) : ℝ) : EReal) ≠ ⊤ := by
  induction b using EReal.rec with
  | bot => exact absurd hb (not_le.mpr (EReal.bot_lt_zero.trans zero_lt_one))
  | top =>
    -- at base `⊤` a negative exponent gives `0`
    have hneg : ¬ (0 : EReal) < ((-(1 / 2 : ℝ) : ℝ) : EReal) := by
      rw [not_lt]; exact EReal.coe_nonpos.mpr (by norm_num)
    have hne : ((-(1 / 2 : ℝ) : ℝ) : EReal) ≠ 0 := by
      rw [Ne, EReal.coe_eq_zero]; norm_num
    rw [Ideal.pow_top, if_neg hneg, if_neg hne]
    exact ⟨le_refl _, EReal.zero_ne_top⟩
  | coe r =>
    -- at a real base the power is the real power, nonnegative since the base is
    have hr : (0 : ℝ) ≤ r := by
      have h1 : (1 : ℝ) ≤ r := by exact_mod_cast hb
      linarith
    rw [Ideal.pow_coe_coe]
    exact ⟨EReal.coe_nonneg.mpr (Real.rpow_nonneg hr _), EReal.coe_ne_top _⟩

/-- The degree factor is a power, entry by entry, of the maximum of the constant one and an array `X` (the counts),
    at the constant exponent `-1/2`. The counts stay closed. -/
theorem Nrm_eq (d : (⟨S64000, .i32⟩ : BufTy).Contents (Elt Ideal)) :
    ∃ X : (⟨S50000, .f32⟩ : BufTy).Contents (Elt Ideal),
      Nrm (F := Ideal) d = Host.powf (maximumf (broadcastInDim S50000 ![] bcast_S_S50000 (id (constant (F := Ideal) S_ .f32 0x3F800000#32))) X)
        (broadcastInDim S50000 ![] bcast_S_S50000 (constant (F := Ideal) S_ .f32 0xBF000000#32)) :=
  ⟨_, rfl⟩

/-- The degree factor at node `n`: a base at least one, raised to `-1/2`. -/
theorem Nrm_apply (d : (⟨S64000, .i32⟩ : BufTy).Contents (Elt Ideal)) (n : Fin 50000) :
    ∃ x : EReal, (Nrm (F := Ideal) d (ValueIdx.ix1 n) : EReal) = Ideal.pow (max 1 x) ((-(1 / 2 : ℝ) : ℝ) : EReal) := by
  obtain ⟨X, hX⟩ := Nrm_eq d
  refine ⟨X (ValueIdx.ix1 n), ?_⟩
  rw [hX]
  -- the power and the maximum act entry by entry, and a broadcast constant reads its pattern at every entry
  show Ideal.pow (max (Ideal.ofBits .f32 0x3F800000#32) (X (ValueIdx.ix1 n))) (Ideal.ofBits .f32 0xBF000000#32) = _
  rw [Ideal.ofBits_one_f32, ofBits_neg_half]

/-- The degree factor is not negative. -/
theorem Nrm_nonneg (d : (⟨S64000, .i32⟩ : BufTy).Contents (Elt Ideal)) (n : Fin 50000) :
    (0 : EReal) ≤ (Nrm (F := Ideal) d (ValueIdx.ix1 n) : EReal) := by
  obtain ⟨x, hx⟩ := Nrm_apply d n
  rw [hx]
  exact (pow_neg_half_of_one_le _ (le_max_left 1 x)).1

/-- The degree factor is finite above. -/
theorem Nrm_ne_top (d : (⟨S64000, .i32⟩ : BufTy).Contents (Elt Ideal)) (n : Fin 50000) :
    (Nrm (F := Ideal) d (ValueIdx.ix1 n) : EReal) ≠ ⊤ := by
  obtain ⟨x, hx⟩ := Nrm_apply d n
  rw [hx]
  exact (pow_neg_half_of_one_le _ (le_max_left 1 x)).2

end Cert.ReferenceIdeal.Chain

end
-- ==== Proof.Bridge.lean ====
import proofs.«129587_j88029649699360_1_alg».proof.Defs
import proofs.«129587_j88029649699360_1_alg».proof.Proof.Gen.Pre_finite_inputs
import proofs.«129587_j88029649699360_1_alg».proof.Proof.KIFrame
import proofs.«129587_j88029649699360_1_alg».proof.Proof.KFrame
import proofs.«129587_j88029649699360_1_alg».proof.Proof.Spec
import proofs.«129587_j88029649699360_1_alg».proof.Proof.Chain
import proofs.«129587_j88029649699360_1_alg».proof.Proof.NrmFacts
import proofs.«129587_j88029649699360_1_alg».proof.Proof.RefOps
import Idealize.ShloMosaic.Lib.ValueIdx
import Idealize.ShloMosaic.Lib.StableHlo.Run

/-!
The two programs compute one function.

Per relation r the host side of both programs builds the same aggregate A r (rows of the features, scaled by the
source degree factor, summed into destination nodes) and the same destination degree factor C r, an entry of which
is max(1, count)^(-1/2): a nonnegative finite number whatever the node numbers are. The reference multiplies A r by
the weight and THEN scales row n by C r n; the kernel scales row n of A r first, stacks the eight scaled aggregates,
and its one region multiplies and adds the biases. Entry by entry the two are the same seventeen-term sum, because
a nonnegative finite factor moves out of the sum over the 128 features. No finiteness of the inputs is used.
-/

noncomputable section

namespace Cert.Proof.Bridge

open Idealize.ShloMosaic Idealize.ShloMosaic.TcCoe Idealize.SL.Sem Idealize.ShloMosaic.ValueIdx
open Cert.ReferenceIdeal.Chain

/-- The memories of the idealized kernel and of the idealized reference. -/
abbrev KMem := (ℓ : Loc KernelIdeal.nD KernelIdeal.τ KernelIdeal.sig) → Buf (Elt Ideal) ℓ
abbrev RMem := (ℓ : Loc ReferenceIdeal.nD ReferenceIdeal.τ ReferenceIdeal.sig) → Buf (Elt Ideal) ℓ

/-- The kernel's five argument arrays on core `c`. -/
abbrev kx (m : KMem) (c : Dev KernelIdeal.nD) := m ((c : Thread KernelIdeal.nD KernelIdeal.τ).loc KernelIdeal.main_arg0)
abbrev kw (m : KMem) (c : Dev KernelIdeal.nD) := m ((c : Thread KernelIdeal.nD KernelIdeal.τ).loc KernelIdeal.main_arg1)
abbrev kb (m : KMem) (c : Dev KernelIdeal.nD) := m ((c : Thread KernelIdeal.nD KernelIdeal.τ).loc KernelIdeal.main_arg2)
abbrev ks (m : KMem) (c : Dev KernelIdeal.nD) := m ((c : Thread KernelIdeal.nD KernelIdeal.τ).loc KernelIdeal.main_arg3)
abbrev kd (m : KMem) (c : Dev KernelIdeal.nD) := m ((c : Thread KernelIdeal.nD KernelIdeal.τ).loc KernelIdeal.main_arg4)

/-- What the kernel's result array holds, entry by entry, is what the reference's term holds: the stacked array's
    entry is the aggregate's times the degree factor, the kernel's sum over it is the reference's sum with the
    factor outside, the factor being nonnegative and finite. -/
theorem value_eq (m : KMem) (c : Dev KernelIdeal.nD)
    (hOut : ∀ (n : Fin 50000) (j : Fin 128),
      ((KernelIdeal.Fr.dats (F := Ideal) m 0 c).arrAt 3 KernelIdeal.cfg0.N (ix2 n j) : EReal)
        = Cert.Spec.kerAt (fun r n k => (KernelIdeal.Fr.V (F := Ideal) m c KernelIdeal.main_v273 (ix3 r n k) : EReal))
            (fun r k j => (KernelIdeal.Fr.V (F := Ideal) m c KernelIdeal.main_v274 (ix3 r k j) : EReal))
            (fun r j => (KernelIdeal.Fr.V (F := Ideal) m c KernelIdeal.main_arg2 (ix2 r j) : EReal)) n j)
    (h273 : ∀ (r : Fin 8) (n : Fin 50000) (k : Fin 128),
      (KernelIdeal.Fr.V (F := Ideal) m c KernelIdeal.main_v273 (ix3 r n k) : EReal)
        = (Agg (F := Ideal) (kx m c) (srow (ks m c) r) (srow (kd m c) r) (ix2 n k) : EReal) * Nrm (F := Ideal) (srow (kd m c) r) (ix1 n))
    (h274 : ∀ (r : Fin 8) (k j : Fin 128),
      (KernelIdeal.Fr.V (F := Ideal) m c KernelIdeal.main_v274 (ix3 r k j) : EReal) = kw m c (ix3 r k j))
    (hRef : ∀ (n : Fin 50000) (j : Fin 128),
      (refTerm (F := Ideal) (kx m c) (kw m c) (kb m c) (ks m c) (kd m c) (ix2 n j) : EReal)
        = Cert.Spec.refAt (fun r n k => Agg (F := Ideal) (kx m c) (srow (ks m c) r) (srow (kd m c) r) (ix2 n k))
            (fun r n => Nrm (F := Ideal) (srow (kd m c) r) (ix1 n)) (fun r k j => kw m c (ix3 r k j)) (fun r j => kb m c (ix2 r j)) n j) :
    (refTerm (F := Ideal) (kx m c) (kw m c) (kb m c) (ks m c) (kd m c)
        : Buf (Elt Ideal) ((c.tc : Thread KernelIdeal.nD KernelIdeal.τ).loc KernelIdeal.main_v275))
      = (KernelIdeal.Fr.dats (F := Ideal) m 0 c).arrAt 3 KernelIdeal.cfg0.N := by
  funext idx
  obtain ⟨n, j, rfl⟩ : ∃ (n : Fin 50000) (j : Fin 128), idx = ix2 n j := ⟨idx 0, idx 1, eq_ix2 idx⟩
  refine (hRef n j).trans ?_
  refine ((Cert.Spec.kerAt_scaled _ _ _ _ (fun r n => Nrm_nonneg _ n) (fun r n => Nrm_ne_top _ n) n j).symm.trans ?_)
  refine Eq.trans ?_ (hOut n j).symm
  have e2 : (fun (r : Fin 8) (j : Fin 128) => (KernelIdeal.Fr.V (F := Ideal) m c KernelIdeal.main_arg2 (ix2 r j) : EReal)) = fun r j => kb m c (ix2 r j) := by
    funext r j; rw [KernelIdeal.Fr.V_main_arg2]
  rw [e2, show (fun (r : Fin 8) (n : Fin 50000) (k : Fin 128) => (KernelIdeal.Fr.V (F := Ideal) m c KernelIdeal.main_v273 (ix3 r n k) : EReal)) = _ from funext fun r => funext fun n => funext fun k => h273 r n k,
    show (fun (r : Fin 8) (k j : Fin 128) => (KernelIdeal.Fr.V (F := Ideal) m c KernelIdeal.main_v274 (ix3 r k j) : EReal)) = _ from funext fun r => funext fun k => funext fun j => h274 r k j]

/-- The reference's run: from the fold of its operations over the launch memory, read at the result (the eight
    contributions' sum, as a term of the argument arrays) and at the arguments (no operation writes one). -/
theorem ref_run (m' : RMem) (ρ' : Dev ReferenceIdeal.nD → PrngReg)
    (hRun : θ_run (ReferenceIdeal.defs (F := Ideal)) (onTc (τ := ReferenceIdeal.τ) (ReferenceIdeal.main (F := Ideal))) ⟨m', fun _ => 0, ρ'⟩ fun r =>
      ∀ (d : Dev ReferenceIdeal.nD) (b : Ref ReferenceIdeal.sig .tc), r.2.mem ((d.tc : Thread ReferenceIdeal.nD ReferenceIdeal.τ).loc b)
        = StableHlo.after (ReferenceIdeal.RefOps.ops (F := Ideal)) (StableHlo.launchContents m' d) (Proc.devRef .tc b))
    (hRes : ∀ W : Valuation ReferenceIdeal.τ ReferenceIdeal.sig (Elt Ideal),
      StableHlo.after (ReferenceIdeal.RefOps.ops (F := Ideal)) W (Proc.devRef .tc ReferenceIdeal.main_v336)
        = refTerm (W (Proc.devRef .tc ReferenceIdeal.main_arg0)) (W (Proc.devRef .tc ReferenceIdeal.main_arg1)) (W (Proc.devRef .tc ReferenceIdeal.main_arg2))
            (W (Proc.devRef .tc ReferenceIdeal.main_arg3)) (W (Proc.devRef .tc ReferenceIdeal.main_arg4)))
    (hA0 : ∀ W : Valuation ReferenceIdeal.τ ReferenceIdeal.sig (Elt Ideal), StableHlo.after (ReferenceIdeal.RefOps.ops (F := Ideal)) W (Proc.devRef .tc ReferenceIdeal.main_arg0) = W (Proc.devRef .tc ReferenceIdeal.main_arg0))
    (hA1 : ∀ W : Valuation ReferenceIdeal.τ ReferenceIdeal.sig (Elt Ideal), StableHlo.after (ReferenceIdeal.RefOps.ops (F := Ideal)) W (Proc.devRef .tc ReferenceIdeal.main_arg1) = W (Proc.devRef .tc ReferenceIdeal.main_arg1))
    (hA2 : ∀ W : Valuation ReferenceIdeal.τ ReferenceIdeal.sig (Elt Ideal), StableHlo.after (ReferenceIdeal.RefOps.ops (F := Ideal)) W (Proc.devRef .tc ReferenceIdeal.main_arg2) = W (Proc.devRef .tc ReferenceIdeal.main_arg2))
    (hA3 : ∀ W : Valuation ReferenceIdeal.τ ReferenceIdeal.sig (Elt Ideal), StableHlo.after (ReferenceIdeal.RefOps.ops (F := Ideal)) W (Proc.devRef .tc ReferenceIdeal.main_arg3) = W (Proc.devRef .tc ReferenceIdeal.main_arg3))
    (hA4 : ∀ W : Valuation ReferenceIdeal.τ ReferenceIdeal.sig (Elt Ideal), StableHlo.after (ReferenceIdeal.RefOps.ops (F := Ideal)) W (Proc.devRef .tc ReferenceIdeal.main_arg4) = W (Proc.devRef .tc ReferenceIdeal.main_arg4)) :
    θ_run (ReferenceIdeal.defs (F := Ideal)) (onTc (τ := ReferenceIdeal.τ) (ReferenceIdeal.main (F := Ideal))) ⟨m', fun _ => 0, ρ'⟩ (fun r => ∀ c : Dev ReferenceIdeal.nD,
      r.2.mem ((c.tc : Thread ReferenceIdeal.nD ReferenceIdeal.τ).loc ReferenceIdeal.main_v336)
        = refTerm (F := Ideal) (m' ((c.tc : Thread ReferenceIdeal.nD ReferenceIdeal.τ).loc ReferenceIdeal.main_arg0)) (m' ((c.tc : Thread ReferenceIdeal.nD ReferenceIdeal.τ).loc ReferenceIdeal.main_arg1))
            (m' ((c.tc : Thread ReferenceIdeal.nD ReferenceIdeal.τ).loc ReferenceIdeal.main_arg2)) (m' ((c.tc : Thread ReferenceIdeal.nD ReferenceIdeal.τ).loc ReferenceIdeal.main_arg3))
            (m' ((c.tc : Thread ReferenceIdeal.nD ReferenceIdeal.τ).loc ReferenceIdeal.main_arg4))
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3)
      ∧ r.2.mem ((c.tc : Thread ReferenceIdeal.nD ReferenceIdeal.τ).loc ReferenceIdeal.main_arg4) = m' ((c.tc : Thread ReferenceIdeal.nD ReferenceIdeal.τ).loc ReferenceIdeal.main_arg4)) :=
  (θ_run _ _ _).mono (fun _ h c => ⟨(h c ReferenceIdeal.main_v336).trans (hRes _),
      (h c ReferenceIdeal.main_arg0).trans (hA0 _), (h c ReferenceIdeal.main_arg1).trans (hA1 _), (h c ReferenceIdeal.main_arg2).trans (hA2 _),
      (h c ReferenceIdeal.main_arg3).trans (hA3 _), (h c ReferenceIdeal.main_arg4).trans (hA4 _)⟩) hRun

end Cert.Proof.Bridge

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.RefAt.lean ====
import proofs.«129587_j88029649699360_1_alg».proof.Proof.Chain
import proofs.«129587_j88029649699360_1_alg».proof.Proof.Spec
import proofs.«129587_j88029649699360_1_alg».proof.Proof.LibPlainDot
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

/-!
The reference's result read at one entry.

The reference adds, from a zero array and relation by relation, the term `(Agg · W_r) * Nrm + b_r`. Read at the entry
`(n, j)`: the zero array gives `0`; a sum of arrays is the sum of the entries; the product of the aggregate with relation
`r`'s weight is the sum over the 128 features `k` of `Agg (n, k) * W (r, k, j)`; the degree factor, stood up as a column and
repeated along the features, gives the factor of node `n`; the bias, laid as a row and repeated down the nodes, gives
`b (r, j)`. Relation `r`'s weight and bias are the unit slice at `r` of the stacked arrays with the leading axis dropped,
so their entries are the stacked arrays' entries at leading coordinate `r`. The aggregate and the degree factor are carried
as they are, unopened.
-/

noncomputable section

open scoped BigOperators

namespace Cert.ReferenceIdeal.RefAt

open Cert.ReferenceIdeal Cert.ReferenceIdeal.Gen Idealize.ShloMosaic Idealize.ShloMosaic.ValueIdx

variable {α : Type}

/-- A unit slice of the leading axis of an [8, 128, 128] array at offset `o`, with that axis dropped, reads at
    `(k, j)` the array at `(o, k, j)`. -/
theorem slab_at (a : S8x128x128.Idx → α) (o : Nat) (ho : o < 8) (h : S8x128x128.Slices ![o, 0, 0] S1x128x128)
    (hc : S1x128x128.ShapeCasts S128x128) (k j : Fin 128) :
    shapeCast S128x128 (extractStridedSlice S1x128x128 ![o, 0, 0] a h) hc (ix2 k j) = a (ix3 (⟨o, ho⟩ : Fin 8) k j) := by
  refine (shapeCast_1ab_ab_apply _ hc k j).trans ?_
  refine extractStridedSlice_apply _ a h _ _ fun ax => ?_
  match ax with
  | ⟨0, _⟩ => rfl
  | ⟨1, _⟩ => exact (Nat.zero_add _).symm
  | ⟨2, _⟩ => exact (Nat.zero_add _).symm

/-- A unit slice of the leading axis of an [8, 128] array at offset `o`, with that axis dropped, reads at `j` the
    array at `(o, j)`. -/
theorem row_at (a : S8x128.Idx → α) (o : Nat) (ho : o < 8) (h : S8x128.Slices ![o, 0] S1x128)
    (hc : S1x128.ShapeCasts S128) (j : Fin 128) :
    shapeCast S128 (extractStridedSlice S1x128 ![o, 0] a h) hc (ix1 j) = a (ix2 (⟨o, ho⟩ : Fin 8) j) := by
  refine (shapeCast_1a_a_apply _ hc j).trans ?_
  exact slice2_axis0_apply o a h (0 : Fin 1) j ⟨o, ho⟩ rfl

/-- Relation `r`'s weight at `(k, j)` is the stacked weight at `(r, k, j)`. -/
theorem wrow_at (w : (⟨S8x128x128, .f32⟩ : BufTy).Contents (Elt Ideal)) (r : Fin 8) (k j : Fin 128) :
    Chain.wrow (F := Ideal) w r (ix2 k j) = w (ix3 r k j) :=
  match r with
  | 0 => slab_at w 0 (by decide) _ _ k j
  | 1 => slab_at w 1 (by decide) _ _ k j
  | 2 => slab_at w 2 (by decide) _ _ k j
  | 3 => slab_at w 3 (by decide) _ _ k j
  | 4 => slab_at w 4 (by decide) _ _ k j
  | 5 => slab_at w 5 (by decide) _ _ k j
  | 6 => slab_at w 6 (by decide) _ _ k j
  | 7 => slab_at w 7 (by decide) _ _ k j
  | ⟨_ + 8, h⟩ => absurd h (Nat.not_lt.2 (Nat.le_add_left _ _))

/-- Relation `r`'s bias at `j` is the stacked bias at `(r, j)`. -/
theorem brow_at (b : (⟨S8x128, .f32⟩ : BufTy).Contents (Elt Ideal)) (r : Fin 8) (j : Fin 128) :
    Chain.brow (F := Ideal) b r (ix1 j) = b (ix2 r j) :=
  match r with
  | 0 => row_at b 0 (by decide) _ _ j
  | 1 => row_at b 1 (by decide) _ _ j
  | 2 => row_at b 2 (by decide) _ _ j
  | 3 => row_at b 3 (by decide) _ _ j
  | 4 => row_at b 4 (by decide) _ _ j
  | 5 => row_at b 5 (by decide) _ _ j
  | 6 => row_at b 6 (by decide) _ _ j
  | 7 => row_at b 7 (by decide) _ _ j
  | ⟨_ + 8, h⟩ => absurd h (Nat.not_lt.2 (Nat.le_add_left _ _))

/-- The degree factor's column repeated along the features reads, at `(n, j)`, the factor of node `n`. -/
theorem NrmB_at (d : (⟨S64000, .i32⟩ : BufTy).Contents (Elt Ideal)) (n : Fin 50000) (j : Fin 128) :
    Chain.NrmB (F := Ideal) d (ix2 n j) = Chain.Nrm (F := Ideal) d (ix1 n) := by
  unfold Chain.NrmB
  refine (broadcastInDim_apply _ bcast_S50000x1_S50000x128_0_1 _ (ix2 n j) (ix2 n (0 : Fin 1)) fun ax => ?_).trans ?_
  · match ax with
    | ⟨0, _⟩ => rfl
    | ⟨1, _⟩ => rfl
  · refine broadcastInDim_apply _ bcast_S50000_S50000x1_0 _ (ix2 n (0 : Fin 1)) (ix1 n) fun ax => ?_
    match ax with
    | ⟨0, _⟩ => rfl

/-- A bias vector repeated down the rows reads, at `(n, j)`, its entry `j`. -/
theorem BiasB_at (v : (⟨S128, .f32⟩ : BufTy).Contents (Elt Ideal)) (n : Fin 50000) (j : Fin 128) :
    Chain.BiasB (F := Ideal) v (ix2 n j) = v (ix1 j) := by
  unfold Chain.BiasB
  refine (broadcastInDim_apply _ bcast_S1x128_S50000x128_0_1 _ (ix2 n j) (ix2 (0 : Fin 1) j) fun ax => ?_).trans ?_
  · match ax with
    | ⟨0, _⟩ => rfl
    | ⟨1, _⟩ => rfl
  · refine broadcastInDim_apply _ bcast_S128_S1x128_1 _ (ix2 (0 : Fin 1) j) (ix1 j) fun ax => ?_
    match ax with
    | ⟨0, _⟩ => rfl

/-- The broadcast zero reads zero everywhere. -/
theorem zero_at (i : S50000x128.Idx) :
    (broadcastInDim S50000x128 ![] bcast_S_S50000x128 (constant (F := Ideal) S_ .f32 0x00000000#32) i : EReal) = 0 := by
  rw [broadcastInDim_scalar_apply, constant_apply, Ideal.ofBits_zero_f32]

/-- The plain 50000 × 128 by 128 × 128 product reads, at `(n, j)`, the sum over the 128 features. -/
theorem dot_at (A : FVec Ideal S50000x128 .f32) (W : FVec Ideal S128x128 .f32)
    (n : Fin 50000) (j : Fin 128) :
    (Host.dotGeneral (F := Ideal) dot_S50000x128_S128x128_S50000x128_1_0_0_1_n_n none A W (ix2 n j) : EReal)
      = ∑ k : Fin 128, A (ix2 n k) * W (ix2 k j) := by
  have e : dot_S50000x128_S128x128_S50000x128_1_0_0_1_n_n = DotDims.plain 50000 128 128 := rfl
  rw [e]
  exact PlainDot.dotGeneral_apply 50000 128 128 none .single A W (ix2 n j)

/-- One relation's contribution at `(n, j)`: the product's entry scaled by the destination factor of node `n`, plus the
    bias entry. -/
theorem term_at (x : (⟨S50000x128, .f32⟩ : BufTy).Contents (Elt Ideal)) (w : (⟨S8x128x128, .f32⟩ : BufTy).Contents (Elt Ideal))
    (b : (⟨S8x128, .f32⟩ : BufTy).Contents (Elt Ideal)) (a3 a4 : (⟨S8x64000, .i32⟩ : BufTy).Contents (Elt Ideal))
    (r : Fin 8) (n : Fin 50000) (j : Fin 128) :
    (Chain.term (F := Ideal) x w b a3 a4 r (ix2 n j) : EReal)
      = Cert.Spec.dotAt (fun n k => Chain.Agg (F := Ideal) x (Chain.srow a3 r) (Chain.srow a4 r) (ix2 n k))
          (fun k j => w (ix3 r k j)) n j * Chain.Nrm (F := Ideal) (Chain.srow a4 r) (ix1 n) + b (ix2 r j) := by
  unfold Chain.term Cert.Spec.dotAt
  rw [addf_apply, mulf_apply, dot_at, NrmB_at, BiasB_at, brow_at]
  simp only [wrow_at]

/-- The reference's result at `(n, j)`. -/
theorem refTerm_at (x : (⟨S50000x128, .f32⟩ : BufTy).Contents (Elt Ideal)) (w : (⟨S8x128x128, .f32⟩ : BufTy).Contents (Elt Ideal))
    (b : (⟨S8x128, .f32⟩ : BufTy).Contents (Elt Ideal)) (a3 a4 : (⟨S8x64000, .i32⟩ : BufTy).Contents (Elt Ideal))
    (n : Fin 50000) (j : Fin 128) :
    (Chain.refTerm (F := Ideal) x w b a3 a4 (ValueIdx.ix2 n j) : EReal)
      = Cert.Spec.refAt (fun r n k => Chain.Agg (F := Ideal) x (Chain.srow a3 r) (Chain.srow a4 r) (ValueIdx.ix2 n k))
          (fun r n => Chain.Nrm (F := Ideal) (Chain.srow a4 r) (ValueIdx.ix1 n)) (fun r k j => w (ValueIdx.ix3 r k j))
          (fun r j => b (ValueIdx.ix2 r j)) n j := by
  unfold Chain.refTerm Cert.Spec.refAt
  simp only [addf_apply, term_at]
  rw [zero_at]

end Cert.ReferenceIdeal.RefAt

end
-- ==== Proof.RefRun.lean ====
/- The reference program's run, from its seven printed windows.

   @main is seven windows run in order; each window is, by computation, the straight line `seq` of that
   window's operations (a call of @clip contributes its body's three operations in the call's place). Two lines
   run one after the other are their concatenation run as one (`seq_append`), so @main is `seq` of the
   concatenation of the seven windows' lists, and that concatenation is the list `RefOps.ops` up to the
   bracketing of `++`. Every operation touches TensorCore references only and allocates nothing: both are facts
   of the fifteen pieces the list is cut into, and a fact of every element of two lists is a fact of every element
   of their concatenation. The signature scopes no buffer and no semaphore, so the run of a straight line applies:
   from any memory with zero counters every weakly fair execution of @main terminates with each TensorCore buffer
   at the fold of the operations' results over its launch contents. -/
import proofs.«129587_j88029649699360_1_alg».proof.Proof.RefOps
import Idealize.ShloMosaic.Lib.StableHlo.Run

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## Each window is the line of its operations -/

set_option maxRecDepth 8192 in
set_option maxHeartbeats 4000000 in
/-- Window 0 of @main is the straight line of its operations: each statement is one `hlo` step, a call of
    @clip its body's three steps in the call's place, and sequencing reassociates by computation. -/
theorem main_part0_eq (c : Dev nD) : main_part0 (F := F) c = StableHlo.seq (w0 (F := F)) := rfl

set_option maxRecDepth 8192 in
set_option maxHeartbeats 4000000 in
/-- Window 1 of @main is the straight line of its operations: each statement is one `hlo` step, a call of
    @clip its body's three steps in the call's place, and sequencing reassociates by computation. -/
theorem main_part1_eq (c : Dev nD) : main_part1 (F := F) c = StableHlo.seq (w1 (F := F)) := rfl

set_option maxRecDepth 8192 in
set_option maxHeartbeats 4000000 in
/-- Window 2 of @main is the straight line of its operations: each statement is one `hlo` step, a call of
    @clip its body's three steps in the call's place, and sequencing reassociates by computation. -/
theorem main_part2_eq (c : Dev nD) : main_part2 (F := F) c = StableHlo.seq (w2 (F := F)) := rfl

set_option maxRecDepth 8192 in
set_option maxHeartbeats 4000000 in
/-- Window 3 of @main is the straight line of its operations: each statement is one `hlo` step, a call of
    @clip its body's three steps in the call's place, and sequencing reassociates by computation. -/
theorem main_part3_eq (c : Dev nD) : main_part3 (F := F) c = StableHlo.seq (w3 (F := F)) := rfl

set_option maxRecDepth 8192 in
set_option maxHeartbeats 4000000 in
/-- Window 4 of @main is the straight line of its operations: each statement is one `hlo` step, a call of
    @clip its body's three steps in the call's place, and sequencing reassociates by computation. -/
theorem main_part4_eq (c : Dev nD) : main_part4 (F := F) c = StableHlo.seq (w4 (F := F)) := rfl

set_option maxRecDepth 8192 in
set_option maxHeartbeats 4000000 in
/-- Window 5 of @main is the straight line of its operations: each statement is one `hlo` step, a call of
    @clip its body's three steps in the call's place, and sequencing reassociates by computation. -/
theorem main_part5_eq (c : Dev nD) : main_part5 (F := F) c = StableHlo.seq (w5 (F := F)) := rfl

set_option maxRecDepth 8192 in
set_option maxHeartbeats 4000000 in
/-- Window 6 of @main is the straight line of its operations: each statement is one `hlo` step, a call of
    @clip its body's three steps in the call's place, and sequencing reassociates by computation. -/
theorem main_part6_eq (c : Dev nD) : main_part6 (F := F) c = StableHlo.seq (w6 (F := F)) := rfl

/-! ## @main is the line of all of them -/

section Join

variable {nD' : Nat} {τ' : Topo} {sig' : RefSig} {Val : EltTy → Type} {Λ : Labels}

/-- Two programs that are the lines of two lists, run one after the other, are the line of the concatenation. -/
theorem seq_join {l₁ l₂ : List (HloOp τ' sig' Val)} {p q : Prog (TpuEff nD' τ' sig' Val Λ .tc) PUnit}
    (hp : p = StableHlo.seq l₁) (hq : q = StableHlo.seq l₂) : (p >>= fun _ => q) = StableHlo.seq (l₁ ++ l₂) := by
  rw [seq_append, hp, hq]

/-- A fact of every element of two lists is a fact of every element of their concatenation. -/
theorem forall_join {α : Type _} {p : α → Prop} {l₁ l₂ : List α} (h₁ : l₁.Forall p) (h₂ : l₂.Forall p) :
    (l₁ ++ l₂).Forall p :=
  List.forall_append.mpr ⟨h₁, h₂⟩

end Join

/-- The seven windows' lists, concatenated in order, are the whole list: the same fifteen pieces in the same
    order, bracketed differently. -/
theorem windows_eq :
    (w0 ++ (w1 ++ (w2 ++ (w3 ++ (w4 ++ (w5 ++ w6))))) : List (HloOp τ sig (Elt F))) = RefOps.ops := by
  simp only [List.append_assoc]

/-- @main runs its seven windows in order. -/
theorem main_windows (c : Dev nD) :
    main (F := F) c
      = (main_part0 (F := F) c >>= fun _ => main_part1 (F := F) c >>= fun _ => main_part2 (F := F) c >>= fun _ =>
          main_part3 (F := F) c >>= fun _ => main_part4 (F := F) c >>= fun _ => main_part5 (F := F) c >>= fun _ =>
          main_part6 (F := F) c) := rfl

/-- @main is the straight line of all its operations. -/
theorem main_eq (c : Dev nD) : main (F := F) c = StableHlo.seq (RefOps.ops (F := F)) :=
  (main_windows c).trans <|
    (seq_join (main_part0_eq c) <| seq_join (main_part1_eq c) <| seq_join (main_part2_eq c) <|
      seq_join (main_part3_eq c) <| seq_join (main_part4_eq c) <| seq_join (main_part5_eq c) (main_part6_eq c)).trans
      (congrArg StableHlo.seq windows_eq)

/-! ## What the operations touch, and that they allocate nothing -/

/-- Every operation touches TensorCore references only: piece by piece. -/
theorem ops_sub : (RefOps.ops : List (HloOp τ sig (Elt F))).Forall fun op => op.bufs ⊆ StableHlo.tcRefs τ sig :=
  forall_join (forall_join (forall_join (forall_join (forall_join (forall_join (forall_join (forall_join
    (forall_join (forall_join (forall_join (forall_join (forall_join (forall_join a0_sub a1_sub) a2_sub) a3_sub)
    a4_sub) a5_sub) a6_sub) a7_sub) a8_sub) a9_sub) a10_sub) a11_sub) a12_sub) a13_sub) a14_sub

/-- No operation allocates a buffer: piece by piece. -/
theorem ops_fresh : ∀ op ∈ (RefOps.ops : List (HloOp τ sig (Elt F))), op.fresh = ∅ :=
  List.forall_iff_forall_mem.mp <|
    forall_join (forall_join (forall_join (forall_join (forall_join (forall_join (forall_join (forall_join
      (forall_join (forall_join (forall_join (forall_join (forall_join (forall_join a0_fresh a1_fresh) a2_fresh)
      a3_fresh) a4_fresh) a5_fresh) a6_fresh) a7_fresh) a8_fresh) a9_fresh) a10_fresh) a11_fresh) a12_fresh)
      a13_fresh) a14_fresh

/-! ## The run -/

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- On every device, for any float values, from any memory with zero counters: every weakly fair execution of
    @main terminates, and every final state has each TensorCore buffer at the fold of the operations' results
    over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (RefOps.ops (F := F)) (StableHlo.launchContents m d) (Proc.devRef .tc b) :=
  run_seq scopedRefs_eq scopedSems_eq defs main (fun _ => RefOps.ops) main_eq (fun _ => ops_sub) m ρ
    (fun _ => ops_fresh)

end Cert.ReferenceIdeal.RefRun

end
-- ==== Proof.RefVal.lean ====
import proofs.«129587_j88029649699360_1_alg».proof.Proof.RefOps
import proofs.«129587_j88029649699360_1_alg».proof.Proof.Chain
import Idealize.ShloMosaic.Lib.StableHlo.Run
import Idealize.ShloMosaic.Lib.Pipeline.Frame

/-!
The value of the reference program's result buffer, and of its five inputs, after all 450 host operations.

The operations are the zero accumulator's two followed by eight relations' 56 each. Relation `r`'s operations, run
from ANY contents, leave in its sum buffer the previous sum plus `Chain.term … r` of the five inputs as they stand, and
write none of the inputs. Chaining the eight through the accumulator gives `Chain.refTerm` of the inputs.
-/

noncomputable section

namespace Cert.ReferenceIdeal.RefVal

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## The five inputs are written by no operation -/

/-- A line of operations leaves the five input buffers as it found them. -/
def Keeps (l : List (HloOp τ sig (Elt F))) : Prop :=
  ∀ W : Valuation τ sig (Elt F),
    StableHlo.after l W (Proc.devRef .tc main_arg0) = W (Proc.devRef .tc main_arg0) ∧
    StableHlo.after l W (Proc.devRef .tc main_arg1) = W (Proc.devRef .tc main_arg1) ∧
    StableHlo.after l W (Proc.devRef .tc main_arg2) = W (Proc.devRef .tc main_arg2) ∧
    StableHlo.after l W (Proc.devRef .tc main_arg3) = W (Proc.devRef .tc main_arg3) ∧
    StableHlo.after l W (Proc.devRef .tc main_arg4) = W (Proc.devRef .tc main_arg4)

/-- Two such lines in a row are such a line. -/
theorem Keeps.append {l₁ l₂ : List (HloOp τ sig (Elt F))} (h₁ : Keeps l₁) (h₂ : Keeps l₂) : Keeps (l₁ ++ l₂) := fun W => by
  obtain ⟨a0, a1, a2, a3, a4⟩ := h₁ W
  obtain ⟨b0, b1, b2, b3, b4⟩ := h₂ (StableHlo.after l₁ W)
  rw [StableHlo.after_append]
  exact ⟨b0.trans a0, b1.trans a1, b2.trans a2, b3.trans a3, b4.trans a4⟩

/-- For a literal piece: per input buffer, one inequality of references per operation. -/
local macro "keeps_piece" p:ident : tactic =>
  `(tactic| (intro W
             refine ⟨?_, ?_, ?_, ?_, ?_⟩ <;>
              (refine StableHlo.after_of_forall_not_mem _ _ (List.forall_iff_forall_mem.mp ?_)
               simp only [$p:ident, TRef.unary, TRef.binary, List.Forall, StableHlo.nullary_writes, StableHlo.unary_writes, StableHlo.binary_writes,
                 StableHlo.ternary_writes, StableHlo.reshape_writes, Finset.mem_singleton]
               repeat' apply And.intro
               all_goals exact StableHlo.devRef_ne_of_ne (by decide))))

theorem keeps_a0 : Keeps (F := F) RefOps.a0 := by keeps_piece RefOps.a0
theorem keeps_a1 : Keeps (F := F) RefOps.a1 := by keeps_piece RefOps.a1
theorem keeps_a2 : Keeps (F := F) RefOps.a2 := by keeps_piece RefOps.a2
theorem keeps_a3 : Keeps (F := F) RefOps.a3 := by keeps_piece RefOps.a3
theorem keeps_a4 : Keeps (F := F) RefOps.a4 := by keeps_piece RefOps.a4
theorem keeps_a5 : Keeps (F := F) RefOps.a5 := by keeps_piece RefOps.a5
theorem keeps_a6 : Keeps (F := F) RefOps.a6 := by keeps_piece RefOps.a6
theorem keeps_a7 : Keeps (F := F) RefOps.a7 := by keeps_piece RefOps.a7
theorem keeps_a8 : Keeps (F := F) RefOps.a8 := by keeps_piece RefOps.a8
theorem keeps_a9 : Keeps (F := F) RefOps.a9 := by keeps_piece RefOps.a9
theorem keeps_a10 : Keeps (F := F) RefOps.a10 := by keeps_piece RefOps.a10
theorem keeps_a11 : Keeps (F := F) RefOps.a11 := by keeps_piece RefOps.a11
theorem keeps_a12 : Keeps (F := F) RefOps.a12 := by keeps_piece RefOps.a12
theorem keeps_a13 : Keeps (F := F) RefOps.a13 := by keeps_piece RefOps.a13
theorem keeps_a14 : Keeps (F := F) RefOps.a14 := by keeps_piece RefOps.a14

theorem keeps_pre : Keeps (F := F) RefOps.pre := keeps_a0
theorem keeps_rel0 : Keeps (F := F) RefOps.rel0 := keeps_a1
theorem keeps_rel1 : Keeps (F := F) RefOps.rel1 := keeps_a2.append keeps_a3
theorem keeps_rel2 : Keeps (F := F) RefOps.rel2 := keeps_a4.append keeps_a5
theorem keeps_rel3 : Keeps (F := F) RefOps.rel3 := keeps_a6.append keeps_a7
theorem keeps_rel4 : Keeps (F := F) RefOps.rel4 := keeps_a8.append keeps_a9
theorem keeps_rel5 : Keeps (F := F) RefOps.rel5 := keeps_a10.append keeps_a11
theorem keeps_rel6 : Keeps (F := F) RefOps.rel6 := keeps_a12.append keeps_a13
theorem keeps_rel7 : Keeps (F := F) RefOps.rel7 := keeps_a14

/-! ## One relation's operations, from any contents -/

/-- The accumulator starts as the broadcast zero. -/
theorem start (W : Valuation τ sig (Elt F)) :
    StableHlo.after (RefOps.pre (F := F)) W (Proc.devRef .tc main_v0)
      = broadcastInDim S50000x128 ![] bcast_S_S50000x128 (constant S_ .f32 0x00000000#32) := by
  simp only [RefOps.pre, RefOps.a0]
  after_results_simp

/-- Relation 0's operations add its contribution to the running sum. -/
theorem step0 (W : Valuation τ sig (Elt F)) :
    StableHlo.after (RefOps.rel0 (F := F)) W (Proc.devRef .tc main_v42)
      = addf (W (Proc.devRef .tc main_v0))
          (Chain.term (W (Proc.devRef .tc main_arg0)) (W (Proc.devRef .tc main_arg1)) (W (Proc.devRef .tc main_arg2))
            (W (Proc.devRef .tc main_arg3)) (W (Proc.devRef .tc main_arg4)) 0) := by
  simp only [RefOps.rel0, RefOps.a1]
  after_results_simp
  rfl

/-- Relation 1's operations add its contribution to the running sum. -/
theorem step1 (W : Valuation τ sig (Elt F)) :
    StableHlo.after (RefOps.rel1 (F := F)) W (Proc.devRef .tc main_v84)
      = addf (W (Proc.devRef .tc main_v42))
          (Chain.term (W (Proc.devRef .tc main_arg0)) (W (Proc.devRef .tc main_arg1)) (W (Proc.devRef .tc main_arg2))
            (W (Proc.devRef .tc main_arg3)) (W (Proc.devRef .tc main_arg4)) 1) := by
  simp only [RefOps.rel1, RefOps.a2, RefOps.a3, List.cons_append, List.nil_append]
  after_results_simp
  rfl

/-- Relation 2's operations add its contribution to the running sum. -/
theorem step2 (W : Valuation τ sig (Elt F)) :
    StableHlo.after (RefOps.rel2 (F := F)) W (Proc.devRef .tc main_v126)
      = addf (W (Proc.devRef .tc main_v84))
          (Chain.term (W (Proc.devRef .tc main_arg0)) (W (Proc.devRef .tc main_arg1)) (W (Proc.devRef .tc main_arg2))
            (W (Proc.devRef .tc main_arg3)) (W (Proc.devRef .tc main_arg4)) 2) := by
  simp only [RefOps.rel2, RefOps.a4, RefOps.a5, List.cons_append, List.nil_append]
  after_results_simp
  rfl

/-- Relation 3's operations add its contribution to the running sum. -/
theorem step3 (W : Valuation τ sig (Elt F)) :
    StableHlo.after (RefOps.rel3 (F := F)) W (Proc.devRef .tc main_v168)
      = addf (W (Proc.devRef .tc main_v126))
          (Chain.term (W (Proc.devRef .tc main_arg0)) (W (Proc.devRef .tc main_arg1)) (W (Proc.devRef .tc main_arg2))
            (W (Proc.devRef .tc main_arg3)) (W (Proc.devRef .tc main_arg4)) 3) := by
  simp only [RefOps.rel3, RefOps.a6, RefOps.a7, List.cons_append, List.nil_append]
  after_results_simp
  rfl

/-- Relation 4's operations add its contribution to the running sum. -/
theorem step4 (W : Valuation τ sig (Elt F)) :
    StableHlo.after (RefOps.rel4 (F := F)) W (Proc.devRef .tc main_v210)
      = addf (W (Proc.devRef .tc main_v168))
          (Chain.term (W (Proc.devRef .tc main_arg0)) (W (Proc.devRef .tc main_arg1)) (W (Proc.devRef .tc main_arg2))
            (W (Proc.devRef .tc main_arg3)) (W (Proc.devRef .tc main_arg4)) 4) := by
  simp only [RefOps.rel4, RefOps.a8, RefOps.a9, List.cons_append, List.nil_append]
  after_results_simp
  rfl

/-- Relation 5's operations add its contribution to the running sum. -/
theorem step5 (W : Valuation τ sig (Elt F)) :
    StableHlo.after (RefOps.rel5 (F := F)) W (Proc.devRef .tc main_v252)
      = addf (W (Proc.devRef .tc main_v210))
          (Chain.term (W (Proc.devRef .tc main_arg0)) (W (Proc.devRef .tc main_arg1)) (W (Proc.devRef .tc main_arg2))
            (W (Proc.devRef .tc main_arg3)) (W (Proc.devRef .tc main_arg4)) 5) := by
  simp only [RefOps.rel5, RefOps.a10, RefOps.a11, List.cons_append, List.nil_append]
  after_results_simp
  rfl

/-- Relation 6's operations add its contribution to the running sum. -/
theorem step6 (W : Valuation τ sig (Elt F)) :
    StableHlo.after (RefOps.rel6 (F := F)) W (Proc.devRef .tc main_v294)
      = addf (W (Proc.devRef .tc main_v252))
          (Chain.term (W (Proc.devRef .tc main_arg0)) (W (Proc.devRef .tc main_arg1)) (W (Proc.devRef .tc main_arg2))
            (W (Proc.devRef .tc main_arg3)) (W (Proc.devRef .tc main_arg4)) 6) := by
  simp only [RefOps.rel6, RefOps.a12, RefOps.a13, List.cons_append, List.nil_append]
  after_results_simp
  rfl

/-- Relation 7's operations add its contribution to the running sum. -/
theorem step7 (W : Valuation τ sig (Elt F)) :
    StableHlo.after (RefOps.rel7 (F := F)) W (Proc.devRef .tc main_v336)
      = addf (W (Proc.devRef .tc main_v294))
          (Chain.term (W (Proc.devRef .tc main_arg0)) (W (Proc.devRef .tc main_arg1)) (W (Proc.devRef .tc main_arg2))
            (W (Proc.devRef .tc main_arg3)) (W (Proc.devRef .tc main_arg4)) 7) := by
  simp only [RefOps.rel7, RefOps.a14]
  after_results_simp
  rfl

/-! ## The eight in a row -/

section Sums

variable (x : (⟨S50000x128, .f32⟩ : BufTy).Contents (Elt F)) (w : (⟨S8x128x128, .f32⟩ : BufTy).Contents (Elt F))
  (b : (⟨S8x128, .f32⟩ : BufTy).Contents (Elt F)) (a3 a4 : (⟨S8x64000, .i32⟩ : BufTy).Contents (Elt F))

/-- The sum before any relation: zero. -/
def p0 : (⟨S50000x128, .f32⟩ : BufTy).Contents (Elt F) :=
  broadcastInDim S50000x128 ![] bcast_S_S50000x128 (constant S_ .f32 0x00000000#32)
/-- The sum of the first relation's contribution. -/
def p1 : (⟨S50000x128, .f32⟩ : BufTy).Contents (Elt F) := addf (p0 (F := F)) (Chain.term x w b a3 a4 0)
/-- The sum of the first two. -/
def p2 : (⟨S50000x128, .f32⟩ : BufTy).Contents (Elt F) := addf (p1 x w b a3 a4) (Chain.term x w b a3 a4 1)
/-- The sum of the first three. -/
def p3 : (⟨S50000x128, .f32⟩ : BufTy).Contents (Elt F) := addf (p2 x w b a3 a4) (Chain.term x w b a3 a4 2)
/-- The sum of the first four. -/
def p4 : (⟨S50000x128, .f32⟩ : BufTy).Contents (Elt F) := addf (p3 x w b a3 a4) (Chain.term x w b a3 a4 3)
/-- The sum of the first five. -/
def p5 : (⟨S50000x128, .f32⟩ : BufTy).Contents (Elt F) := addf (p4 x w b a3 a4) (Chain.term x w b a3 a4 4)
/-- The sum of the first six. -/
def p6 : (⟨S50000x128, .f32⟩ : BufTy).Contents (Elt F) := addf (p5 x w b a3 a4) (Chain.term x w b a3 a4 5)
/-- The sum of the first seven. -/
def p7 : (⟨S50000x128, .f32⟩ : BufTy).Contents (Elt F) := addf (p6 x w b a3 a4) (Chain.term x w b a3 a4 6)
/-- The sum of all eight. -/
def p8 : (⟨S50000x128, .f32⟩ : BufTy).Contents (Elt F) := addf (p7 x w b a3 a4) (Chain.term x w b a3 a4 7)

/-- All eight, added from zero left to right, is `Chain.refTerm`. -/
theorem p8_eq : p8 x w b a3 a4 = Chain.refTerm x w b a3 a4 := rfl

end Sums

variable (W : Valuation τ sig (Elt F))

theorem keeps_upto0 : Keeps (F := F) (RefOps.pre ++ RefOps.rel0) := keeps_pre.append keeps_rel0
theorem keeps_upto1 : Keeps (F := F) (RefOps.pre ++ RefOps.rel0 ++ RefOps.rel1) := keeps_upto0.append keeps_rel1
theorem keeps_upto2 : Keeps (F := F) (RefOps.pre ++ RefOps.rel0 ++ RefOps.rel1 ++ RefOps.rel2) := keeps_upto1.append keeps_rel2
theorem keeps_upto3 : Keeps (F := F) (RefOps.pre ++ RefOps.rel0 ++ RefOps.rel1 ++ RefOps.rel2 ++ RefOps.rel3) := keeps_upto2.append keeps_rel3
theorem keeps_upto4 : Keeps (F := F) (RefOps.pre ++ RefOps.rel0 ++ RefOps.rel1 ++ RefOps.rel2 ++ RefOps.rel3 ++ RefOps.rel4) := keeps_upto3.append keeps_rel4
theorem keeps_upto5 : Keeps (F := F) (RefOps.pre ++ RefOps.rel0 ++ RefOps.rel1 ++ RefOps.rel2 ++ RefOps.rel3 ++ RefOps.rel4 ++ RefOps.rel5) := keeps_upto4.append keeps_rel5
theorem keeps_upto6 : Keeps (F := F) (RefOps.pre ++ RefOps.rel0 ++ RefOps.rel1 ++ RefOps.rel2 ++ RefOps.rel3 ++ RefOps.rel4 ++ RefOps.rel5 ++ RefOps.rel6) := keeps_upto5.append keeps_rel6
theorem keeps_upto7 : Keeps (F := F) (RefOps.pre ++ RefOps.rel0 ++ RefOps.rel1 ++ RefOps.rel2 ++ RefOps.rel3 ++ RefOps.rel4 ++ RefOps.rel5 ++ RefOps.rel6 ++ RefOps.rel7) := keeps_upto6.append keeps_rel7

/-- The whole list is the zero's operations and the eight relations' in a row. -/
theorem ops_eq : (RefOps.ops : List (HloOp τ sig (Elt F)))
    = RefOps.pre ++ RefOps.rel0 ++ RefOps.rel1 ++ RefOps.rel2 ++ RefOps.rel3 ++ RefOps.rel4 ++ RefOps.rel5 ++ RefOps.rel6 ++ RefOps.rel7 := by
  simp only [RefOps.ops, RefOps.pre, RefOps.rel0, RefOps.rel1, RefOps.rel2, RefOps.rel3, RefOps.rel4, RefOps.rel5, RefOps.rel6, RefOps.rel7,
    List.append_assoc]

/-! The sum buffer of each relation after everything up to it: the previous relation's, through one step. -/

theorem sum0 : StableHlo.after (RefOps.pre ++ RefOps.rel0 (F := F)) W (Proc.devRef .tc main_v42)
    = p1 (W (Proc.devRef .tc main_arg0)) (W (Proc.devRef .tc main_arg1)) (W (Proc.devRef .tc main_arg2)) (W (Proc.devRef .tc main_arg3)) (W (Proc.devRef .tc main_arg4)) := by
  obtain ⟨k0, k1, k2, k3, k4⟩ := keeps_pre W
  rw [StableHlo.after_append, step0, start, k0, k1, k2, k3, k4]
  rfl

theorem sum1 : StableHlo.after (RefOps.pre ++ RefOps.rel0 ++ RefOps.rel1 (F := F)) W (Proc.devRef .tc main_v84)
    = p2 (W (Proc.devRef .tc main_arg0)) (W (Proc.devRef .tc main_arg1)) (W (Proc.devRef .tc main_arg2)) (W (Proc.devRef .tc main_arg3)) (W (Proc.devRef .tc main_arg4)) := by
  obtain ⟨k0, k1, k2, k3, k4⟩ := keeps_upto0 W
  rw [StableHlo.after_append, step1, sum0, k0, k1, k2, k3, k4]
  rfl

theorem sum2 : StableHlo.after (RefOps.pre ++ RefOps.rel0 ++ RefOps.rel1 ++ RefOps.rel2 (F := F)) W (Proc.devRef .tc main_v126)
    = p3 (W (Proc.devRef .tc main_arg0)) (W (Proc.devRef .tc main_arg1)) (W (Proc.devRef .tc main_arg2)) (W (Proc.devRef .tc main_arg3)) (W (Proc.devRef .tc main_arg4)) := by
  obtain ⟨k0, k1, k2, k3, k4⟩ := keeps_upto1 W
  rw [StableHlo.after_append, step2, sum1, k0, k1, k2, k3, k4]
  rfl

theorem sum3 : StableHlo.after (RefOps.pre ++ RefOps.rel0 ++ RefOps.rel1 ++ RefOps.rel2 ++ RefOps.rel3 (F := F)) W (Proc.devRef .tc main_v168)
    = p4 (W (Proc.devRef .tc main_arg0)) (W (Proc.devRef .tc main_arg1)) (W (Proc.devRef .tc main_arg2)) (W (Proc.devRef .tc main_arg3)) (W (Proc.devRef .tc main_arg4)) := by
  obtain ⟨k0, k1, k2, k3, k4⟩ := keeps_upto2 W
  rw [StableHlo.after_append, step3, sum2, k0, k1, k2, k3, k4]
  rfl

theorem sum4 : StableHlo.after (RefOps.pre ++ RefOps.rel0 ++ RefOps.rel1 ++ RefOps.rel2 ++ RefOps.rel3 ++ RefOps.rel4 (F := F)) W (Proc.devRef .tc main_v210)
    = p5 (W (Proc.devRef .tc main_arg0)) (W (Proc.devRef .tc main_arg1)) (W (Proc.devRef .tc main_arg2)) (W (Proc.devRef .tc main_arg3)) (W (Proc.devRef .tc main_arg4)) := by
  obtain ⟨k0, k1, k2, k3, k4⟩ := keeps_upto3 W
  rw [StableHlo.after_append, step4, sum3, k0, k1, k2, k3, k4]
  rfl

theorem sum5 : StableHlo.after (RefOps.pre ++ RefOps.rel0 ++ RefOps.rel1 ++ RefOps.rel2 ++ RefOps.rel3 ++ RefOps.rel4 ++ RefOps.rel5 (F := F)) W (Proc.devRef .tc main_v252)
    = p6 (W (Proc.devRef .tc main_arg0)) (W (Proc.devRef .tc main_arg1)) (W (Proc.devRef .tc main_arg2)) (W (Proc.devRef .tc main_arg3)) (W (Proc.devRef .tc main_arg4)) := by
  obtain ⟨k0, k1, k2, k3, k4⟩ := keeps_upto4 W
  rw [StableHlo.after_append, step5, sum4, k0, k1, k2, k3, k4]
  rfl

theorem sum6 : StableHlo.after (RefOps.pre ++ RefOps.rel0 ++ RefOps.rel1 ++ RefOps.rel2 ++ RefOps.rel3 ++ RefOps.rel4 ++ RefOps.rel5 ++ RefOps.rel6 (F := F)) W (Proc.devRef .tc main_v294)
    = p7 (W (Proc.devRef .tc main_arg0)) (W (Proc.devRef .tc main_arg1)) (W (Proc.devRef .tc main_arg2)) (W (Proc.devRef .tc main_arg3)) (W (Proc.devRef .tc main_arg4)) := by
  obtain ⟨k0, k1, k2, k3, k4⟩ := keeps_upto5 W
  rw [StableHlo.after_append, step6, sum5, k0, k1, k2, k3, k4]
  rfl

theorem sum7 : StableHlo.after (RefOps.pre ++ RefOps.rel0 ++ RefOps.rel1 ++ RefOps.rel2 ++ RefOps.rel3 ++ RefOps.rel4 ++ RefOps.rel5 ++ RefOps.rel6 ++ RefOps.rel7 (F := F)) W (Proc.devRef .tc main_v336)
    = p8 (W (Proc.devRef .tc main_arg0)) (W (Proc.devRef .tc main_arg1)) (W (Proc.devRef .tc main_arg2)) (W (Proc.devRef .tc main_arg3)) (W (Proc.devRef .tc main_arg4)) := by
  obtain ⟨k0, k1, k2, k3, k4⟩ := keeps_upto6 W
  rw [StableHlo.after_append, step7, sum6, k0, k1, k2, k3, k4]
  rfl

/-! ## The result and the inputs after all the operations -/

/-- The result buffer after all the operations: the eight contributions of the inputs, added from zero. -/
theorem after_result : StableHlo.after (RefOps.ops (F := F)) W (Proc.devRef .tc main_v336)
    = Chain.refTerm (W (Proc.devRef .tc main_arg0)) (W (Proc.devRef .tc main_arg1)) (W (Proc.devRef .tc main_arg2)) (W (Proc.devRef .tc main_arg3)) (W (Proc.devRef .tc main_arg4)) := by
  rw [ops_eq, sum7, p8_eq]

/-- No operation writes `main_arg0`. -/
theorem after_arg0 : StableHlo.after (RefOps.ops (F := F)) W (Proc.devRef .tc main_arg0) = W (Proc.devRef .tc main_arg0) := by
  rw [ops_eq]; exact (keeps_upto7 W).1
/-- No operation writes `main_arg1`. -/
theorem after_arg1 : StableHlo.after (RefOps.ops (F := F)) W (Proc.devRef .tc main_arg1) = W (Proc.devRef .tc main_arg1) := by
  rw [ops_eq]; exact (keeps_upto7 W).2.1
/-- No operation writes `main_arg2`. -/
theorem after_arg2 : StableHlo.after (RefOps.ops (F := F)) W (Proc.devRef .tc main_arg2) = W (Proc.devRef .tc main_arg2) := by
  rw [ops_eq]; exact (keeps_upto7 W).2.2.1
/-- No operation writes `main_arg3`. -/
theorem after_arg3 : StableHlo.after (RefOps.ops (F := F)) W (Proc.devRef .tc main_arg3) = W (Proc.devRef .tc main_arg3) := by
  rw [ops_eq]; exact (keeps_upto7 W).2.2.2.1
/-- No operation writes `main_arg4`. -/
theorem after_arg4 : StableHlo.after (RefOps.ops (F := F)) W (Proc.devRef .tc main_arg4) = W (Proc.devRef .tc main_arg4) := by
  rw [ops_eq]; exact (keeps_upto7 W).2.2.2.2

end Cert.ReferenceIdeal.RefVal
end
-- ==== Proof.KIHostBlocks.lean ====
import proofs.«129587_j88029649699360_1_alg».proof.Proof.KIPrefix
import Idealize.ShloMosaic.Lib.StableHlo.Run
import Idealize.ShloMosaic.Lib.Pipeline.Frame

/-!
The host operations before the region, regrouped.

The 33 stretches of host operations, laid end to end, are eight blocks of 47 operations, one per relation, and
then eleven more. Block `r` reads row `r` of the two arrays of node numbers, counts each node's occurrences in
either row, clamps the counts at one, and leaves relation `r`'s scaled aggregate in one buffer. Of the last eleven
operations eight put a leading unit axis on the eight scaled aggregates, one stacks them along that axis, and two
round to the narrower float format: the stack, and the launch's second argument.

A stretch that ends one relation and begins the next is cut after its 25th operation.
-/

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-! ## The blocks -/

/-- Relation 0's operations. -/
def R0 : List (HloOp τ sig (Elt F)) :=
  hostOps0 ++ (hostOps0_1 ++ (hostOps0_2 ++ (hostOps0_3 ++ hostOps0_4.take 25)))
/-- Relation 1's operations. -/
def R1 : List (HloOp τ sig (Elt F)) :=
  hostOps0_4.drop 25 ++ (hostOps0_5 ++ (hostOps0_6 ++ (hostOps0_7 ++ hostOps0_8.take 25)))
/-- Relation 2's operations. -/
def R2 : List (HloOp τ sig (Elt F)) :=
  hostOps0_8.drop 25 ++ (hostOps0_9 ++ (hostOps0_10 ++ (hostOps0_11 ++ hostOps0_12.take 25)))
/-- Relation 3's operations. -/
def R3 : List (HloOp τ sig (Elt F)) :=
  hostOps0_12.drop 25 ++ (hostOps0_13 ++ (hostOps0_14 ++ (hostOps0_15 ++ hostOps0_16.take 25)))
/-- Relation 4's operations. -/
def R4 : List (HloOp τ sig (Elt F)) :=
  hostOps0_16.drop 25 ++ (hostOps0_17 ++ (hostOps0_18 ++ (hostOps0_19 ++ hostOps0_20.take 25)))
/-- Relation 5's operations. -/
def R5 : List (HloOp τ sig (Elt F)) :=
  hostOps0_20.drop 25 ++ (hostOps0_21 ++ (hostOps0_22 ++ (hostOps0_23 ++ hostOps0_24.take 25)))
/-- Relation 6's operations. -/
def R6 : List (HloOp τ sig (Elt F)) :=
  hostOps0_24.drop 25 ++ (hostOps0_25 ++ (hostOps0_26 ++ (hostOps0_27 ++ hostOps0_28.take 25)))
/-- Relation 7's operations. -/
def R7 : List (HloOp τ sig (Elt F)) :=
  hostOps0_28.drop 25 ++ (hostOps0_29 ++ (hostOps0_30 ++ (hostOps0_31 ++ hostOps0_32.take 25)))
/-- The eight operations that put a leading unit axis on the eight scaled aggregates. -/
def Lead : List (HloOp τ sig (Elt F)) := (hostOps0_32.drop 25).take 8
/-- The last three operations: the stack of the eight and the two roundings. -/
def Last : List (HloOp τ sig (Elt F)) := (hostOps0_32.drop 25).drop 8

/-- A list cut at a position and followed by more is the list followed by it. -/
theorem take_drop_append {α : Type} (n : Nat) (l r : List α) : l.take n ++ (l.drop n ++ r) = l ++ r := by
  rw [← List.append_assoc, List.take_append_drop]

/-- The 33 stretches in order are the eight blocks, the eight unit axes and the last three operations. -/
theorem flatten_eq :
    List.flatten [hostOps0, hostOps0_1, hostOps0_2, hostOps0_3, hostOps0_4, hostOps0_5, hostOps0_6, hostOps0_7, hostOps0_8,
        hostOps0_9, hostOps0_10, hostOps0_11, hostOps0_12, hostOps0_13, hostOps0_14, hostOps0_15, hostOps0_16, hostOps0_17,
        hostOps0_18, hostOps0_19, hostOps0_20, hostOps0_21, hostOps0_22, hostOps0_23, hostOps0_24, hostOps0_25, hostOps0_26,
        hostOps0_27, hostOps0_28, hostOps0_29, hostOps0_30, hostOps0_31, hostOps0_32]
      = (R0 (F := F)) ++ (R1 ++ (R2 ++ (R3 ++ (R4 ++ (R5 ++ (R6 ++ (R7 ++ (Lead ++ Last)))))))) := by
  simp only [R0, R1, R2, R3, R4, R5, R6, R7, Lead, Last, List.flatten_cons, List.flatten_nil, List.append_nil,
    List.append_assoc, take_drop_append, List.take_append_drop]

variable (m : (ℓ : Loc nD τ sig) → Buf (Elt F) ℓ)

/-- What core `c`'s buffers hold after the eight blocks, from the launch memory. -/
def W8 (c : Dev nD) : Valuation τ sig (Elt F) :=
  after R7 (after R6 (after R5 (after R4 (after R3 (after R2 (after R1 (after R0 (fun b => m (c, b)))))))))

/-- The buffers at the region's entry: the last eleven operations over what the eight blocks leave. -/
theorem V_eq (c : Dev nD) (b : Ref sig .tc) :
    Fr.V m c b = after Last (after Lead (W8 m c)) (Proc.devRef .tc b) := by
  show after (List.flatten [hostOps0, hostOps0_1, hostOps0_2, hostOps0_3, hostOps0_4, hostOps0_5, hostOps0_6, hostOps0_7, hostOps0_8,
        hostOps0_9, hostOps0_10, hostOps0_11, hostOps0_12, hostOps0_13, hostOps0_14, hostOps0_15, hostOps0_16, hostOps0_17,
        hostOps0_18, hostOps0_19, hostOps0_20, hostOps0_21, hostOps0_22, hostOps0_23, hostOps0_24, hostOps0_25, hostOps0_26,
        hostOps0_27, hostOps0_28, hostOps0_29, hostOps0_30, hostOps0_31, hostOps0_32]) (fun b => m (c, b)) (Proc.devRef .tc b) = _
  rw [flatten_eq]
  simp only [StableHlo.after_append]
  rfl

/-! ## The last eleven operations -/

section Eight

variable {τ' : Topo} {sig' : RefSig} {Val : EltTy → Type} {x0 x1 x2 x3 x4 x5 x6 x7 y : Ref sig' .tc}

/-- An operation over a literal family of eight references leaves in its result reference its function applied to
    the eight operands' contents, each read at its own reference. -/
theorem nary8_result
    (f : ((k : Fin 8) → ((![x0, x1, x2, x3, x4, x5, x6, x7] : Fin 8 → Ref sig' .tc) k).ty.Contents Val) → y.ty.Contents Val) (hxs hy)
    (G : Valuation τ' sig' Val) :
    (nary (τ := τ') ![x0, x1, x2, x3, x4, x5, x6, x7] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) := by
  rw [nary_result]; congr 1; funext k; fin_cases k <;> rfl

end Eight

/-- The stack, rounded: its eight pieces are what the eight unit-axis buffers hold. -/
theorem last_v273 (G : Valuation τ sig (Elt F)) :
    after (Last (F := F)) G (Proc.devRef .tc main_v273)
      = truncf .bf16 (concatenate S8x50000x128 0
          [⟨S1x50000x128, G (Proc.devRef .tc main_v264)⟩, ⟨S1x50000x128, G (Proc.devRef .tc main_v265)⟩,
           ⟨S1x50000x128, G (Proc.devRef .tc main_v266)⟩, ⟨S1x50000x128, G (Proc.devRef .tc main_v267)⟩,
           ⟨S1x50000x128, G (Proc.devRef .tc main_v268)⟩, ⟨S1x50000x128, G (Proc.devRef .tc main_v269)⟩,
           ⟨S1x50000x128, G (Proc.devRef .tc main_v270)⟩, ⟨S1x50000x128, G (Proc.devRef .tc main_v271)⟩]
          concatenates_S1x50000x128_S1x50000x128_S1x50000x128_S1x50000x128_S1x50000x128_S1x50000x128_S1x50000x128_S1x50000x128_S8x50000x128_d0)
          bitsLt_bf16_f32 := by
  simp only [Last, hostOps0_32, List.drop_succ_cons, List.drop_zero, after_cons, after_nil]
  rw [unary_result_ne]; rotate_left; decide
  rw [unary_result, nary8_result]
  rfl

/-- The second rounding reads the launch's second argument. -/
theorem last_v274 (G : Valuation τ sig (Elt F)) :
    after (Last (F := F)) G (Proc.devRef .tc main_v274) = truncf .bf16 (G (Proc.devRef .tc main_arg1)) bitsLt_bf16_f32 := by
  simp only [Last, hostOps0_32, List.drop_succ_cons, List.drop_zero, after_cons, after_nil]
  rw [unary_result]
  rw [unary_result_ne]; rotate_left; decide
  rw [nary_result_ne]; rotate_left; decide

/-- The last three operations leave the launch's second argument alone. -/
theorem last_arg1 (G : Valuation τ sig (Elt F)) :
    after (Last (F := F)) G (Proc.devRef .tc main_arg1) = G (Proc.devRef .tc main_arg1) := by
  simp only [Last, hostOps0_32, List.drop_succ_cons, List.drop_zero, after_cons, after_nil]
  rw [unary_result_ne]; rotate_left; decide
  rw [unary_result_ne]; rotate_left; decide
  rw [nary_result_ne]; rotate_left; decide

/-- The buffer relation `j`'s block leaves its scaled aggregate in. -/
def pick (W : Valuation τ sig (Elt F)) : Fin 8 → (⟨S50000x128, .f32⟩ : BufTy).Contents (Elt F)
  | 0 => W (Proc.devRef .tc main_v32)
  | 1 => W (Proc.devRef .tc main_v65)
  | 2 => W (Proc.devRef .tc main_v98)
  | 3 => W (Proc.devRef .tc main_v131)
  | 4 => W (Proc.devRef .tc main_v164)
  | 5 => W (Proc.devRef .tc main_v197)
  | 6 => W (Proc.devRef .tc main_v230)
  | 7 => W (Proc.devRef .tc main_v263)
  | ⟨_ + 8, h⟩ => absurd h (Nat.not_lt.2 (Nat.le_add_left _ _))

/-- The buffer that holds relation `j`'s scaled aggregate under a leading unit axis. -/
def pickLead (G : Valuation τ sig (Elt F)) : Fin 8 → (⟨S1x50000x128, .f32⟩ : BufTy).Contents (Elt F)
  | 0 => G (Proc.devRef .tc main_v264)
  | 1 => G (Proc.devRef .tc main_v265)
  | 2 => G (Proc.devRef .tc main_v266)
  | 3 => G (Proc.devRef .tc main_v267)
  | 4 => G (Proc.devRef .tc main_v268)
  | 5 => G (Proc.devRef .tc main_v269)
  | 6 => G (Proc.devRef .tc main_v270)
  | 7 => G (Proc.devRef .tc main_v271)
  | ⟨_ + 8, h⟩ => absurd h (Nat.not_lt.2 (Nat.le_add_left _ _))

/-- Each of the eight unit-axis buffers holds its relation's scaled aggregate, recast. -/
theorem lead_pick (W : Valuation τ sig (Elt F)) (j : Fin 8) :
    pickLead (after (Lead (F := F)) W) j
      = broadcastInDim S1x50000x128 ![1, 2] bcast_S50000x128_S1x50000x128_1_2 (pick W j) := by
  fin_cases j <;>
  · show after (Lead (F := F)) W _ = _
    simp only [Lead, hostOps0_32, List.drop_succ_cons, List.drop_zero, List.take_succ_cons, List.take_zero]
    after_results
    rfl

/-- The eight unit-axis operations leave the launch's second argument alone. -/
theorem lead_arg1 (W : Valuation τ sig (Elt F)) :
    after (Lead (F := F)) W (Proc.devRef .tc main_arg1) = W (Proc.devRef .tc main_arg1) := by
  simp only [Lead, hostOps0_32, List.drop_succ_cons, List.drop_zero, List.take_succ_cons, List.take_zero]
  after_results

end Cert.KernelIdeal.Host

end
-- ==== Proof.KIHostRel.lean ====
import proofs.«129587_j88029649699360_1_alg».proof.Proof.KIHostBlocks
import proofs.«129587_j88029649699360_1_alg».proof.Proof.Chain

/-!
What each relation's block computes.

Over any contents `W` of the buffers, block `r` leaves in its result buffer the aggregate of relation `r` scaled
row by row by the destination degree factor, both taken of `W`'s first, fourth and fifth argument arrays. The
block's operations are the shared chain's operations one for one (the two clamps of a count at one are a maximum
against a broadcast one), so once each operation's result is read off, the two terms are the same term.
-/

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal (Chain.Agg Chain.Nrm Chain.NrmB Chain.srow)

variable {F : FTy → Type} [FloatOps F]

/-- Relation `r`'s scaled aggregate over the argument arrays `x`, `a3`, `a4`. -/
def scaled (x : (⟨S50000x128, .f32⟩ : BufTy).Contents (Elt F)) (a3 a4 : (⟨S8x64000, .i32⟩ : BufTy).Contents (Elt F)) (r : Fin 8) :
    (⟨S50000x128, .f32⟩ : BufTy).Contents (Elt F) :=
  mulf (Chain.Agg (F := F) x (Chain.srow a3 r) (Chain.srow a4 r)) (Chain.NrmB (F := F) (Chain.srow a4 r))

theorem rel0 (W : Valuation τ sig (Elt F)) :
    after (R0 (F := F)) W (Proc.devRef .tc main_v32)
      = scaled (W (Proc.devRef .tc main_arg0)) (W (Proc.devRef .tc main_arg3)) (W (Proc.devRef .tc main_arg4)) 0 := by
  simp only [R0, hostOps0, hostOps0_1, hostOps0_2, hostOps0_3, hostOps0_4, List.take_succ_cons, List.take_zero,
    List.cons_append, List.nil_append]
  after_results_simp
  rfl

theorem rel1 (W : Valuation τ sig (Elt F)) :
    after (R1 (F := F)) W (Proc.devRef .tc main_v65)
      = scaled (W (Proc.devRef .tc main_arg0)) (W (Proc.devRef .tc main_arg3)) (W (Proc.devRef .tc main_arg4)) 1 := by
  simp only [R1, hostOps0_4, hostOps0_5, hostOps0_6, hostOps0_7, hostOps0_8, List.take_succ_cons, List.take_zero,
    List.drop_succ_cons, List.drop_zero, List.cons_append, List.nil_append]
  after_results_simp
  rfl

theorem rel2 (W : Valuation τ sig (Elt F)) :
    after (R2 (F := F)) W (Proc.devRef .tc main_v98)
      = scaled (W (Proc.devRef .tc main_arg0)) (W (Proc.devRef .tc main_arg3)) (W (Proc.devRef .tc main_arg4)) 2 := by
  simp only [R2, hostOps0_8, hostOps0_9, hostOps0_10, hostOps0_11, hostOps0_12, List.take_succ_cons, List.take_zero,
    List.drop_succ_cons, List.drop_zero, List.cons_append, List.nil_append]
  after_results_simp
  rfl

theorem rel3 (W : Valuation τ sig (Elt F)) :
    after (R3 (F := F)) W (Proc.devRef .tc main_v131)
      = scaled (W (Proc.devRef .tc main_arg0)) (W (Proc.devRef .tc main_arg3)) (W (Proc.devRef .tc main_arg4)) 3 := by
  simp only [R3, hostOps0_12, hostOps0_13, hostOps0_14, hostOps0_15, hostOps0_16, List.take_succ_cons, List.take_zero,
    List.drop_succ_cons, List.drop_zero, List.cons_append, List.nil_append]
  after_results_simp
  rfl

theorem rel4 (W : Valuation τ sig (Elt F)) :
    after (R4 (F := F)) W (Proc.devRef .tc main_v164)
      = scaled (W (Proc.devRef .tc main_arg0)) (W (Proc.devRef .tc main_arg3)) (W (Proc.devRef .tc main_arg4)) 4 := by
  simp only [R4, hostOps0_16, hostOps0_17, hostOps0_18, hostOps0_19, hostOps0_20, List.take_succ_cons, List.take_zero,
    List.drop_succ_cons, List.drop_zero, List.cons_append, List.nil_append]
  after_results_simp
  rfl

theorem rel5 (W : Valuation τ sig (Elt F)) :
    after (R5 (F := F)) W (Proc.devRef .tc main_v197)
      = scaled (W (Proc.devRef .tc main_arg0)) (W (Proc.devRef .tc main_arg3)) (W (Proc.devRef .tc main_arg4)) 5 := by
  simp only [R5, hostOps0_20, hostOps0_21, hostOps0_22, hostOps0_23, hostOps0_24, List.take_succ_cons, List.take_zero,
    List.drop_succ_cons, List.drop_zero, List.cons_append, List.nil_append]
  after_results_simp
  rfl

theorem rel6 (W : Valuation τ sig (Elt F)) :
    after (R6 (F := F)) W (Proc.devRef .tc main_v230)
      = scaled (W (Proc.devRef .tc main_arg0)) (W (Proc.devRef .tc main_arg3)) (W (Proc.devRef .tc main_arg4)) 6 := by
  simp only [R6, hostOps0_24, hostOps0_25, hostOps0_26, hostOps0_27, hostOps0_28, List.take_succ_cons, List.take_zero,
    List.drop_succ_cons, List.drop_zero, List.cons_append, List.nil_append]
  after_results_simp
  rfl

theorem rel7 (W : Valuation τ sig (Elt F)) :
    after (R7 (F := F)) W (Proc.devRef .tc main_v263)
      = scaled (W (Proc.devRef .tc main_arg0)) (W (Proc.devRef .tc main_arg3)) (W (Proc.devRef .tc main_arg4)) 7 := by
  simp only [R7, hostOps0_28, hostOps0_29, hostOps0_30, hostOps0_31, hostOps0_32, List.take_succ_cons, List.take_zero,
    List.drop_succ_cons, List.drop_zero, List.cons_append, List.nil_append]
  after_results_simp
  rfl

end Cert.KernelIdeal.Host

end
-- ==== Proof.KIHostKeep.lean ====
import proofs.«129587_j88029649699360_1_alg».proof.Proof.KIHostBlocks

/-!
What each relation's block leaves alone.

Every operation writes its own result buffer and nothing else, so a block leaves alone every buffer that is not
the result of one of its 47 operations: the launch's argument arrays, and the scaled aggregates the earlier blocks
left. Each such fact is 47 inequalities between references, each decided.
-/

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-- A buffer none of a block's operations writes holds after the block what it held before: the block is spelt out
    operation by operation, each operation's written buffer is its result buffer, and the result buffer is told
    apart from the given one as a reference. -/
macro "not_written" : tactic =>
  `(tactic| (
    refine StableHlo.after_of_forall_not_mem _ _ (List.forall_iff_forall_mem.mp ?_)
    simp only [R0, R1, R2, R3, R4, R5, R6, R7, hostOps0, hostOps0_1, hostOps0_2, hostOps0_3, hostOps0_4, hostOps0_5, hostOps0_6,
      hostOps0_7, hostOps0_8, hostOps0_9, hostOps0_10, hostOps0_11, hostOps0_12, hostOps0_13, hostOps0_14, hostOps0_15, hostOps0_16,
      hostOps0_17, hostOps0_18, hostOps0_19, hostOps0_20, hostOps0_21, hostOps0_22, hostOps0_23, hostOps0_24, hostOps0_25, hostOps0_26,
      hostOps0_27, hostOps0_28, hostOps0_29, hostOps0_30, hostOps0_31, hostOps0_32, List.take_succ_cons, List.take_zero,
      List.drop_succ_cons, List.drop_zero, List.cons_append, List.nil_append, List.Forall, StableHlo.nullary_writes,
      StableHlo.unary_writes, StableHlo.binary_writes, StableHlo.ternary_writes, StableHlo.reshape_writes, Finset.mem_singleton]
    repeat' apply And.intro
    all_goals exact StableHlo.devRef_ne_of_ne (by decide)))

theorem keep_R0 (W : Valuation τ sig (Elt F)) (b : Ref sig .tc) (hb : b ∈ [main_arg0, main_arg3, main_arg4]) :
    after (R0 (F := F)) W (no_index (Proc.devRef .tc b)) = W (Proc.devRef .tc b) := by
  simp only [List.mem_cons, List.not_mem_nil, or_false] at hb
  rcases hb with rfl | rfl | rfl <;> not_written

theorem keep_R1 (W : Valuation τ sig (Elt F)) (b : Ref sig .tc) (hb : b ∈ [main_arg0, main_arg3, main_arg4, main_v32]) :
    after (R1 (F := F)) W (no_index (Proc.devRef .tc b)) = W (Proc.devRef .tc b) := by
  simp only [List.mem_cons, List.not_mem_nil, or_false] at hb
  rcases hb with rfl | rfl | rfl | rfl <;> not_written

theorem keep_R2 (W : Valuation τ sig (Elt F)) (b : Ref sig .tc)
    (hb : b ∈ [main_arg0, main_arg3, main_arg4, main_v32, main_v65]) :
    after (R2 (F := F)) W (no_index (Proc.devRef .tc b)) = W (Proc.devRef .tc b) := by
  simp only [List.mem_cons, List.not_mem_nil, or_false] at hb
  rcases hb with rfl | rfl | rfl | rfl | rfl <;> not_written

theorem keep_R3 (W : Valuation τ sig (Elt F)) (b : Ref sig .tc)
    (hb : b ∈ [main_arg0, main_arg3, main_arg4, main_v32, main_v65, main_v98]) :
    after (R3 (F := F)) W (no_index (Proc.devRef .tc b)) = W (Proc.devRef .tc b) := by
  simp only [List.mem_cons, List.not_mem_nil, or_false] at hb
  rcases hb with rfl | rfl | rfl | rfl | rfl | rfl <;> not_written

theorem keep_R4 (W : Valuation τ sig (Elt F)) (b : Ref sig .tc)
    (hb : b ∈ [main_arg0, main_arg3, main_arg4, main_v32, main_v65, main_v98, main_v131]) :
    after (R4 (F := F)) W (no_index (Proc.devRef .tc b)) = W (Proc.devRef .tc b) := by
  simp only [List.mem_cons, List.not_mem_nil, or_false] at hb
  rcases hb with rfl | rfl | rfl | rfl | rfl | rfl | rfl <;> not_written

theorem keep_R5 (W : Valuation τ sig (Elt F)) (b : Ref sig .tc)
    (hb : b ∈ [main_arg0, main_arg3, main_arg4, main_v32, main_v65, main_v98, main_v131, main_v164]) :
    after (R5 (F := F)) W (no_index (Proc.devRef .tc b)) = W (Proc.devRef .tc b) := by
  simp only [List.mem_cons, List.not_mem_nil, or_false] at hb
  rcases hb with rfl | rfl | rfl | rfl | rfl | rfl | rfl | rfl <;> not_written

theorem keep_R6 (W : Valuation τ sig (Elt F)) (b : Ref sig .tc)
    (hb : b ∈ [main_arg0, main_arg3, main_arg4, main_v32, main_v65, main_v98, main_v131, main_v164, main_v197]) :
    after (R6 (F := F)) W (no_index (Proc.devRef .tc b)) = W (Proc.devRef .tc b) := by
  simp only [List.mem_cons, List.not_mem_nil, or_false] at hb
  rcases hb with rfl | rfl | rfl | rfl | rfl | rfl | rfl | rfl | rfl <;> not_written

theorem keep_R7 (W : Valuation τ sig (Elt F)) (b : Ref sig .tc)
    (hb : b ∈ [main_v32, main_v65, main_v98, main_v131, main_v164, main_v197, main_v230]) :
    after (R7 (F := F)) W (no_index (Proc.devRef .tc b)) = W (Proc.devRef .tc b) := by
  simp only [List.mem_cons, List.not_mem_nil, or_false] at hb
  rcases hb with rfl | rfl | rfl | rfl | rfl | rfl | rfl <;> not_written

end Cert.KernelIdeal.Host

end
-- ==== Proof.KIHost.lean ====
import proofs.«129587_j88029649699360_1_alg».proof.Proof.KIHostRel
import proofs.«129587_j88029649699360_1_alg».proof.Proof.KIHostKeep
import Idealize.ShloMosaic.Lib.Pipeline.Value
import Idealize.ShloMosaic.Lib.ValueIdx

/-!
The two arrays the host operations hand to the region, entry by entry.

The first window's array is the eight scaled aggregates stacked along a new leading axis and rounded, and rounding
is the identity on extended reals: its entry `(r, n, k)` is relation `r`'s aggregate at `(n, k)` times the
destination degree factor of node `n`. The stack's piece `r` is read at `(0, n, k)`, the leading unit axis drops,
the product is entrywise, and the factor, a column repeated along the 128 features, is read at its row. The second
window's array is the launch's second argument, rounded.
-/

set_option maxRecDepth 16384

noncomputable section

namespace Cert.KernelIdeal.Host

open Idealize.ShloMosaic Idealize.ShloMosaic.TcCoe Idealize.SL.Sem Idealize.ShloMosaic.StableHlo Idealize.ShloMosaic.ValueIdx
open Cert.KernelIdeal Cert.KernelIdeal.Gen
open Cert.ReferenceIdeal (Chain.Agg Chain.Nrm Chain.NrmB Chain.srow)

/-! ## Layouts read at an index -/

/-- Eight `[1, 50000, 128]` pieces stacked along the leading axis: entry `(r, n, k)` is piece `r`'s `(0, n, k)`.
    The pieces before piece `r` have extent one each, so piece `r` begins at `r`. -/
theorem stack8_at {α : Type} (x : Fin 8 → (S1x50000x128.Idx → α))
    (h : Shape.Concatenates (([⟨S1x50000x128, x 0⟩, ⟨S1x50000x128, x 1⟩, ⟨S1x50000x128, x 2⟩, ⟨S1x50000x128, x 3⟩,
        ⟨S1x50000x128, x 4⟩, ⟨S1x50000x128, x 5⟩, ⟨S1x50000x128, x 6⟩, ⟨S1x50000x128, x 7⟩] :
        List ((s : Shape) × (s.Idx → α))).map (·.1)) S8x50000x128 0)
    (r : Fin 8) (n : Fin 50000) (k : Fin 128) :
    concatenate S8x50000x128 0 [⟨S1x50000x128, x 0⟩, ⟨S1x50000x128, x 1⟩, ⟨S1x50000x128, x 2⟩, ⟨S1x50000x128, x 3⟩,
        ⟨S1x50000x128, x 4⟩, ⟨S1x50000x128, x 5⟩, ⟨S1x50000x128, x 6⟩, ⟨S1x50000x128, x 7⟩] h (ix3 r n k)
      = x r (ix3 (0 : Fin 1) n k) := by
  refine concatenate_apply_piece (t := S8x50000x128) (0 : Fin 3) _ h (ix3 r n k) r.val r.isLt S1x50000x128 (x r) ?_ rfl
    r.val ?_ (ix3 (0 : Fin 1) n k) (fun e he => ?_) ?_
  · fin_cases r <;> rfl
  · fin_cases r <;> rfl
  · match e with
    | ⟨0, _⟩ => exact absurd rfl he
    | ⟨1, _⟩ => rfl
    | ⟨2, _⟩ => rfl
  · show r.val + 0 = r.val
    omega

/-- A `[50000, 128]` array under a new leading unit axis, read at `(0, n, k)`, is the array at `(n, k)`. -/
theorem lead_at {α : Type} (v : S50000x128.Idx → α) (n : Fin 50000) (k : Fin 128) :
    broadcastInDim S1x50000x128 ![1, 2] bcast_S50000x128_S1x50000x128_1_2 v (ix3 (0 : Fin 1) n k) = v (ix2 n k) :=
  broadcastInDim_apply _ _ v _ (ix2 n k) fun a => by
    match a with
    | ⟨0, _⟩ => rfl
    | ⟨1, _⟩ => rfl

/-- The degree factor as a column repeated along the features, read at `(n, k)`, is the factor of node `n`. -/
theorem NrmB_at {F : FTy → Type} [FloatOps F] (d : (⟨Cert.ReferenceIdeal.S64000, .i32⟩ : BufTy).Contents (Elt F))
    (n : Fin 50000) (k : Fin 128) :
    Chain.NrmB (F := F) d (ix2 n k) = Chain.Nrm (F := F) d (ix1 n) := by
  unfold Cert.ReferenceIdeal.Chain.NrmB
  refine (broadcastInDim_apply _ _ _ _ (ix2 n (0 : Fin 1)) fun a => ?_).trans ?_
  · match a with
    | ⟨0, _⟩ => rfl
    | ⟨1, _⟩ => rfl
  · exact broadcastInDim_apply _ _ _ _ (ix1 n) fun a => by
      match a with
      | ⟨0, _⟩ => rfl

/-! ## The eight result buffers over the launch memory -/

variable {F : FTy → Type} [FloatOps F] (m : (ℓ : Loc nD τ sig) → Buf (Elt F) ℓ)

/-- After the eight blocks, block `r`'s result buffer holds relation `r`'s scaled aggregate of the launch's arrays:
    the later blocks leave it alone, block `r` computes it from the three argument arrays as it finds them, and the
    earlier blocks leave those alone. -/
theorem res_eq (c : Dev nD) (r : Fin 8) :
    pick (W8 m c) r
      = scaled (m ((c : Thread nD τ).loc main_arg0)) (m ((c : Thread nD τ).loc main_arg3)) (m ((c : Thread nD τ).loc main_arg4)) r := by
  fin_cases r <;>
  · show W8 m c _ = _
    simp (disch := decide) only [W8, keep_R1, keep_R2, keep_R3, keep_R4, keep_R5, keep_R6, keep_R7]
    first | rw [rel0] | rw [rel1] | rw [rel2] | rw [rel3] | rw [rel4] | rw [rel5] | rw [rel6] | rw [rel7]
    try simp (disch := decide) only [keep_R0, keep_R1, keep_R2, keep_R3, keep_R4, keep_R5, keep_R6]
    rfl

/-! ## The two window arrays at an entry -/

/-- Entry `(r, n, k)` of the first window's array: relation `r`'s aggregate at `(n, k)` times node `n`'s
    destination degree factor. -/
theorem V273_at (m : (ℓ : Loc nD τ sig) → Buf (Elt Ideal) ℓ) (c : Dev nD) (r : Fin 8) (n : Fin 50000) (k : Fin 128) :
    (Fr.V (F := Ideal) m c main_v273 (ix3 r n k) : EReal)
      = (Chain.Agg (F := Ideal) (m ((c : Thread nD τ).loc main_arg0)) (Chain.srow (m ((c : Thread nD τ).loc main_arg3)) r)
            (Chain.srow (m ((c : Thread nD τ).loc main_arg4)) r) (ix2 n k) : EReal)
        * Chain.Nrm (F := Ideal) (Chain.srow (m ((c : Thread nD τ).loc main_arg4)) r) (ix1 n) := by
  rw [V_eq, last_v273, truncf_apply]
  refine (stack8_at (pickLead (after Lead (W8 m c))) _ r n k).trans ?_
  rw [lead_pick, lead_at, res_eq]
  unfold scaled
  rw [mulf_apply, NrmB_at]

/-- The second window's array is the launch's second argument, entry by entry. -/
theorem V274_at (m : (ℓ : Loc nD τ sig) → Buf (Elt Ideal) ℓ) (c : Dev nD) (r : Fin 8) (k j : Fin 128) :
    (Fr.V (F := Ideal) m c main_v274 (ix3 r k j) : EReal) = m ((c : Thread nD τ).loc main_arg1) (ix3 r k j) := by
  have h1 : after Lead (W8 m c) (Proc.devRef .tc main_arg1) = m ((c : Thread nD τ).loc main_arg1) := by
    rw [← last_arg1 (after Lead (W8 m c)), ← V_eq m c main_arg1]
    exact Fr.V_main_arg1 m c
  rw [V_eq, last_v274, truncf_apply, h1]

end Cert.KernelIdeal.Host

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«129587_j88029649699360_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.KIPay.lean ====
import proofs.«129587_j88029649699360_1_alg».proof.Proof.KIFrame
import proofs.«129587_j88029649699360_1_alg».proof.Proof.Spec
import proofs.«129587_j88029649699360_1_alg».proof.Proof.LibPlainDotAny
import Idealize.ShloMosaic.Lib.ValueIdx
import Idealize.ShloMosaic.Lib.ValueLayout
import Idealize.ShloMosaic.Lib.Pipeline.Value
import Idealize.ShloMosaic.PureOps.Ideal.Laws

/-!
The value the body stores, at one entry. With the three input blocks given — eight relations' 5000 × 128 scaled
aggregate rows, eight 128 × 128 weights, eight bias vectors — entry (p, q) of the stored block is, from zero and
relation by relation, the product of row p with column q of the weight, then the bias' entry q.

The body's value is a tree of three kinds of operation besides the entrywise sums: a relation's product (one slab of
rows and one weight, each recast from a one-relation block to a matrix, multiplied into a zero accumulator), a bias
vector repeated down the 5000 rows, and a one-row block recast to a vector. Each is read at an entry once, over any
operands; the tree is then read entry by entry, and last the 24 loaded pieces are read where their rectangles lie in
the input blocks: relation r's piece at local position (0, i, j) is the block's entry (r, i, j).
-/

noncomputable section

open scoped BigOperators

namespace Cert.KernelIdeal.Val

open Idealize.ShloMosaic Idealize.ShloMosaic.ValueIdx Cert.KernelIdeal Cert.KernelIdeal.Gen Cert.KernelIdeal.Fr

/-! ## The three operations that are not entrywise -/

/-- One relation's product: a slab of rows and a weight, each recast to a matrix, multiplied into zero. -/
def relProd (A : Vec Ideal S1x5000x128 .bf16) (B : Vec Ideal S1x128x128 .bf16) : FVec Ideal S5000x128 .f32 :=
  matmul (F := Ideal) (φ₁ := .bf16) (φ₂ := .bf16) dot_S5000x128_S128x128_S5000x128_1_0_0_1_n_n none
    (shapeCast S5000x128 A shapeCasts_S1x5000x128_S5000x128) (shapeCast S128x128 B shapeCasts_S1x128x128_S128x128)
    (constant (F := Ideal) S5000x128 .f32 0x00000000#32)

/-- A vector repeated down the 5000 rows. -/
def downRows (v : FVec Ideal S128 .f32) : FVec Ideal S5000x128 .f32 :=
  broadcastTo S5000x128 (shapeCast S1x128 v shapeCasts_S128_S1x128) broadcasts_S1x128_S5000x128

/-- A one-row block as a vector. -/
def rowVec (b : Vec Ideal S1x128 .f32) : FVec Ideal S128 .f32 := shapeCast S128 b shapeCasts_S1x128_S128

/-- The printed dimension numbers are those of a plain 5000 × 128 by 128 × 128 product. -/
theorem dot_plain : dot_S5000x128_S128x128_S5000x128_1_0_0_1_n_n = DotDims.plain 5000 128 128 := rfl

/-- Entry (p, q) of a relation's product: row p of the slab against column q of the weight. -/
theorem relProd_at (A : Vec Ideal S1x5000x128 .bf16) (B : Vec Ideal S1x128x128 .bf16) (p : Fin 5000) (q : Fin 128) :
    relProd A B (ix2 p q) = ∑ k : Fin 128, A (ix3 (0 : Fin 1) p k) * B (ix3 (0 : Fin 1) k q) := by
  unfold relProd
  rw [dot_plain]
  refine (PlainDot.matmul_zero_apply_any 5000 128 128 none _ _ (ix2 p q)).trans ?_
  refine Finset.sum_congr rfl fun k _ => ?_
  exact congrArg₂ (· * ·) (shapeCast_1ab_ab_apply A _ p k) (shapeCast_1ab_ab_apply B _ k q)

/-- Entry (p, q) of a vector repeated down the rows is the vector's entry q. -/
theorem downRows_at (v : FVec Ideal S128 .f32) (p : Fin 5000) (q : Fin 128) : downRows v (ix2 p q) = v (ix1 q) :=
  (broadcastTo_1b_ab_apply _ _ p q).trans (shapeCast_a_1a_apply v _ 0 q)

/-- Entry q of a one-row block read as a vector. -/
theorem rowVec_at (b : Vec Ideal S1x128 .f32) (q : Fin 128) : rowVec b (ix1 q) = b (ix2 (0 : Fin 1) q) :=
  shapeCast_1a_a_apply b _ q

/-! ## The payloads as trees of those operations -/

theorem pay2_eq (v27 : Vec Ideal S1x128 .f32) : k0_pay2 (F := Ideal) v27 = rowVec v27 := rfl

theorem pay4_eq (v60 : Vec Ideal S1x128 .f32) : k0_pay4 (F := Ideal) v60 = rowVec v60 := rfl

/-- Relations 0 and 1 whole and relation 2's product, from the zero block. -/
theorem pay3_eq (v1 : Vec Ideal S1x5000x128 .bf16) (v3 : Vec Ideal S1x128x128 .bf16) (v5 : Vec Ideal S1x128 .f32)
    (v12 : Vec Ideal S1x5000x128 .bf16) (v14 : Vec Ideal S1x128x128 .bf16) (v16 : Vec Ideal S1x128 .f32)
    (v23 : Vec Ideal S1x5000x128 .bf16) (v25 : Vec Ideal S1x128x128 .bf16) :
    k0_pay3 (F := Ideal) v1 v3 v5 v12 v14 v16 v23 v25
      = addf (addf (addf (addf (addf (broadcast S5000x128 (Scalar.ofBits (F := Ideal) .f32 0x00000000#32)) (relProd v1 v3))
          (downRows (rowVec v5))) (relProd v12 v14)) (downRows (rowVec v16))) (relProd v23 v25) := rfl

/-- Relation 2's bias, relations 3 and 4 whole and relation 5's product, onto what came before. -/
theorem pay5_eq (v28 : FVec Ideal S128 .f32) (v30 : FVec Ideal S5000x128 .f32)
    (v34 : Vec Ideal S1x5000x128 .bf16) (v36 : Vec Ideal S1x128x128 .bf16) (v38 : Vec Ideal S1x128 .f32)
    (v45 : Vec Ideal S1x5000x128 .bf16) (v47 : Vec Ideal S1x128x128 .bf16) (v49 : Vec Ideal S1x128 .f32)
    (v56 : Vec Ideal S1x5000x128 .bf16) (v58 : Vec Ideal S1x128x128 .bf16) :
    k0_pay5 (F := Ideal) v28 v30 v34 v36 v38 v45 v47 v49 v56 v58
      = addf (addf (addf (addf (addf (addf v30 (downRows v28)) (relProd v34 v36)) (downRows (rowVec v38)))
          (relProd v45 v47)) (downRows (rowVec v49))) (relProd v56 v58) := rfl

/-- Relation 5's bias and relations 6 and 7 whole, onto what came before. -/
theorem pay1_eq (v61 : FVec Ideal S128 .f32) (v63 : FVec Ideal S5000x128 .f32)
    (v67 : Vec Ideal S1x5000x128 .bf16) (v69 : Vec Ideal S1x128x128 .bf16) (v71 : Vec Ideal S1x128 .f32)
    (v78 : Vec Ideal S1x5000x128 .bf16) (v80 : Vec Ideal S1x128x128 .bf16) (v82 : Vec Ideal S1x128 .f32) :
    k0_pay1 (F := Ideal) v61 v63 v67 v69 v71 v78 v80 v82
      = addf (addf (addf (addf (addf v63 (downRows v61)) (relProd v67 v69)) (downRows (rowVec v71)))
          (relProd v78 v80)) (downRows (rowVec v82)) := rfl

/-! ## The loaded pieces where their rectangles lie -/

/-- A one-relation slab of rows loaded at relation `r`: its entry (0, i, j) is the block's entry (r, i, j). -/
theorem ldA_at (x0 : Vec Ideal S8x5000x128 .bf16) (off : Fin 3 → Nat)
    (inb : ∀ a, off a + S1x5000x128.size a ≤ S8x5000x128.size a) (r : Fin 8)
    (h0 : off 0 = r.val) (h1 : off 1 = 0) (h2 : off 2 = 0) (i : Fin 5000) (j : Fin 128) :
    View.ld x0 (Rect.unit (s := S8x5000x128) off S1x5000x128.size inb) (ix3 (0 : Fin 1) i j) = x0 (ix3 r i j) := by
  show x0 ((Rect.unit (s := S8x5000x128) off S1x5000x128.size inb).idx (ix3 (0 : Fin 1) i j)) = x0 (ix3 r i j)
  refine congrArg x0 (funext fun a => Fin.ext ?_)
  match a with
  | ⟨0, _⟩ => show off 0 + 1 * 0 = r.val; omega
  | ⟨1, _⟩ => show off 1 + 1 * i.val = i.val; omega
  | ⟨2, _⟩ => show off 2 + 1 * j.val = j.val; omega

/-- A one-relation weight loaded at relation `r`. -/
theorem ldW_at (x1 : Vec Ideal S8x128x128 .bf16) (off : Fin 3 → Nat)
    (inb : ∀ a, off a + S1x128x128.size a ≤ S8x128x128.size a) (r : Fin 8)
    (h0 : off 0 = r.val) (h1 : off 1 = 0) (h2 : off 2 = 0) (i : Fin 128) (j : Fin 128) :
    View.ld x1 (Rect.unit (s := S8x128x128) off S1x128x128.size inb) (ix3 (0 : Fin 1) i j) = x1 (ix3 r i j) := by
  show x1 ((Rect.unit (s := S8x128x128) off S1x128x128.size inb).idx (ix3 (0 : Fin 1) i j)) = x1 (ix3 r i j)
  refine congrArg x1 (funext fun a => Fin.ext ?_)
  match a with
  | ⟨0, _⟩ => show off 0 + 1 * 0 = r.val; omega
  | ⟨1, _⟩ => show off 1 + 1 * i.val = i.val; omega
  | ⟨2, _⟩ => show off 2 + 1 * j.val = j.val; omega

/-- A one-relation bias row loaded at relation `r`. -/
theorem ldB_at (x2 : Vec Ideal S8x128 .f32) (off : Fin 2 → Nat)
    (inb : ∀ a, off a + S1x128.size a ≤ S8x128.size a) (r : Fin 8)
    (h0 : off 0 = r.val) (h1 : off 1 = 0) (j : Fin 128) :
    View.ld x2 (Rect.unit (s := S8x128) off S1x128.size inb) (ix2 (0 : Fin 1) j) = x2 (ix2 r j) := by
  show x2 ((Rect.unit (s := S8x128) off S1x128.size inb).idx (ix2 (0 : Fin 1) j)) = x2 (ix2 r j)
  refine congrArg x2 (funext fun a => Fin.ext ?_)
  match a with
  | ⟨0, _⟩ => show off 0 + 1 * 0 = r.val; omega
  | ⟨1, _⟩ => show off 1 + 1 * j.val = j.val; omega

/-! ## The stored block at an entry -/

/-- The store's rectangle starts at zero. -/
theorem off_zero : (![0, 0] : Fin 2 → Nat) = fun _ => 0 := funext fun a => by fin_cases a <;> rfl

/-- Entry (p, q) of the block the body stores, from the entries of the three input blocks. -/
theorem out0_3_at (x0 : Vec Ideal S8x5000x128 .bf16) (x1 : Vec Ideal S8x128x128 .bf16) (x2 : Vec Ideal S8x128 .f32)
    (p : Fin 5000) (q : Fin 128) :
    (Cert.KernelIdeal.Fr.out0_3 (F := Ideal) x0 x1 x2 (ix2 p q) : EReal)
      = Cert.Spec.kerRow (fun r k => (x0 (ix3 r p k) : EReal)) (fun r k j => (x1 (ix3 r k j) : EReal)) (fun r j => (x2 (ix2 r j) : EReal)) q := by
  -- the loaded pieces, relation by relation
  have a0 : ∀ k, View.ld x0 rA0 (ix3 (0 : Fin 1) p k) = x0 (ix3 0 p k) := fun k => ldA_at x0 _ _ 0 rfl rfl rfl p k
  have a1 : ∀ k, View.ld x0 rA1 (ix3 (0 : Fin 1) p k) = x0 (ix3 1 p k) := fun k => ldA_at x0 _ _ 1 rfl rfl rfl p k
  have a2 : ∀ k, View.ld x0 rA2 (ix3 (0 : Fin 1) p k) = x0 (ix3 2 p k) := fun k => ldA_at x0 _ _ 2 rfl rfl rfl p k
  have a3 : ∀ k, View.ld x0 rA3 (ix3 (0 : Fin 1) p k) = x0 (ix3 3 p k) := fun k => ldA_at x0 _ _ 3 rfl rfl rfl p k
  have a4 : ∀ k, View.ld x0 rA4 (ix3 (0 : Fin 1) p k) = x0 (ix3 4 p k) := fun k => ldA_at x0 _ _ 4 rfl rfl rfl p k
  have a5 : ∀ k, View.ld x0 rA5 (ix3 (0 : Fin 1) p k) = x0 (ix3 5 p k) := fun k => ldA_at x0 _ _ 5 rfl rfl rfl p k
  have a6 : ∀ k, View.ld x0 rA6 (ix3 (0 : Fin 1) p k) = x0 (ix3 6 p k) := fun k => ldA_at x0 _ _ 6 rfl rfl rfl p k
  have a7 : ∀ k, View.ld x0 rA7 (ix3 (0 : Fin 1) p k) = x0 (ix3 7 p k) := fun k => ldA_at x0 _ _ 7 rfl rfl rfl p k
  have w0 : ∀ k, View.ld x1 rW0 (ix3 (0 : Fin 1) k q) = x1 (ix3 0 k q) := fun k => ldW_at x1 _ _ 0 rfl rfl rfl k q
  have w1 : ∀ k, View.ld x1 rW1 (ix3 (0 : Fin 1) k q) = x1 (ix3 1 k q) := fun k => ldW_at x1 _ _ 1 rfl rfl rfl k q
  have w2 : ∀ k, View.ld x1 rW2 (ix3 (0 : Fin 1) k q) = x1 (ix3 2 k q) := fun k => ldW_at x1 _ _ 2 rfl rfl rfl k q
  have w3 : ∀ k, View.ld x1 rW3 (ix3 (0 : Fin 1) k q) = x1 (ix3 3 k q) := fun k => ldW_at x1 _ _ 3 rfl rfl rfl k q
  have w4 : ∀ k, View.ld x1 rW4 (ix3 (0 : Fin 1) k q) = x1 (ix3 4 k q) := fun k => ldW_at x1 _ _ 4 rfl rfl rfl k q
  have w5 : ∀ k, View.ld x1 rW5 (ix3 (0 : Fin 1) k q) = x1 (ix3 5 k q) := fun k => ldW_at x1 _ _ 5 rfl rfl rfl k q
  have w6 : ∀ k, View.ld x1 rW6 (ix3 (0 : Fin 1) k q) = x1 (ix3 6 k q) := fun k => ldW_at x1 _ _ 6 rfl rfl rfl k q
  have w7 : ∀ k, View.ld x1 rW7 (ix3 (0 : Fin 1) k q) = x1 (ix3 7 k q) := fun k => ldW_at x1 _ _ 7 rfl rfl rfl k q
  have b0 : View.ld x2 rB0 (ix2 (0 : Fin 1) q) = x2 (ix2 0 q) := ldB_at x2 _ _ 0 rfl rfl q
  have b1 : View.ld x2 rB1 (ix2 (0 : Fin 1) q) = x2 (ix2 1 q) := ldB_at x2 _ _ 1 rfl rfl q
  have b2 : View.ld x2 rB2 (ix2 (0 : Fin 1) q) = x2 (ix2 2 q) := ldB_at x2 _ _ 2 rfl rfl q
  have b3 : View.ld x2 rB3 (ix2 (0 : Fin 1) q) = x2 (ix2 3 q) := ldB_at x2 _ _ 3 rfl rfl q
  have b4 : View.ld x2 rB4 (ix2 (0 : Fin 1) q) = x2 (ix2 4 q) := ldB_at x2 _ _ 4 rfl rfl q
  have b5 : View.ld x2 rB5 (ix2 (0 : Fin 1) q) = x2 (ix2 5 q) := ldB_at x2 _ _ 5 rfl rfl q
  have b6 : View.ld x2 rB6 (ix2 (0 : Fin 1) q) = x2 (ix2 6 q) := ldB_at x2 _ _ 6 rfl rfl q
  have b7 : View.ld x2 rB7 (ix2 (0 : Fin 1) q) = x2 (ix2 7 q) := ldB_at x2 _ _ 7 rfl rfl q
  -- the one store covers the buffer, so the buffer holds its payload
  unfold Cert.KernelIdeal.Fr.out0_3
  rw [View.canon_unit_zero off_zero, pay1_eq, pay4_eq, pay5_eq, pay2_eq, pay3_eq]
  -- the tree, entry by entry
  simp only [addf_apply, broadcast_apply, relProd_at, downRows_at, rowVec_at]
  -- the loaded pieces where they lie in the input blocks
  simp only [a0, a1, a2, a3, a4, a5, a6, a7, w0, w1, w2, w3, w4, w5, w6, w7, b0, b1, b2, b3, b4, b5, b6, b7]
  -- the zero word is zero; what is left is the specification's sum, term for term
  rw [show (FloatOps.ofBits (F := Ideal) .f32 0x00000000#32 : EReal) = 0 from Ideal.ofBits_zero_f32]
  rfl

end Cert.KernelIdeal.Val

end
-- ==== Proof.KIVal.lean ====
import proofs.«129587_j88029649699360_1_alg».proof.Proof.KIFrame
import proofs.«129587_j88029649699360_1_alg».proof.Proof.KIPay
import proofs.«129587_j88029649699360_1_alg».proof.Proof.Spec
import Idealize.ShloMosaic.Lib.Pipeline.Value
import Idealize.ShloMosaic.Lib.ValueIdx

/-!
From the ten blocks to the array. Point `t` of the grid is handed rows 5000·t … 5000·t + 4999 of the eight
relations' scaled aggregates, all eight weights and all eight biases, and writes back rows 5000·t … 5000·t + 4999
of the result. Entry (p, q) of the block it writes is row p's entry q in the kernel's order of additions, and row p
of the block is row 5000·t + p of the array; so the block written at `t` is block `t` of ONE function of the three
arrays, entry (n, j) ↦ the kernel's sum for row n and feature j. Row n lies in the block of point n / 5000, so the ten
blocks cover the array, and the array ends holding that function.
-/

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Fr Idealize.ShloMosaic.ValueIdx

variable (m : (ℓ : Loc nD τ sig) → Buf (Elt Ideal) ℓ)

/-! ## The three arrays the region reads and the blocks a point is handed -/

/-- The eight relations' scaled aggregates, 50000 rows of 128 features each, as the region finds them. -/
abbrev aggArr (c : Dev nD) : Vec Ideal S8x50000x128 .bf16 := Fr.V (F := Ideal) m c main_v273
/-- The eight 128 × 128 weights. -/
abbrev wtArr (c : Dev nD) : Vec Ideal S8x128x128 .bf16 := Fr.V (F := Ideal) m c main_v274
/-- The eight bias vectors. -/
abbrev biasArr (c : Dev nD) : Vec Ideal S8x128 .f32 := Fr.V (F := Ideal) m c main_arg2

/-- Point `t`'s block of the aggregates: 5000 rows of each relation. -/
abbrev aggBlk (c : Dev nD) (t : Fin cfg0.N) : Vec Ideal S8x5000x128 .bf16 := Fr.iblk (F := Ideal) m c 0 t
/-- Point `t`'s block of the weights: all of them. -/
abbrev wtBlk (c : Dev nD) (t : Fin cfg0.N) : Vec Ideal S8x128x128 .bf16 := Fr.iblk (F := Ideal) m c 1 t
/-- Point `t`'s block of the biases: all of them. -/
abbrev biasBlk (c : Dev nD) (t : Fin cfg0.N) : Vec Ideal S8x128 .f32 := Fr.iblk (F := Ideal) m c 2 t

/-- The result as one function of the three arrays: entry (n, j) is the kernel's sum for row n and feature j. -/
def outFn (c : Dev nD) : Vec Ideal S50000x128 .f32 := fun i =>
  Cert.Spec.kerAt (fun r n k => (aggArr m c (ix3 r n k) : EReal)) (fun r k j => (wtArr m c (ix3 r k j) : EReal))
    (fun r j => (biasArr m c (ix2 r j) : EReal)) (i 0) (i 1)

/-! ## Where the blocks sit -/

/-- The grid has ten points. -/
theorem point_lt (t : Fin cfg0.N) : t.val < 10 := lt_of_lt_of_eq t.isLt N_0

/-- The index maps over the grid: the aggregates' and the result's blocks move with the point along the rows and
    sit at zero elsewhere; the weights' and the biases' one block sits at zero. -/
theorem idx_maps : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point `t`'s block of the aggregates is row 5000·t + p of the array. -/
theorem aggBlk_at (c : Dev nD) (t : Fin cfg0.N) (r : Fin 8) (p : Fin 5000) (k : Fin 128) (n : Fin 50000)
    (hn : n.val = 5000 * t.val + p.val) :
    aggBlk m c t (ix3 r p k) = aggArr m c (ix3 r n k) := by
  obtain ⟨e0, e1, e2, -⟩ := idx_maps t
  show Fr.V (F := Ideal) m c main_v273 (((cfg0.win 0).blk t).view.emb (ix3 r p k)) = Fr.V (F := Ideal) m c main_v273 (ix3 r n k)
  refine congrArg (aggArr m c) ?_
  funext a; apply Fin.ext
  match a with
  | ⟨0, _⟩ => show win0_0.index t (0 : Fin 3) * 8 + 1 * r.val = r.val; omega
  | ⟨1, _⟩ => show win0_0.index t (1 : Fin 3) * 5000 + 1 * p.val = n.val; omega
  | ⟨2, _⟩ => show win0_0.index t (2 : Fin 3) * 128 + 1 * k.val = k.val; omega

/-- Every point's block of the weights is the whole array. -/
theorem wtBlk_at (c : Dev nD) (t : Fin cfg0.N) (r : Fin 8) (k : Fin 128) (j : Fin 128) :
    wtBlk m c t (ix3 r k j) = wtArr m c (ix3 r k j) := by
  obtain ⟨-, -, -, e0, e1, e2, -⟩ := idx_maps t
  show Fr.V (F := Ideal) m c main_v274 (((cfg0.win 1).blk t).view.emb (ix3 r k j)) = Fr.V (F := Ideal) m c main_v274 (ix3 r k j)
  refine congrArg (wtArr m c) ?_
  funext a; apply Fin.ext
  match a with
  | ⟨0, _⟩ => show win0_1.index t (0 : Fin 3) * 8 + 1 * r.val = r.val; omega
  | ⟨1, _⟩ => show win0_1.index t (1 : Fin 3) * 128 + 1 * k.val = k.val; omega
  | ⟨2, _⟩ => show win0_1.index t (2 : Fin 3) * 128 + 1 * j.val = j.val; omega

/-- Every point's block of the biases is the whole array. -/
theorem biasBlk_at (c : Dev nD) (t : Fin cfg0.N) (r : Fin 8) (j : Fin 128) :
    biasBlk m c t (ix2 r j) = biasArr m c (ix2 r j) := by
  obtain ⟨-, -, -, -, -, -, e0, e1, -⟩ := idx_maps t
  show Fr.V (F := Ideal) m c main_arg2 (((cfg0.win 2).blk t).view.emb (ix2 r j)) = Fr.V (F := Ideal) m c main_arg2 (ix2 r j)
  refine congrArg (biasArr m c) ?_
  funext a; apply Fin.ext
  match a with
  | ⟨0, _⟩ => show win0_2.index t (0 : Fin 2) * 8 + 1 * r.val = r.val; omega
  | ⟨1, _⟩ => show win0_2.index t (1 : Fin 2) * 128 + 1 * j.val = j.val; omega

/-! ## What a point writes back -/

/-- Point `t` writes back block `t` of `outFn`: entry (p, q) of what the body stored is row p's sum over the
    point's blocks, which are row 5000·t + p of the aggregates and the whole weights and biases, and entry (p, q) of
    the result's block sits at (5000·t + p, q). -/
theorem flushed_eq (c : Dev nD) (t : Fin cfg0.N) :
    (Fr.dats (F := Ideal) m 0 c).flushed 3 t = ((cfg0.win 3).blk t).view.read (Elt Ideal) (outFn m c) := by
  show (cfg0.win 3).cut (grid0.coords t) ((Fr.dats (F := Ideal) m 0 c).after 3 t) = _
  rw [Fr.after0_3]
  funext y
  obtain ⟨p, q, rfl⟩ : ∃ (p : Fin 5000) (q : Fin 128), y = ix2 p q := ⟨y 0, y 1, eq_ix2 y⟩
  have ht := point_lt t
  have hn : 5000 * t.val + p.val < 50000 := by omega
  obtain ⟨-, -, -, -, -, -, -, -, e0, e1⟩ := idx_maps t
  have hemb : ((cfg0.win 3).blk t).view.emb (ix2 p q) = (ix2 (⟨5000 * t.val + p.val, hn⟩ : Fin 50000) q : S50000x128.Idx) := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  show (Fr.out0_3 (F := Ideal) (aggBlk m c t) (wtBlk m c t) (biasBlk m c t) (ix2 p q) : EReal)
      = outFn m c (((cfg0.win 3).blk t).view.emb (ix2 p q))
  rw [hemb]
  refine (out0_3_at (aggBlk m c t) (wtBlk m c t) (biasBlk m c t) p q).trans ?_
  have hA : (fun (r : Fin 8) (k : Fin 128) => (aggBlk m c t (ix3 r p k) : EReal))
      = fun r k => (aggArr m c (ix3 r (⟨5000 * t.val + p.val, hn⟩ : Fin 50000) k) : EReal) :=
    funext fun r => funext fun k => aggBlk_at m c t r p k _ rfl
  have hW : (fun (r : Fin 8) (k : Fin 128) (j : Fin 128) => (wtBlk m c t (ix3 r k j) : EReal))
      = fun r k j => (wtArr m c (ix3 r k j) : EReal) :=
    funext fun r => funext fun k => funext fun j => wtBlk_at m c t r k j
  have hB : (fun (r : Fin 8) (j : Fin 128) => (biasBlk m c t (ix2 r j) : EReal))
      = fun r j => (biasArr m c (ix2 r j) : EReal) :=
    funext fun r => funext fun j => biasBlk_at m c t r j
  rw [hA, hW, hB]
  exact (Cert.Spec.kerAt_eq_kerRow (fun r n k => (aggArr m c (ix3 r n k) : EReal)) (fun r k j => (wtArr m c (ix3 r k j) : EReal))
    (fun r j => (biasArr m c (ix2 r j) : EReal)) ⟨5000 * t.val + p.val, hn⟩ q).symm

/-! ## The blocks cover the array -/

/-- An entry of the array is in point `t`'s block iff on each axis it lies in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v275).slice (win0_3.rect t)).set ↔ _
  rw [View.set_slice_whole, Rect.mem_set_unit]
  exact Iff.rfl

/-- Row n is in the block of point n / 5000, and every point writes its block back. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, htv⟩ : ∃ t : Fin cfg0.N, t.val = (i 0).val / 5000 :=
    ⟨⟨(i 0).val / 5000, lt_of_lt_of_eq (show (i 0).val / 5000 < 10 by omega) N_0.symm⟩, rfl⟩
  obtain ⟨-, -, -, -, -, -, -, -, e0, e1⟩ := idx_maps t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-! ## The array after the run -/

/-- The result array ends holding `outFn` of the three arrays. -/
theorem final (c : Dev nD) : (Fr.dats (F := Ideal) m 0 c).arrAt 3 cfg0.N = outFn m c :=
  (Fr.dats (F := Ideal) m 0 c).arrAt_eq_of_cover 3 (outFn m c) (fun t _ => flushed_eq m c t) cover

/-- Entry (n, j) of the result array after the run is the kernel's sum for row n and feature j over the three arrays
    as the region finds them. -/
theorem out_at (c : Dev nD) (n : Fin 50000) (j : Fin 128) :
    ((Fr.dats (F := Ideal) m 0 c).arrAt 3 cfg0.N (ix2 n j) : EReal)
      = Cert.Spec.kerAt (fun r n k => (Fr.V (F := Ideal) m c main_v273 (ix3 r n k) : EReal))
          (fun r k j => (Fr.V (F := Ideal) m c main_v274 (ix3 r k j) : EReal))
          (fun r j => (Fr.V (F := Ideal) m c main_arg2 (ix2 r j) : EReal)) n j :=
  congrFun (final m c) (ix2 n j)

end Cert.KernelIdeal.Val

end
-- ==== Proof.Claims.lean ====
import proofs.«129587_j88029649699360_1_alg».proof.Proof.Bridge
import proofs.«129587_j88029649699360_1_alg».proof.Proof.RefAt
import proofs.«129587_j88029649699360_1_alg».proof.Proof.RefRun
import proofs.«129587_j88029649699360_1_alg».proof.Proof.RefVal
import proofs.«129587_j88029649699360_1_alg».proof.Proof.KIHost
import proofs.«129587_j88029649699360_1_alg».proof.Proof.KIVal

/-!
The five claims. The two kernel programs' frames are the one-region pipeline's run read at the argument arrays; the
reference's frame is its run with the result dropped; nothing was rewritten in the idealization, so it preserves
trivially; and the two idealized programs end with equal results because entry by entry they compute one sum.
-/

noncomputable section

namespace Cert.Proof.Claims

open Idealize.ShloMosaic Idealize.ShloMosaic.TcCoe Idealize.SL.Sem Idealize.ShloMosaic.ValueIdx

theorem frame_p : Cert.frame_Kernel := fun m ρ _ => Cert.Kernel.Fr.frame m ρ

theorem frame_pi : Cert.frame_KernelIdeal := fun m ρ _ => Cert.KernelIdeal.Fr.frame m ρ

/-- The reference's frame: its run, read at the result as the eight contributions' sum and at the arguments as launched,
    with the result dropped. -/
theorem frame_ri : Cert.frame_ReferenceIdeal := fun m ρ _ =>
  (θ_run Cert.ReferenceIdeal.defs _ _).mono (fun _ h c => (h c).2)
    (Bridge.ref_run m ρ (Cert.ReferenceIdeal.RefRun.run_after (F := Ideal) m ρ)
    (fun W => Cert.ReferenceIdeal.RefVal.after_result (F := Ideal) W)
    (fun W => Cert.ReferenceIdeal.RefVal.after_arg0 (F := Ideal) W) (fun W => Cert.ReferenceIdeal.RefVal.after_arg1 (F := Ideal) W)
    (fun W => Cert.ReferenceIdeal.RefVal.after_arg2 (F := Ideal) W) (fun W => Cert.ReferenceIdeal.RefVal.after_arg3 (F := Ideal) W)
    (fun W => Cert.ReferenceIdeal.RefVal.after_arg4 (F := Ideal) W))

theorem preserves : Cert.preserves_Kernel_KernelIdeal := trivial

/-- Both idealized programs run, and the reference's result — the eight contributions' sum over arguments that agree
    with the kernel's — is, entry by entry, what the kernel's ten points wrote. -/
theorem algebraic : Cert.algebraic_KernelIdeal_ReferenceIdeal := by
  intro m ρ m' ρ' _ hagree
  refine ⟨fun c => (Cert.KernelIdeal.Fr.dats (F := Ideal) m 0 c).arrAt 3 Cert.KernelIdeal.cfg0.N, Cert.KernelIdeal.Fr.run_named (F := Ideal) m ρ, ?_⟩
  refine (θ_run Cert.ReferenceIdeal.defs _ _).mono (fun _ h c => ⟨(h c).1.trans ?_, (h c).2⟩)
    (Bridge.ref_run m' ρ' (Cert.ReferenceIdeal.RefRun.run_after (F := Ideal) m' ρ')
    (fun W => Cert.ReferenceIdeal.RefVal.after_result (F := Ideal) W)
    (fun W => Cert.ReferenceIdeal.RefVal.after_arg0 (F := Ideal) W) (fun W => Cert.ReferenceIdeal.RefVal.after_arg1 (F := Ideal) W)
    (fun W => Cert.ReferenceIdeal.RefVal.after_arg2 (F := Ideal) W) (fun W => Cert.ReferenceIdeal.RefVal.after_arg3 (F := Ideal) W)
    (fun W => Cert.ReferenceIdeal.RefVal.after_arg4 (F := Ideal) W))
  rw [(hagree c).1, (hagree c).2.1, (hagree c).2.2.1, (hagree c).2.2.2.1, (hagree c).2.2.2.2]
  exact Bridge.value_eq m c (fun n j => Cert.KernelIdeal.Val.out_at m c n j) (fun r n k => Cert.KernelIdeal.Host.V273_at m c r n k)
    (fun r k j => Cert.KernelIdeal.Host.V274_at m c r k j) (fun n j => Cert.ReferenceIdeal.RefAt.refTerm_at _ _ _ _ _ n j)

end Cert.Proof.Claims

end
-- ==== Proof.lean ====
/- The certificate of one relational graph-convolution layer: eight relations over 50000 nodes with 128 features.
   Per relation both programs build, on the host, the aggregate of the degree-scaled source features into destination
   nodes and the destination degree factor max(1, count)^(-1/2). The reference multiplies each aggregate by its weight,
   scales row n by the factor, adds the bias and sums the eight; the kernel scales the aggregate's rows first, stacks the
   eight, and one pallas_call over ten blocks of 5000 rows multiplies by the weights and adds the biases. The claims are
   proved in Proof/Claims.lean: the frames from the pipeline's run (Proof/KIFrame.lean, Proof/KFrame.lean) and the
   reference's run (Proof/RefRun.lean, Proof/RefVal.lean); equality of the results from the entry-by-entry sums
   (Proof/Spec.lean), a nonnegative finite factor moving out of the sum over the features. -/
import proofs.«129587_j88029649699360_1_alg».proof.Defs
import proofs.«129587_j88029649699360_1_alg».proof.Proof.Gen.Kernel
import proofs.«129587_j88029649699360_1_alg».proof.Proof.Gen.KernelIdeal
import proofs.«129587_j88029649699360_1_alg».proof.Proof.Gen.ReferenceIdeal
import proofs.«129587_j88029649699360_1_alg».proof.Proof.Gen.Pre_finite_inputs
import proofs.«129587_j88029649699360_1_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
